-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v64)) (v2 : (c : Dev Cert.KernelIdeal.nD) → Buf (Elt Ideal) ((c.tc : Thread Cert.KernelIdeal.nD Cert.KernelIdeal.τ).loc Cert.KernelIdeal.main_v87)) (v3 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_v87) = v2 c
          ∧ r.2.mem ((c.tc : Thread Cert.KernelIdeal.nD Cert.KernelIdeal.τ).loc Cert.KernelIdeal.main_v109) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v118) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S_ : Shape := ⟨0, ![]⟩
abbrev S1x1600000 : Shape := ⟨2, ![1, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000

variable [Facts]

def fn_part2 {F : FTy → Type} [FloatOps F] (main_arg1 : IVec S2x1600000 32) (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : IVec S1x1600000 32 := (extractStridedSlice S1x1600000 ![0, 0] · slices_S2x1600000_S1x1600000_0_0) main_arg1
  let main_v40 : IVec S1600000 32 := shapeCast S1600000 main_v39 shapeCasts_S1x1600000_S1600000
  let main_c_14 : IVec S_ 32 := constantI S_ 32 0#32
  let main_v41 : IVec S1600000 32 := broadcastInDim S1600000 ![] bcast_S_S1600000 main_c_14
  let main_v42 : IVec S1600000 1 := cmpi .sge main_v40 main_v41
  let main_c_15 : IVec S_ 1 := constantI S_ 1 1#1
  let main_v43 : IVec S_ 1 := (fun x v => Host.reduce IntOp.andi x v reducesTo_S1600000_S_d0 h_S_) main_v42 main_c_15
  let main_v44 : IVec S_ 1 := andi main_v38 main_v43
  let main_v45 : IVec S1x1600000 32 := (extractStridedSlice S1x1600000 ![0, 0] · slices_S2x1600000_S1x1600000_0_0) main_arg1
  let main_v46 : IVec S1600000 32 := shapeCast S1600000 main_v45 shapeCasts_S1x1600000_S1600000
  let main_c_16 : IVec S_ 32 := constantI S_ 32 100000#32
  let main_v47 : IVec S1600000 32 := broadcastInDim S1600000 ![] bcast_S_S1600000 main_c_16
  let main_v48 : IVec S1600000 1 := cmpi .slt main_v46 main_v47
  let main_c_17 : IVec S_ 1 := constantI S_ 1 1#1
  let main_v49 : IVec S_ 1 := (fun x v => Host.reduce IntOp.andi x v reducesTo_S1600000_S_d0 h_S_) main_v48 main_c_17
  let main_v50 : IVec S_ 1 := andi main_v44 main_v49
  main_v50

def fn_part1 {F : FTy → Type} [FloatOps F] (main_arg1 : IVec S2x1600000 32) (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg9 main_v33

def fn {F : FTy → Type} [FloatOps F] (main_arg0 : FVec F S100000x128 .f32) (main_arg1 : IVec S2x1600000 32) (main_arg2 : FVec F S1600000 .f32) (main_arg3 : IVec S100000 32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100096 : Shape := ⟨1, ![100096]⟩
abbrev S1x100096 : Shape := ⟨2, ![1, 100096]⟩
abbrev S100000x1 : Shape := ⟨2, ![100000, 1]⟩
abbrev S128x1 : Shape := ⟨2, ![128, 1]⟩
abbrev S100096x128 : Shape := ⟨2, ![100096, 128]⟩
abbrev S6256x128 : Shape := ⟨2, ![6256, 128]⟩
abbrev S1700000x128 : Shape := ⟨2, ![1700000, 128]⟩
abbrev S1x128 : Shape := ⟨2, ![1, 128]⟩
abbrev S2x128x128 : Shape := ⟨3, ![2, 128, 128]⟩
abbrev S2944x128 : Shape := ⟨2, ![2944, 128]⟩
abbrev S1x2944 : Shape := ⟨2, ![1, 2944]⟩
abbrev S1x128x128 : Shape := ⟨3, ![1, 128, 128]⟩
abbrev S128x2944 : Shape := ⟨2, ![128, 2944]⟩

abbrev nBuf : Space → Nat
  | .hbm => 155
  | .vmem => 33
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S1x1600000, .i32⟩
  | 11 => ⟨S1600000, .i32⟩
  | 12 => ⟨S100000, .i32⟩
  | 13 => ⟨S1700000, .i32⟩
  | 14 => ⟨S1x1600000, .i32⟩
  | 15 => ⟨S1600000, .i32⟩
  | 16 => ⟨S100000, .i32⟩
  | 17 => ⟨S1700000, .i32⟩
  | 18 => ⟨S_, .f32⟩
  | 19 => ⟨S100000, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S_, .i32⟩
  | 55 => ⟨S100096, .i32⟩
  | 56 => ⟨S1x100096, .i32⟩
  | 57 => ⟨S_, .f32⟩
  | 58 => ⟨S100000, .f32⟩
  | 59 => ⟨S_, .f32⟩
  | 60 => ⟨S128, .f32⟩
  | 61 => ⟨S100000x1, .i32⟩
  | 62 => ⟨S128, .f32⟩
  | 63 => ⟨S_, .f32⟩
  | 64 => ⟨S_, .f32⟩
  | 65 => ⟨S128, .f32⟩
  | 66 => ⟨S128, .f32⟩
  | 67 => ⟨S128x1, .f32⟩
  | 68 => ⟨S_, .i32⟩
  | 69 => ⟨S_, .f32⟩
  | 70 => ⟨S100096x128, .f32⟩
  | 71 => ⟨S100096x128, .bf16⟩
  | 72 => ⟨S1700000x1, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x128, .bf16⟩
  | 82 => ⟨S1700000x128, .f32⟩
  | 83 => ⟨S1700000x128, .f32⟩
  | 84 => ⟨S1700000x128, .f32⟩
  | 85 => ⟨S_, .f32⟩
  | 86 => ⟨S100096x128, .f32⟩
  | 87 => ⟨S1700000x1, .i32⟩
  | 88 => ⟨S100096x128, .f32⟩
  | 89 => ⟨S1x128, .f32⟩
  | 90 => ⟨S100096x128, .f32⟩
  | 91 => ⟨S100096x128, .f32⟩
  | 92 => ⟨S_, .f32⟩
  | 93 => ⟨S100096x128, .f32⟩
  | 94 => ⟨S100096x128, .f32⟩
  | 95 => ⟨S2x128x128, .f32⟩
  | 96 => ⟨S_, .f32⟩
  | 97 => ⟨S128x128, .f32⟩
  | 98 => ⟨S128x128, .f32⟩
  | 99 => ⟨S128x128, .f32⟩
  | 100 => ⟨S100096x128, .bf16⟩
  | 101 => ⟨S1700000x1, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x128, .bf16⟩
  | 111 => ⟨S1700000x128, .f32⟩
  | 112 => ⟨S1700000x128, .f32⟩
  | 113 => ⟨S1700000x128, .f32⟩
  | 114 => ⟨S_, .f32⟩
  | 115 => ⟨S100096x128, .f32⟩
  | 116 => ⟨S1700000x1, .i32⟩
  | 117 => ⟨S100096x128, .f32⟩
  | 118 => ⟨S1x128, .f32⟩
  | 119 => ⟨S100096x128, .f32⟩
  | 120 => ⟨S100096x128, .f32⟩
  | 121 => ⟨S_, .f32⟩
  | 122 => ⟨S100096x128, .f32⟩
  | 123 => ⟨S100096x128, .f32⟩
  | 124 => ⟨S2x128x128, .f32⟩
  | 125 => ⟨S_, .f32⟩
  | 126 => ⟨S128x128, .f32⟩
  | 127 => ⟨S128x128, .f32⟩
  | _ => ⟨S100000x128, .f32⟩

abbrev hbmTy0_1 (i : Nat) : BufTy := match i % 128 with
  | 0 => ⟨S128x128, .f32⟩
  | 1 => ⟨S100096x128, .bf16⟩
  | 2 => ⟨S1700000x1, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000x128, .bf16⟩
  | 12 => ⟨S1700000x128, .f32⟩
  | 13 => ⟨S1700000x128, .f32⟩
  | 14 => ⟨S1700000x128, .f32⟩
  | 15 => ⟨S_, .f32⟩
  | 16 => ⟨S100096x128, .f32⟩
  | 17 => ⟨S1700000x1, .i32⟩
  | 18 => ⟨S100096x128, .f32⟩
  | 19 => ⟨S1x128, .f32⟩
  | 20 => ⟨S100096x128, .f32⟩
  | 21 => ⟨S100096x128, .f32⟩
  | 22 => ⟨S2x128x128, .f32⟩
  | 23 => ⟨S_, .f32⟩
  | 24 => ⟨S128x128, .f32⟩
  | 25 => ⟨S128x128, .f32⟩
  | 26 => ⟨S128x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S6256x128, .f32⟩
  | .local _ .vmem, ⟨1, _⟩ => ⟨S6256x128, .f32⟩
  | .local _ .vmem, ⟨2, _⟩ => ⟨S128x128, .f32⟩
  | .local _ .vmem, ⟨3, _⟩ => ⟨S6256x128, .bf16⟩
  | .local _ .vmem, ⟨4, _⟩ => ⟨S6256x128, .bf16⟩
  | .local _ .vmem, ⟨5, _⟩ => ⟨S2944x128, .f32⟩
  | .local _ .vmem, ⟨6, _⟩ => ⟨S2944x128, .f32⟩
  | .local _ .vmem, ⟨7, _⟩ => ⟨S1x2944, .i32⟩
  | .local _ .vmem, ⟨8, _⟩ => ⟨S1x2944, .i32⟩
  | .local _ .vmem, ⟨9, _⟩ => ⟨S1x128x128, .f32⟩
  | .local _ .vmem, ⟨10, _⟩ => ⟨S1x128x128, .f32⟩
  | .local _ .vmem, ⟨11, _⟩ => ⟨S6256x128, .f32⟩
  | .local _ .vmem, ⟨12, _⟩ => ⟨S6256x128, .f32⟩
  | .local _ .vmem, ⟨13, _⟩ => ⟨S128x128, .f32⟩
  | .local _ .vmem, ⟨14, _⟩ => ⟨S6256x128, .bf16⟩
  | .local _ .vmem, ⟨15, _⟩ => ⟨S6256x128, .bf16⟩
  | .local _ .vmem, ⟨16, _⟩ => ⟨S2944x128, .f32⟩
  | .local _ .vmem, ⟨17, _⟩ => ⟨S2944x128, .f32⟩
  | .local _ .vmem, ⟨18, _⟩ => ⟨S1x2944, .i32⟩
  | .local _ .vmem, ⟨19, _⟩ => ⟨S1x2944, .i32⟩
  | .local _ .vmem, ⟨20, _⟩ => ⟨S1x128x128, .f32⟩
  | .local _ .vmem, ⟨21, _⟩ => ⟨S1x128x128, .f32⟩
  | .local _ .vmem, ⟨22, _⟩ => ⟨S6256x128, .f32⟩
  | .local _ .vmem, ⟨23, _⟩ => ⟨S6256x128, .f32⟩
  | .local _ .vmem, ⟨24, _⟩ => ⟨S128x128, .f32⟩
  | .local _ .vmem, ⟨25, _⟩ => ⟨S6256x128, .bf16⟩
  | .local _ .vmem, ⟨26, _⟩ => ⟨S6256x128, .bf16⟩
  | .local _ .vmem, ⟨27, _⟩ => ⟨S2944x128, .f32⟩
  | .local _ .vmem, ⟨28, _⟩ => ⟨S2944x128, .f32⟩
  | .local _ .vmem, ⟨29, _⟩ => ⟨S1x2944, .i32⟩
  | .local _ .vmem, ⟨30, _⟩ => ⟨S1x2944, .i32⟩
  | .local _ .vmem, ⟨31, _⟩ => ⟨S1x128x128, .f32⟩
  | .local _ .vmem, ⟨32, _⟩ => ⟨S1x128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_call1_v0 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_call2_v0 : Ref sig .tc := ⟨.hbm, 64, rfl⟩
abbrev main_call2_v1 : Ref sig .tc := ⟨.hbm, 65, rfl⟩
abbrev main_v39 : Ref sig .tc := ⟨.hbm, 66, rfl⟩
abbrev main_v40 : Ref sig .tc := ⟨.hbm, 67, rfl⟩
abbrev main_c_10 : Ref sig .tc := ⟨.hbm, 68, rfl⟩
abbrev main_call3_v0 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_11 : Ref sig .tc := ⟨.hbm, 73, rfl⟩
abbrev main_v44 : Ref sig .tc := ⟨.hbm, 74, rfl⟩
abbrev main_v45 : Ref sig .tc := ⟨.hbm, 75, rfl⟩
abbrev main_c_12 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_13 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_call4_cst : Ref sig .tc := ⟨.hbm, 92, rfl⟩
abbrev main_call4_v0 : Ref sig .tc := ⟨.hbm, 93, rfl⟩
abbrev main_v60 : Ref sig .tc := ⟨.hbm, 94, rfl⟩
abbrev main_v61 : Ref sig .tc := ⟨.hbm, 95, rfl⟩
abbrev main_cst_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_15 : Ref sig .tc := ⟨.hbm, 102, rfl⟩
abbrev main_v67 : Ref sig .tc := ⟨.hbm, 103, rfl⟩
abbrev main_v68 : Ref sig .tc := ⟨.hbm, 104, rfl⟩
abbrev main_c_16 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_17 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_call5_cst : Ref sig .tc := ⟨.hbm, 121, rfl⟩
abbrev main_call5_v0 : Ref sig .tc := ⟨.hbm, 122, rfl⟩
abbrev main_v83 : Ref sig .tc := ⟨.hbm, 123, rfl⟩
abbrev main_v84 : Ref sig .tc := ⟨.hbm, 124, rfl⟩
abbrev main_cst_18 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_19 : Ref sig .tc := ⟨.hbm, 131, rfl⟩
abbrev main_v90 : Ref sig .tc := ⟨.hbm, 132, rfl⟩
abbrev main_v91 : Ref sig .tc := ⟨.hbm, 133, rfl⟩
abbrev main_c_20 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_21 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_22 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 17], ![false, false]⟩

def cc1_transform_0 (i : grid1.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2944x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2944 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S6256x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 17], ![false, false]⟩

def cc3_transform_0 (i : grid3.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![c0_i32.toNat, v1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S2944x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2944 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x128x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6256x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S6256x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![2, 17], ![false, false]⟩

def cc5_transform_0 (i : grid5.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc5_transform_1 (i : grid5.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![c0_i32.toNat, v1.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S2944x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x2944 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x128x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  pads_S100000_S100096_0960 : S100000.Pads (![0] : Fin 1 → Nat) ![96] ![0] S100096
  h_S_ : 0 < S_.numel
  shapeCasts_S100096_S1x100096 : S100096.ShapeCasts S1x100096
  bcast_S_S128 : S_.BroadcastsInDim S128 (![] : Fin 0 → Fin S128.rank)
  bcast_S100000_S100000x1_0 : S100000.BroadcastsInDim S100000x1 (![0] : Fin 1 → Fin S100000x1.rank)
  bcast_S128_S128x1_0 : S128.BroadcastsInDim S128x1 (![0] : Fin 1 → Fin S128x1.rank)
  pads_S100000x128_S100096x128_0960_000 : S100000x128.Pads (![0, 0] : Fin 2 → Nat) ![96, 0] ![0, 0] S100096x128
  inb_S6256x128_S6256x128_0_0 : ∀ a, (![0, 0] : Fin 2 → Nat) a + S6256x128.size a ≤ S6256x128.size a
  h_S6256x128 : 0 < S6256x128.numel
  shapeCasts_S6256x128_S6256x128 : S6256x128.ShapeCasts S6256x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S6256x128_S6256x128_0_0 : (Rect.unit (s := S6256x128) ![0, 0] S6256x128.size inb_S6256x128_S6256x128_0_0).PackedRows (EltTy.packing .bf16)
  bcast_S1700000x1_S1700000x128_0_1 : S1700000x1.BroadcastsInDim S1700000x128 (![0, 1] : Fin 2 → Fin S1700000x128.rank)
  bcast_S_S100096x128 : S_.BroadcastsInDim S100096x128 (![] : Fin 0 → Fin S100096x128.rank)
  bcast_S128_S1x128_1 : S128.BroadcastsInDim S1x128 (![1] : Fin 1 → Fin S1x128.rank)
  bcast_S1x128_S100096x128_0_1 : S1x128.BroadcastsInDim S100096x128 (![0, 1] : Fin 2 → Fin S100096x128.rank)
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S2944x128_S2944x128_0_0 : ∀ a, (![0, 0] : Fin 2 → Nat) a + S2944x128.size a ≤ S2944x128.size a
  h_S2944x128 : 0 < S2944x128.numel
  shapeCasts_S2944x128_S2944x128 : S2944x128.ShapeCasts S2944x128
  inb_S1x2944_S1x2944_0_0 : ∀ a, (![0, 0] : Fin 2 → Nat) a + S1x2944.size a ≤ S1x2944.size a
  h_S1x2944 : 0 < S1x2944.numel
  shapeCasts_S1x2944_S1x2944 : S1x2944.ShapeCasts S1x2944
  iota_S128x1_d0_w32 : S128x1.Iotas .tc 32 [0]
  broadcasts_S128x1_S128x2944 : S128x1.Broadcasts S128x2944
  broadcasts_S1x2944_S128x2944 : S1x2944.Broadcasts S128x2944
  natLt_1_32 : 1 < 32
  reducesTo_S2x128x128_S128x128_d0 : S2x128x128.ReducesTo [0] S128x128
  bcast_S128x1_S128x128_0_1 : S128x1.BroadcastsInDim S128x128 (![0, 1] : Fin 2 → Fin S128x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  scatter_S128_S100000x1_S100000_n_0_0_1_wf : ScatterDims.WF S128 S100000x1 S100000 [] [0] [0] 1
  dot_S6256x128_S128x128_S6256x128_1_0_0_1_n_n_wf : DotDims.WF S6256x128 S128x128 S6256x128 [1] [0] [0] [1] [] []
  gather_S100096x128_S1700000x1_S1700000x128_1_0_n_n_0_1_1128_wf : GatherDims.WF S100096x128 S1700000x1 S1700000x128 [1] [0] [] [0] [] 1 ![1, 128]
  scatter_S100096x128_S1700000x1_S1700000x128_1_0_0_1_wf : ScatterDims.WF S100096x128 S1700000x1 S1700000x128 [1] [0] [0] 1
  dot_S128x2944_S2944x128_S128x128_1_0_0_1_n_n_wf : DotDims.WF S128x2944 S2944x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6256x128.size a ≤ S100096x128.size a
  hwx0_0 : ∀ i : grid0.Coords, EltTy.bits .f32 = 32 ∨ (Rect.block (s := S100096x128) S6256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6256x128.size a ≤ S100096x128.size a
  hwx0_2 : ∀ i : grid0.Coords, EltTy.bits .bf16 = 32 ∨ (Rect.block (s := S100096x128) S6256x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2944x128.size a ≤ S100096x128.size a
  hwx1_0 : ∀ i : grid1.Coords, EltTy.bits .f32 = 32 ∨ (Rect.block (s := S100096x128) S2944x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2944.size a ≤ S1x100096.size a
  hwx1_1 : ∀ i : grid1.Coords, EltTy.bits .i32 = 32 ∨ (Rect.block (s := S1x100096) S1x2944.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128.size a ≤ S2x128x128.size a
  hwx1_2 : ∀ i : grid1.Coords, EltTy.bits .f32 = 32 ∨ (Rect.block (s := S2x128x128) S1x128x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6256x128.size a ≤ S100096x128.size a
  hwx2_0 : ∀ i : grid2.Coords, EltTy.bits .f32 = 32 ∨ (Rect.block (s := S100096x128) S6256x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6256x128.size a ≤ S100096x128.size a
  hwx2_2 : ∀ i : grid2.Coords, EltTy.bits .bf16 = 32 ∨ (Rect.block (s := S100096x128) S6256x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2944x128.size a ≤ S100096x128.size a
  hwx3_0 : ∀ i : grid3.Coords, EltTy.bits .f32 = 32 ∨ (Rect.block (s := S100096x128) S2944x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2944.size a ≤ S1x100096.size a
  hwx3_1 : ∀ i : grid3.Coords, EltTy.bits .i32 = 32 ∨ (Rect.block (s := S1x100096) S1x2944.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x128x128.size a ≤ S2x128x128.size a
  hwx3_2 : ∀ i : grid3.Coords, EltTy.bits .f32 = 32 ∨ (Rect.block (s := S2x128x128) S1x128x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6256x128.size a ≤ S100096x128.size a
  hwx4_0 : ∀ i : grid4.Coords, EltTy.bits .f32 = 32 ∨ (Rect.block (s := S100096x128) S6256x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6256x128.size a ≤ S100096x128.size a
  hwx4_2 : ∀ i : grid4.Coords, EltTy.bits .bf16 = 32 ∨ (Rect.block (s := S100096x128) S6256x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2944x128.size a ≤ S100096x128.size a
  hwx5_0 : ∀ i : grid5.Coords, EltTy.bits .f32 = 32 ∨ (Rect.block (s := S100096x128) S2944x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x2944.size a ≤ S1x100096.size a
  hwx5_1 : ∀ i : grid5.Coords, EltTy.bits .i32 = 32 ∨ (Rect.block (s := S1x100096) S1x2944.size (cc5_transform_1 i) (hinb5_1 i)).WholeWords (EltTy.packing .i32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x128x128.size a ≤ S2x128x128.size a
  hwx5_2 : ∀ i : grid5.Coords, EltTy.bits .f32 = 32 ∨ (Rect.block (s := S2x128x128) S1x128x128.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S6256x128_S128x128_S6256x128_1_0_0_1_n_n : DotDims S6256x128 S128x128 S6256x128 where
  lhsContracting := [1]
  rhsContracting := [0]
  lhsNonContracting := [0]
  rhsNonContracting := [1]
  lhsBatch := []
  rhsBatch := []
  wf := dot_S6256x128_S128x128_S6256x128_1_0_0_1_n_n_wf
def gather_S100096x128_S1700000x1_S1700000x128_1_0_n_n_0_1_1128 : GatherDims S100096x128 S1700000x1 S1700000x128 where
  offsetDims := [1]
  collapsedSliceDims := [0]
  operandBatchingDims := []
  startIndicesBatchingDims := []
  startIndexMap := [0]
  indexVectorDim := 1
  sliceSizes := ![1, 128]
  wf := gather_S100096x128_S1700000x1_S1700000x128_1_0_n_n_0_1_1128_wf
def scatter_S100096x128_S1700000x1_S1700000x128_1_0_0_1 : ScatterDims S100096x128 S1700000x1 S1700000x128 where
  updateWindowDims := [1]
  insertedWindowDims := [0]
  scatterDimsToOperandDims := [0]
  indexVectorDim := 1
  wf := scatter_S100096x128_S1700000x1_S1700000x128_1_0_0_1_wf
def dot_S128x2944_S2944x128_S128x128_1_0_0_1_n_n : DotDims S128x2944 S2944x128 S128x128 where
  lhsContracting := [1]
  rhsContracting := [0]
  lhsNonContracting := [0]
  rhsNonContracting := [1]
  lhsBatch := []
  rhsBatch := []
  wf := dot_S128x2944_S2944x128_S128x128_1_0_0_1_n_n_wf

abbrev win0_0 : Pipeline.Window sig grid0 :=
  Pipeline.Window.ofSpec (Memref.whole main_v41) S6256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S6256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v60) S2944x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x2944.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v61) S1x128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v60) S6256x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S6256x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S2944x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S1x2944.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v84) S1x128x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v83) S6256x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S6256x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v105) S2944x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v34) S1x2944.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v106) S1x128x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S128x1 : Shape := ⟨2, ![128, 1]⟩

abbrev nBuf : Space → Nat
  | .hbm => 170
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S1x1600000, .i32⟩
  | 11 => ⟨S1600000, .i32⟩
  | 12 => ⟨S100000, .i32⟩
  | 13 => ⟨S1700000, .i32⟩
  | 14 => ⟨S1x1600000, .i32⟩
  | 15 => ⟨S1600000, .i32⟩
  | 16 => ⟨S100000, .i32⟩
  | 17 => ⟨S1700000, .i32⟩
  | 18 => ⟨S_, .f32⟩
  | 19 => ⟨S100000, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x128, .f32⟩
  | 54 => ⟨S1700000x1, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S_, .f32⟩
  | 77 => ⟨S128x128, .f32⟩
  | 78 => ⟨S100000x1, .i32⟩
  | 79 => ⟨S128x128, .f32⟩
  | 80 => ⟨S_, .f32⟩
  | 81 => ⟨S100000, .f32⟩
  | 82 => ⟨S_, .f32⟩
  | 83 => ⟨S128, .f32⟩
  | 84 => ⟨S100000x1, .i32⟩
  | 85 => ⟨S128, .f32⟩
  | 86 => ⟨S_, .f32⟩
  | 87 => ⟨S_, .f32⟩
  | 88 => ⟨S128, .f32⟩
  | 89 => ⟨S128, .f32⟩
  | 90 => ⟨S128x1, .f32⟩
  | 91 => ⟨S128x128, .f32⟩
  | 92 => ⟨S128x128, .f32⟩
  | 93 => ⟨S100000x128, .f32⟩
  | 94 => ⟨S1700000x1, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x128, .f32⟩
  | 104 => ⟨S1700000x128, .f32⟩
  | 105 => ⟨S1700000x128, .f32⟩
  | 106 => ⟨S_, .f32⟩
  | 107 => ⟨S100000x128, .f32⟩
  | 108 => ⟨S1700000x1, .i32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S_, .f32⟩
  | 117 => ⟨S128x128, .f32⟩
  | 118 => ⟨S100000x1, .i32⟩
  | 119 => ⟨S128x128, .f32⟩
  | 120 => ⟨S_, .f32⟩
  | 121 => ⟨S100000, .f32⟩
  | 122 => ⟨S_, .f32⟩
  | 123 => ⟨S128, .f32⟩
  | 124 => ⟨S100000x1, .i32⟩
  | 125 => ⟨S128, .f32⟩
  | 126 => ⟨S_, .f32⟩
  | 127 => ⟨S_, .f32⟩
  | _ => ⟨S100000x128, .f32⟩

abbrev hbmTy0_1 (i : Nat) : BufTy := match i % 128 with
  | 0 => ⟨S128, .f32⟩
  | 1 => ⟨S128, .f32⟩
  | 2 => ⟨S128x1, .f32⟩
  | 3 => ⟨S128x128, .f32⟩
  | 4 => ⟨S128x128, .f32⟩
  | 5 => ⟨S100000x128, .f32⟩
  | 6 => ⟨S1700000x1, .f32⟩
  | 7 => ⟨S_, .i32⟩
  | 8 => ⟨S1700000, .i32⟩
  | 9 => ⟨S1700000, .i1⟩
  | 10 => ⟨S_, .i32⟩
  | 11 => ⟨S1700000, .i32⟩
  | 12 => ⟨S1700000, .i32⟩
  | 13 => ⟨S1700000, .i32⟩
  | 14 => ⟨S1700000x1, .i32⟩
  | 15 => ⟨S1700000x128, .f32⟩
  | 16 => ⟨S1700000x128, .f32⟩
  | 17 => ⟨S1700000x128, .f32⟩
  | 18 => ⟨S_, .f32⟩
  | 19 => ⟨S100000x128, .f32⟩
  | 20 => ⟨S1700000x1, .i32⟩
  | 21 => ⟨S100000x128, .f32⟩
  | 22 => ⟨S1x128, .f32⟩
  | 23 => ⟨S100000x128, .f32⟩
  | 24 => ⟨S100000x128, .f32⟩
  | 25 => ⟨S_, .f32⟩
  | 26 => ⟨S128x128, .f32⟩
  | 27 => ⟨S100000x1, .i32⟩
  | 28 => ⟨S128x128, .f32⟩
  | 29 => ⟨S_, .f32⟩
  | 30 => ⟨S100000, .f32⟩
  | 31 => ⟨S_, .f32⟩
  | 32 => ⟨S128, .f32⟩
  | 33 => ⟨S100000x1, .i32⟩
  | 34 => ⟨S128, .f32⟩
  | 35 => ⟨S_, .f32⟩
  | 36 => ⟨S_, .f32⟩
  | 37 => ⟨S128, .f32⟩
  | 38 => ⟨S128, .f32⟩
  | 39 => ⟨S128x1, .f32⟩
  | 40 => ⟨S128x128, .f32⟩
  | 41 => ⟨S128x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_13 : Ref sig .tc := ⟨.hbm, 95, rfl⟩
abbrev main_v64 : Ref sig .tc := ⟨.hbm, 96, rfl⟩
abbrev main_v65 : Ref sig .tc := ⟨.hbm, 97, rfl⟩
abbrev main_c_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_15 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_call3_cst : Ref sig .tc := ⟨.hbm, 113, rfl⟩
abbrev main_call3_v0 : Ref sig .tc := ⟨.hbm, 114, rfl⟩
abbrev main_v79 : Ref sig .tc := ⟨.hbm, 115, rfl⟩
abbrev main_cst_16 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_17 : Ref sig .tc := ⟨.hbm, 120, rfl⟩
abbrev main_v83 : Ref sig .tc := ⟨.hbm, 121, rfl⟩
abbrev main_cst_18 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_19 : Ref sig .tc := ⟨.hbm, 126, rfl⟩
abbrev main_call4_v0 : Ref sig .tc := ⟨.hbm, 127, rfl⟩
abbrev main_call4_v1 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_c_20 : Ref sig .tc := ⟨.hbm, 135, rfl⟩
abbrev main_v93 : Ref sig .tc := ⟨.hbm, 136, rfl⟩
abbrev main_v94 : Ref sig .tc := ⟨.hbm, 137, rfl⟩
abbrev main_c_21 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_22 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_23 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_24 : Ref sig .tc := ⟨.hbm, 157, rfl⟩
abbrev main_v111 : Ref sig .tc := ⟨.hbm, 158, rfl⟩
abbrev main_cst_25 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_26 : Ref sig .tc := ⟨.hbm, 163, rfl⟩
abbrev main_call5_v0 : Ref sig .tc := ⟨.hbm, 164, rfl⟩
abbrev main_call5_v1 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128x128 : S_.BroadcastsInDim S128x128 (![] : Fin 0 → Fin S128x128.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

class Facts : Prop extends Facts₀ where

variable [Facts]
-- ==== Proof.Spec.lean ====
/-
  The value the padded three-layer graph convolution computes, as named functions of its argument arrays, at the exact
  instance (floats are extended reals).

  The program keeps every node array PADDED to 100096 rows (the 100000 nodes, then 96 rows no edge may read and no
  graph owns).  One layer is: a row-block matrix product with the layer's weights (`mmOut`), the rows gathered at each
  edge's source node, scaled by the edge's normalised weight and added up at its target node, plus the bias
  (`convK`); the first two layers then take the positive part (`reluK`).  A layer's graph sums are read off by a
  one-hot product, seventeen row blocks of 2944 nodes for each of two accumulators (`poolOut`), the two accumulators
  added and divided by the clipped graph sizes (`poolDivK`).  The 96 padding rows carry the graph id −1, which is no
  graph's.
-/
import proofs.«407808_j56547539419677_2_alg».proof.Proof.Gen.KernelIdeal
import Idealize.ShloMosaic.PureOps.Ideal
import Idealize.ShloMosaic.Lib.ValueIdx

noncomputable section

open scoped BigOperators

namespace Cert.KV

open Idealize.ShloMosaic Idealize.ShloMosaic.ValueIdx Cert.KernelIdeal Cert.KernelIdeal.Gen

/-- Every input edge's SOURCE is a node: row 0 of the edge list, read signed, lies in [0, 100000). -/
def RowOk (a1 : IVec S2x1600000 32) : Prop :=
  ∀ e : Fin 1600000, 0 ≤ (a1 (ix2 (0 : Fin 2) e)).toInt ∧ (a1 (ix2 (0 : Fin 2) e)).toInt < 100000

/-- Node number of row j of row block t of accumulator c: blocks of 2944 rows, seventeen blocks an accumulator. -/
def nodeOf (c : Fin 2) (t : Fin 17) (j : Fin 2944) : Fin 100096 :=
  ⟨(c.val * 17 + t.val) * 2944 + j.val, by have := c.isLt; have := t.isLt; have := j.isLt; omega⟩

/-- The one-hot entry: 1 where the graph id word IS graph g, else 0. -/
def oneHot (g : Nat) (w : BitVec 32) : EReal := if BitVec.ofNat 32 g = w then 1 else 0

/-- The row-block matrix product as one whole-array function: row r of the result is row r of `x` times `w`. -/
def mmOut (x : FVec Ideal S100096x128 .f32) (w : FVec Ideal S128x128 .f32) : FVec Ideal S100096x128 .bf16 :=
  fun i => ∑ k : Fin 128, x (ix2 (⟨(i 0).val, idx2_lt0 i⟩ : Fin 100096) k) * w (ix2 k (⟨(i 1).val, idx2_lt1 i⟩ : Fin 128))

/-- The one-hot graph sums as one whole-array function: accumulator c, graph g, feature d holds the sum over the
    seventeen row blocks of c and the 2944 nodes of each of (is this node in graph g?) × the node's feature d. -/
def poolOut (A : FVec Ideal S100096x128 .f32) (bp : IVec S1x100096 32) : FVec Ideal S2x128x128 .f32 :=
  fun i => ∑ t : Fin 17, ∑ j : Fin 2944,
    oneHot (i 1).val (bp (ix2 (0 : Fin 1) (nodeOf ⟨(i 0).val, (i 0).isLt⟩ t j)))
      * A (ix2 (nodeOf ⟨(i 0).val, (i 0).isLt⟩ t j) (⟨(i 2).val, (i 2).isLt⟩ : Fin 128))

/-! ## The edge list with self loops, the normalised weights, the graph ids and sizes -/

/-- Sources of the 1600000 input edges, then the 100000 self loops. -/
def rowK (a1 : IVec S2x1600000 32) : IVec S1700000 32 :=
  concatenate S1700000 0 [⟨S1600000, shapeCast S1600000 (extractStridedSlice S1x1600000 ![0, 0] a1 slices_S2x1600000_S1x1600000_0_0) shapeCasts_S1x1600000_S1600000⟩, ⟨S100000, iotaInDim S100000 32 0⟩] concatenates_S1600000_S100000_S1700000_d0

/-- Targets of the 1600000 input edges, then the 100000 self loops. -/
def colK (a1 : IVec S2x1600000 32) : IVec S1700000 32 :=
  concatenate S1700000 0 [⟨S1600000, shapeCast S1600000 (extractStridedSlice S1x1600000 ![1, 0] a1 slices_S2x1600000_S1x1600000_1_0) shapeCasts_S1x1600000_S1600000⟩, ⟨S100000, iotaInDim S100000 32 0⟩] concatenates_S1600000_S100000_S1700000_d0

/-- Edge weights, the self loops at 1. -/
def ewK (a2 : FVec Ideal S1600000 .f32) : FVec Ideal S1700000 .f32 :=
  concatenate S1700000 0 [⟨S1600000, a2⟩, ⟨S100000, broadcastInDim S100000 ![] bcast_S_S100000 (constant (F := Ideal) S_ .f32 0x3F800000#32)⟩] concatenates_S1600000_S100000_S1700000_d0

/-- A negative index wrapped once by the table's length `n`, as indexing does before it gathers. -/
def wrapK (n : BitVec 32) (v : IVec S1700000 32) : IVec S1700000 32 :=
  select (cmpi .slt v (broadcastInDim S1700000 ![] bcast_S_S1700000 (constantI S_ 32 0#32))) (addi v (broadcastInDim S1700000 ![] bcast_S_S1700000 (constantI S_ 32 n))) v

/-- Weighted in-degree of each node. -/
def degK (a1 : IVec S2x1600000 32) (a2 : FVec Ideal S1600000 .f32) : FVec Ideal S100000 .f32 :=
  Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 (colK a1)) (ewK a2)

/-- deg^(−1/2) where the degree is positive, else 0. -/
def dinvK (a1 : IVec S2x1600000 32) (a2 : FVec Ideal S1600000 .f32) : FVec Ideal S100000 .f32 :=
  select (cmpf .ogt (degK a1 a2) (broadcastInDim S100000 ![] bcast_S_S100000 (constant (F := Ideal) S_ .f32 0x00000000#32))) (Host.rsqrt (degK a1 a2)) (broadcastInDim S100000 ![] bcast_S_S100000 (id (constant (F := Ideal) S_ .f32 0x00000000#32)))

/-- The symmetric normalisation of each edge: dinv[source] · weight · dinv[target]. -/
def normK (a1 : IVec S2x1600000 32) (a2 : FVec Ideal S1600000 .f32) : FVec Ideal S1700000 .f32 :=
  mulf (mulf (Host.gather gather_S100000_S1700000x1_S1700000_n_0_n_n_0_1_1 (dinvK a1 a2) (broadcastInDim S1700000x1 ![0] bcast_S1700000_S1700000x1_0 (wrapK 100000#32 (rowK a1)))) (ewK a2))
    (Host.gather gather_S100000_S1700000x1_S1700000_n_0_n_n_0_1_1 (dinvK a1 a2) (broadcastInDim S1700000x1 ![0] bcast_S1700000_S1700000x1_0 (wrapK 100000#32 (colK a1))))

/-- Graph ids as one row, the 96 padding entries at −1. -/
def bpK (a3 : IVec S100000 32) : IVec S1x100096 32 :=
  shapeCast S1x100096 (pad S100096 ![0] ![96] ![0] a3 (id (constantI S_ 32 4294967295#32)) pads_S100000_S100096_0960 h_S_) shapeCasts_S100096_S1x100096

/-- Graph sizes clipped below at 1, as a column. -/
def cntK (a3 : IVec S100000 32) : FVec Ideal S128x1 .f32 :=
  broadcastInDim S128x1 ![0] bcast_S128_S128x1_0 (maximumf (broadcastInDim S128 ![] bcast_S_S128 (id (constant (F := Ideal) S_ .f32 0x3F800000#32)))
    (Host.scatterAdd scatter_S128_S100000x1_S100000_n_0_0_1 (broadcastInDim S128 ![] bcast_S_S128 (constant (F := Ideal) S_ .f32 0x00000000#32)) (broadcastInDim S100000x1 ![0] bcast_S100000_S100000x1_0 a3) (broadcastInDim S100000 ![] bcast_S_S100000 (constant (F := Ideal) S_ .f32 0x3F800000#32))))

/-- The input features with 96 zero rows appended. -/
def padX (a0 : FVec Ideal S100000x128 .f32) : FVec Ideal S100096x128 .f32 :=
  pad S100096x128 ![0, 0] ![96, 0] ![0, 0] a0 (sitofp (F := Ideal) .f32 (constantI S_ 32 0#32)) pads_S100000x128_S100096x128_0960_000 h_S_

/-! ## One layer -/

/-- Message passing and bias over the padded node array: gather the projected rows at the sources (wrapped by 100096),
    scale by the edge's normalised weight, add up at the targets into 100096 rows of zeros, add the bias. -/
def convK (row col : IVec S1700000 32) (norm : FVec Ideal S1700000 .f32) (xw : FVec Ideal S100096x128 .bf16) (b : FVec Ideal S128 .f32) : FVec Ideal S100096x128 .f32 :=
  addf (Host.scatterAdd scatter_S100096x128_S1700000x1_S1700000x128_1_0_0_1 (broadcastInDim S100096x128 ![] bcast_S_S100096x128 (constant (F := Ideal) S_ .f32 0x00000000#32)) (broadcastInDim S1700000x1 ![0] bcast_S1700000_S1700000x1_0 col)
      (mulf (broadcastInDim S1700000x128 ![0, 1] bcast_S1700000x1_S1700000x128_0_1 (broadcastInDim S1700000x1 ![0] bcast_S1700000_S1700000x1_0 norm))
        (extf .f32 (Host.gather gather_S100096x128_S1700000x1_S1700000x128_1_0_n_n_0_1_1128 xw (broadcastInDim S1700000x1 ![0] bcast_S1700000_S1700000x1_0 (wrapK 100096#32 row))) bitsLt_bf16_f32)))
    (broadcastInDim S100096x128 ![0, 1] bcast_S1x128_S100096x128_0_1 (broadcastInDim S1x128 ![1] bcast_S128_S1x128_1 b))

/-- The positive part. -/
def reluK (y : FVec Ideal S100096x128 .f32) : FVec Ideal S100096x128 .f32 :=
  maximumf y (broadcastInDim S100096x128 ![] bcast_S_S100096x128 (constant (F := Ideal) S_ .f32 0x00000000#32))

/-- The two accumulators added, divided by the clipped graph sizes. -/
def poolDivK (p : FVec Ideal S2x128x128 .f32) (cnt : FVec Ideal S128x1 .f32) : FVec Ideal S128x128 .f32 :=
  Host.divf (Host.reduceAdd p (constant (F := Ideal) S_ .f32 0x00000000#32) reducesTo_S2x128x128_S128x128_d0 h_S_) (broadcastInDim S128x128 ![0, 1] bcast_S128x1_S128x128_0_1 cnt)

/-! ## The three layers and the three results -/

variable (a0 : FVec Ideal S100000x128 .f32) (a1 : IVec S2x1600000 32) (a2 : FVec Ideal S1600000 .f32) (a3 : IVec S100000 32)
  (a4 : FVec Ideal S128x128 .f32) (a5 : FVec Ideal S128 .f32) (a6 : FVec Ideal S128x128 .f32) (a7 : FVec Ideal S128 .f32)
  (a8 : FVec Ideal S128x128 .f32) (a9 : FVec Ideal S128 .f32)

/-- Node features after layer 1 (padded). -/
def H1 : FVec Ideal S100096x128 .f32 := reluK (convK (rowK a1) (colK a1) (normK a1 a2) (mmOut (padX a0) a4) a5)
/-- Node features after layer 2 (padded). -/
def H2 : FVec Ideal S100096x128 .f32 := reluK (convK (rowK a1) (colK a1) (normK a1 a2) (mmOut (H1 a0 a1 a2 a4 a5) a6) a7)
/-- Node features after layer 3 (padded; no positive part). -/
def H3 : FVec Ideal S100096x128 .f32 := convK (rowK a1) (colK a1) (normK a1 a2) (mmOut (H2 a0 a1 a2 a4 a5 a6 a7) a8) a9

/-- Graph means after layer 1. -/
def out1 : FVec Ideal S128x128 .f32 := poolDivK (poolOut (H1 a0 a1 a2 a4 a5) (bpK a3)) (cntK a3)
/-- Graph means after layer 2. -/
def out2 : FVec Ideal S128x128 .f32 := poolDivK (poolOut (H2 a0 a1 a2 a4 a5 a6 a7) (bpK a3)) (cntK a3)
/-- Graph means after layer 3. -/
def out3 : FVec Ideal S128x128 .f32 := poolDivK (poolOut (H3 a0 a1 a2 a4 a5 a6 a7 a8 a9) (bpK a3)) (cntK a3)

end Cert.KV

end
-- ==== Proof.MatmulRegion0.lean ====
/-
  Region 0 (a row-block matrix product): the array the sixteen grid points leave is ONE whole-array function of the
  two input arrays as the region finds them — row r of the result is row r of the left array times the right array.
-/
import proofs.«407808_j56547539419677_2_alg».proof.Proof.Gen.KernelIdeal.Frame
import proofs.«407808_j56547539419677_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KV

open Idealize.ShloMosaic Idealize.ShloMosaic.TcCoe Idealize.ShloMosaic.ValueIdx Idealize.SL.Sem Cert.KernelIdeal Cert.KernelIdeal.Gen

/-! ## The body's payload at an index -/

/-- The left operand of the product is read at the result's row … -/
private theorem lhs_row (i : S6256x128.Idx) (q : dot_S6256x128_S128x128_S6256x128_1_0_0_1_n_n.contr.Idx) :
    (dot_S6256x128_S128x128_S6256x128_1_0_0_1_n_n.lhsIdx i q 0).val = (i 0).val := by
  unfold DotDims.lhsIdx
  rw [dif_neg (show ¬(0 : Fin S6256x128.rank) ∈ dot_S6256x128_S128x128_S6256x128_1_0_0_1_n_n.lhsBatch by decide), dif_pos (show (0 : Fin S6256x128.rank) ∈ dot_S6256x128_S128x128_S6256x128_1_0_0_1_n_n.lhsNonContracting by decide)]
  rfl
/-- … and at the contraction index along its columns; -/
private theorem lhs_col (i : S6256x128.Idx) (q : dot_S6256x128_S128x128_S6256x128_1_0_0_1_n_n.contr.Idx) :
    (dot_S6256x128_S128x128_S6256x128_1_0_0_1_n_n.lhsIdx i q 1).val = (q ⟨0, by decide⟩).val :=
  dot_S6256x128_S128x128_S6256x128_1_0_0_1_n_n.lhsIdx_val_of_single rfl i q
/-- the right operand at the contraction index along its rows … -/
private theorem rhs_row (i : S6256x128.Idx) (q : dot_S6256x128_S128x128_S6256x128_1_0_0_1_n_n.contr.Idx) :
    (dot_S6256x128_S128x128_S6256x128_1_0_0_1_n_n.rhsIdx i q 0).val = (q ⟨0, by decide⟩).val :=
  dot_S6256x128_S128x128_S6256x128_1_0_0_1_n_n.rhsIdx_val_of_single rfl i q
/-- … and at the result's column. -/
private theorem rhs_col (i : S6256x128.Idx) (q : dot_S6256x128_S128x128_S6256x128_1_0_0_1_n_n.contr.Idx) :
    (dot_S6256x128_S128x128_S6256x128_1_0_0_1_n_n.rhsIdx i q 1).val = (i 1).val := by
  unfold DotDims.rhsIdx
  rw [dif_neg (show ¬(1 : Fin S128x128.rank) ∈ dot_S6256x128_S128x128_S6256x128_1_0_0_1_n_n.rhsBatch by decide), dif_pos (show (1 : Fin S128x128.rank) ∈ dot_S6256x128_S128x128_S6256x128_1_0_0_1_n_n.rhsNonContracting by decide)]
  rfl

/-- The payload at row p, column q: over the extended reals the roundings are the identity, so it is the sum over k of
    the left block's (p, k) entry times the right block's (k, q) entry. -/
private theorem pay_apply (x : Vec Ideal S6256x128 .f32) (w : Vec Ideal S128x128 .f32) (p : Fin 6256) (q : Fin 128) :
    k0_pay1 (F := Ideal) x w (ix2 p q) = ∑ k : Fin 128, x (ix2 p k) * w (ix2 k q) := by
  unfold k0_pay1
  refine (truncf_apply (ψ := .bf16) (φ := .f32) _ bitsLt_bf16_f32 (ix2 p q)).trans ?_
  refine (Ideal.matmul_constant_zero_apply dot_S6256x128_S128x128_S6256x128_1_0_0_1_n_n none _ _ (ix2 p q)).trans ?_
  rw [← Equiv.sum_comp (contrEquiv1 dot_S6256x128_S128x128_S6256x128_1_0_0_1_n_n 128 rfl rfl).symm]
  refine Finset.sum_congr rfl fun k _ => ?_
  have hk := contrEquiv1_symm_val dot_S6256x128_S128x128_S6256x128_1_0_0_1_n_n 128 rfl rfl k
  have el : dot_S6256x128_S128x128_S6256x128_1_0_0_1_n_n.lhsIdx (ix2 p q) ((contrEquiv1 dot_S6256x128_S128x128_S6256x128_1_0_0_1_n_n 128 rfl rfl).symm k) = ix2 p k := funext fun a => Fin.ext (by
    match a with
    | ⟨0, _⟩ => exact lhs_row _ _
    | ⟨1, _⟩ => exact (lhs_col _ _).trans hk)
  have er : dot_S6256x128_S128x128_S6256x128_1_0_0_1_n_n.rhsIdx (ix2 p q) ((contrEquiv1 dot_S6256x128_S128x128_S6256x128_1_0_0_1_n_n 128 rfl rfl).symm k) = ix2 k q := funext fun a => Fin.ext (by
    match a with
    | ⟨0, _⟩ => exact (rhs_row _ _).trans hk
    | ⟨1, _⟩ => exact rhs_col _ _)
  rw [el, er, shapeCast_self]
  rfl

/-! ## The blocks a grid point reads and writes -/

/-- The zero offsets, spelt as the constant function. -/
private theorem zero_off : (![0, 0] : Fin 2 → Nat) = fun _ => 0 :=
  funext fun a => match a with | ⟨0, _⟩ => rfl | ⟨1, _⟩ => rfl

/-- The windows' block indices, decided once over the grid: at point t the left array's and the result's block is block
    row t, the right array's is the whole array. -/
private theorem blk_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Row p of the left block at point t is row 6256 t + p of the left array. -/
private theorem left_blk (c : Dev nD) (t : Fin cfg0.N) (p : Fin 6256) (k : Fin 128) (r : Fin 100096)
    (hr : r.val = 6256 * t.val + p.val) :
    (iblk0 V c 0 t : Vec Ideal S6256x128 .f32) (ix2 p k)
      = (V c (Pipeline.arrRef spec0 0) : S100096x128.Idx → Elt Ideal .f32) (ix2 r k) := by
  obtain ⟨eRow, eCol, -⟩ := blk_index t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 6256 + 1 * p.val = r.val; rw [eRow, hr]; omega
  | ⟨1, _⟩ => show win0_0.index t (1 : Fin 2) * 128 + 1 * k.val = k.val; rw [eCol]; omega

/-- The right block at every point is the right array. -/
private theorem right_blk (c : Dev nD) (t : Fin cfg0.N) (k : Fin 128) (q : Fin 128) :
    (iblk0 V c 1 t : Vec Ideal S128x128 .f32) (ix2 k q)
      = (V c (Pipeline.arrRef spec0 1) : S128x128.Idx → Elt Ideal .f32) (ix2 k q) := by
  obtain ⟨-, -, eRow, eCol, -⟩ := blk_index t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 128 + 1 * k.val = k.val; rw [eRow]; omega
  | ⟨1, _⟩ => show win0_1.index t (1 : Fin 2) * 128 + 1 * q.val = q.val; rw [eCol]; omega

/-- Row p of the result's block at point t, read off a whole array, is the array's row 6256 t + p. -/
private theorem out_blk (t : Fin cfg0.N) (G : S100096x128.Idx → Elt Ideal .bf16) (p : Fin 6256) (q : Fin 128)
    (r : Fin 100096) (hr : r.val = 6256 * t.val + p.val) :
    ((cfg0.win 2).blk t).view.read (Elt Ideal) G (ix2 p q) = G (ix2 r q) := by
  obtain ⟨-, -, -, -, eRow, eCol⟩ := blk_index t
  rw [View.read_apply]
  show G _ = G _
  congr 1
  funext a
  apply Fin.ext
  match a with
  | ⟨0, _⟩ => show win0_2.index t (0 : Fin 2) * 6256 + 1 * p.val = r.val; rw [eRow, hr]; omega
  | ⟨1, _⟩ => show win0_2.index t (1 : Fin 2) * 128 + 1 * q.val = q.val; rw [eCol]; omega

/-- WHAT POINT t WRITES BACK is block row t of the row-block product of the two arrays as the region finds them. -/
private theorem flushed_eq (c : Dev nD) (t : Fin cfg0.N) :
    (dat0 (F := Ideal) V c).flushed 2 t
      = ((cfg0.win 2).blk t).view.read (Elt Ideal) (mmOut (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zero_off]
  simp only [View.ld_unit_zero (S := S6256x128) zero_off, View.ld_unit_zero (S := S128x128) zero_off]
  funext j
  obtain ⟨p, q, rfl⟩ : ∃ (p : Fin 6256) (q : Fin 128), j = ix2 p q := ⟨j 0, j 1, eq_ix2 j⟩
  have hN : cfg0.N = 16 := N_0
  have hr : 6256 * t.val + p.val < 100096 := by have := t.isLt; have := p.isLt; omega
  refine (pay_apply (iblk0 V c 0 t) (iblk0 V c 1 t) p q).trans ?_
  refine Eq.trans ?_ (out_blk t _ p q ⟨_, hr⟩ rfl).symm
  show _ = ∑ k : Fin 128, _
  refine Finset.sum_congr rfl fun k _ => ?_
  rw [left_blk V c t p k ⟨_, hr⟩ rfl, right_blk V c t k q]

/-! ## From the blocks to the array -/

/-- An index of the array is in point t's block iff each coordinate is in the block's range on its axis. -/
private theorem mem_blk (t : Fin cfg0.N) (i : S100096x128.Idx) :
    i ∈ ((cfg0.win 2).blk t).view.set ↔ ∀ a : Fin 2, win0_2.index t a * S6256x128.size a ≤ (i a).val
      ∧ (i a).val < win0_2.index t a * S6256x128.size a + S6256x128.size a := by
  show i ∈ ((View.whole (Pipeline.arrRef spec0 2)).slice (win0_2.rect t)).set ↔ _
  rw [View.set_slice_whole, Rect.mem_set_unit]
  exact Iff.rfl

/-- The sixteen blocks cover the array: row r is in the block of point r / 6256. -/
private theorem cover (i : S100096x128.Idx) :
    ∃ t : Fin cfg0.N, (cfg0.win 2).flush t = true ∧ i ∈ ((cfg0.win 2).blk t).view.set := by
  have hrow : (i 0).val < 100096 := (i 0).isLt
  have hcol : (i 1).val < 128 := (i 1).isLt
  have hN : cfg0.N = 16 := N_0
  obtain ⟨t, ht⟩ : ∃ t : Fin cfg0.N, t.val = (i 0).val / 6256 := ⟨⟨(i 0).val / 6256, by rw [hN]; omega⟩, rfl⟩
  obtain ⟨-, -, -, -, eRow, eCol⟩ := blk_index t
  refine ⟨t, flush0_2 t, ?_⟩
  rw [mem_blk]
  intro a
  match a with
  | ⟨0, _⟩ =>
    show win0_2.index t (0 : Fin 2) * 6256 ≤ (i 0).val ∧ (i 0).val < win0_2.index t (0 : Fin 2) * 6256 + 6256
    rw [eRow, ht]; omega
  | ⟨1, _⟩ =>
    show win0_2.index t (1 : Fin 2) * 128 ≤ (i 1).val ∧ (i 1).val < win0_2.index t (1 : Fin 2) * 128 + 128
    rw [eCol]; omega

theorem mm_region0 (c : Dev nD) :
    (dat0 (F := Ideal) V c).arrAt 2 cfg0.N = mmOut (V c (Pipeline.arrRef spec0 0)) (V c (Pipeline.arrRef spec0 1)) :=
  (dat0 (F := Ideal) V c).arrAt_eq_of_cover 2 (mmOut (V c (Pipeline.arrRef spec0 0)) (V c (Pipeline.arrRef spec0 1)))
    (fun t _ => flushed_eq V c t) cover

end Cert.KV

end
-- ==== Proof.MatmulRegion2.lean ====
/-
  Region 2 (a row-block matrix product): the array the sixteen grid points leave is ONE whole-array function of the
  two input arrays as the region finds them — row r of the result is row r of the left array times the right array.
-/
import proofs.«407808_j56547539419677_2_alg».proof.Proof.Gen.KernelIdeal.Frame
import proofs.«407808_j56547539419677_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KV

open Idealize.ShloMosaic Idealize.ShloMosaic.TcCoe Idealize.ShloMosaic.ValueIdx Idealize.SL.Sem Cert.KernelIdeal Cert.KernelIdeal.Gen

/-! ## The body's payload at an index -/

/-- The left operand of the product is read at the result's row … -/
private theorem lhs_row (i : S6256x128.Idx) (q : dot_S6256x128_S128x128_S6256x128_1_0_0_1_n_n.contr.Idx) :
    (dot_S6256x128_S128x128_S6256x128_1_0_0_1_n_n.lhsIdx i q 0).val = (i 0).val := by
  unfold DotDims.lhsIdx
  rw [dif_neg (show ¬(0 : Fin S6256x128.rank) ∈ dot_S6256x128_S128x128_S6256x128_1_0_0_1_n_n.lhsBatch by decide), dif_pos (show (0 : Fin S6256x128.rank) ∈ dot_S6256x128_S128x128_S6256x128_1_0_0_1_n_n.lhsNonContracting by decide)]
  rfl
/-- … and at the contraction index along its columns; -/
private theorem lhs_col (i : S6256x128.Idx) (q : dot_S6256x128_S128x128_S6256x128_1_0_0_1_n_n.contr.Idx) :
    (dot_S6256x128_S128x128_S6256x128_1_0_0_1_n_n.lhsIdx i q 1).val = (q ⟨0, by decide⟩).val :=
  dot_S6256x128_S128x128_S6256x128_1_0_0_1_n_n.lhsIdx_val_of_single rfl i q
/-- the right operand at the contraction index along its rows … -/
private theorem rhs_row (i : S6256x128.Idx) (q : dot_S6256x128_S128x128_S6256x128_1_0_0_1_n_n.contr.Idx) :
    (dot_S6256x128_S128x128_S6256x128_1_0_0_1_n_n.rhsIdx i q 0).val = (q ⟨0, by decide⟩).val :=
  dot_S6256x128_S128x128_S6256x128_1_0_0_1_n_n.rhsIdx_val_of_single rfl i q
/-- … and at the result's column. -/
private theorem rhs_col (i : S6256x128.Idx) (q : dot_S6256x128_S128x128_S6256x128_1_0_0_1_n_n.contr.Idx) :
    (dot_S6256x128_S128x128_S6256x128_1_0_0_1_n_n.rhsIdx i q 1).val = (i 1).val := by
  unfold DotDims.rhsIdx
  rw [dif_neg (show ¬(1 : Fin S128x128.rank) ∈ dot_S6256x128_S128x128_S6256x128_1_0_0_1_n_n.rhsBatch by decide), dif_pos (show (1 : Fin S128x128.rank) ∈ dot_S6256x128_S128x128_S6256x128_1_0_0_1_n_n.rhsNonContracting by decide)]
  rfl

/-- The payload at row p, column q: over the extended reals the roundings are the identity, so it is the sum over k of
    the left block's (p, k) entry times the right block's (k, q) entry. -/
private theorem pay_apply (x : Vec Ideal S6256x128 .f32) (w : Vec Ideal S128x128 .f32) (p : Fin 6256) (q : Fin 128) :
    k2_pay1 (F := Ideal) x w (ix2 p q) = ∑ k : Fin 128, x (ix2 p k) * w (ix2 k q) := by
  unfold k2_pay1
  refine (truncf_apply (ψ := .bf16) (φ := .f32) _ bitsLt_bf16_f32 (ix2 p q)).trans ?_
  refine (Ideal.matmul_constant_zero_apply dot_S6256x128_S128x128_S6256x128_1_0_0_1_n_n none _ _ (ix2 p q)).trans ?_
  rw [← Equiv.sum_comp (contrEquiv1 dot_S6256x128_S128x128_S6256x128_1_0_0_1_n_n 128 rfl rfl).symm]
  refine Finset.sum_congr rfl fun k _ => ?_
  have hk := contrEquiv1_symm_val dot_S6256x128_S128x128_S6256x128_1_0_0_1_n_n 128 rfl rfl k
  have el : dot_S6256x128_S128x128_S6256x128_1_0_0_1_n_n.lhsIdx (ix2 p q) ((contrEquiv1 dot_S6256x128_S128x128_S6256x128_1_0_0_1_n_n 128 rfl rfl).symm k) = ix2 p k := funext fun a => Fin.ext (by
    match a with
    | ⟨0, _⟩ => exact lhs_row _ _
    | ⟨1, _⟩ => exact (lhs_col _ _).trans hk)
  have er : dot_S6256x128_S128x128_S6256x128_1_0_0_1_n_n.rhsIdx (ix2 p q) ((contrEquiv1 dot_S6256x128_S128x128_S6256x128_1_0_0_1_n_n 128 rfl rfl).symm k) = ix2 k q := funext fun a => Fin.ext (by
    match a with
    | ⟨0, _⟩ => exact (rhs_row _ _).trans hk
    | ⟨1, _⟩ => exact rhs_col _ _)
  rw [el, er, shapeCast_self]
  rfl

/-! ## The blocks a grid point reads and writes -/

/-- The zero offsets, spelt as the constant function. -/
private theorem zero_off : (![0, 0] : Fin 2 → Nat) = fun _ => 0 :=
  funext fun a => match a with | ⟨0, _⟩ => rfl | ⟨1, _⟩ => rfl

/-- The windows' block indices, decided once over the grid: at point t the left array's and the result's block is block
    row t, the right array's is the whole array. -/
private theorem blk_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- Row p of the left block at point t is row 6256 t + p of the left array. -/
private theorem left_blk (c : Dev nD) (t : Fin cfg2.N) (p : Fin 6256) (k : Fin 128) (r : Fin 100096)
    (hr : r.val = 6256 * t.val + p.val) :
    (iblk2 V c 0 t : Vec Ideal S6256x128 .f32) (ix2 p k)
      = (V c (Pipeline.arrRef spec2 0) : S100096x128.Idx → Elt Ideal .f32) (ix2 r k) := by
  obtain ⟨eRow, eCol, -⟩ := blk_index t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 6256 + 1 * p.val = r.val; rw [eRow, hr]; omega
  | ⟨1, _⟩ => show win2_0.index t (1 : Fin 2) * 128 + 1 * k.val = k.val; rw [eCol]; omega

/-- The right block at every point is the right array. -/
private theorem right_blk (c : Dev nD) (t : Fin cfg2.N) (k : Fin 128) (q : Fin 128) :
    (iblk2 V c 1 t : Vec Ideal S128x128 .f32) (ix2 k q)
      = (V c (Pipeline.arrRef spec2 1) : S128x128.Idx → Elt Ideal .f32) (ix2 k q) := by
  obtain ⟨-, -, eRow, eCol, -⟩ := blk_index t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 128 + 1 * k.val = k.val; rw [eRow]; omega
  | ⟨1, _⟩ => show win2_1.index t (1 : Fin 2) * 128 + 1 * q.val = q.val; rw [eCol]; omega

/-- Row p of the result's block at point t, read off a whole array, is the array's row 6256 t + p. -/
private theorem out_blk (t : Fin cfg2.N) (G : S100096x128.Idx → Elt Ideal .bf16) (p : Fin 6256) (q : Fin 128)
    (r : Fin 100096) (hr : r.val = 6256 * t.val + p.val) :
    ((cfg2.win 2).blk t).view.read (Elt Ideal) G (ix2 p q) = G (ix2 r q) := by
  obtain ⟨-, -, -, -, eRow, eCol⟩ := blk_index t
  rw [View.read_apply]
  show G _ = G _
  congr 1
  funext a
  apply Fin.ext
  match a with
  | ⟨0, _⟩ => show win2_2.index t (0 : Fin 2) * 6256 + 1 * p.val = r.val; rw [eRow, hr]; omega
  | ⟨1, _⟩ => show win2_2.index t (1 : Fin 2) * 128 + 1 * q.val = q.val; rw [eCol]; omega

/-- WHAT POINT t WRITES BACK is block row t of the row-block product of the two arrays as the region finds them. -/
private theorem flushed_eq (c : Dev nD) (t : Fin cfg2.N) :
    (dat2 (F := Ideal) V c).flushed 2 t
      = ((cfg2.win 2).blk t).view.read (Elt Ideal) (mmOut (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero zero_off]
  simp only [View.ld_unit_zero (S := S6256x128) zero_off, View.ld_unit_zero (S := S128x128) zero_off]
  funext j
  obtain ⟨p, q, rfl⟩ : ∃ (p : Fin 6256) (q : Fin 128), j = ix2 p q := ⟨j 0, j 1, eq_ix2 j⟩
  have hN : cfg2.N = 16 := N_2
  have hr : 6256 * t.val + p.val < 100096 := by have := t.isLt; have := p.isLt; omega
  refine (pay_apply (iblk2 V c 0 t) (iblk2 V c 1 t) p q).trans ?_
  refine Eq.trans ?_ (out_blk t _ p q ⟨_, hr⟩ rfl).symm
  show _ = ∑ k : Fin 128, _
  refine Finset.sum_congr rfl fun k _ => ?_
  rw [left_blk V c t p k ⟨_, hr⟩ rfl, right_blk V c t k q]

/-! ## From the blocks to the array -/

/-- An index of the array is in point t's block iff each coordinate is in the block's range on its axis. -/
private theorem mem_blk (t : Fin cfg2.N) (i : S100096x128.Idx) :
    i ∈ ((cfg2.win 2).blk t).view.set ↔ ∀ a : Fin 2, win2_2.index t a * S6256x128.size a ≤ (i a).val
      ∧ (i a).val < win2_2.index t a * S6256x128.size a + S6256x128.size a := by
  show i ∈ ((View.whole (Pipeline.arrRef spec2 2)).slice (win2_2.rect t)).set ↔ _
  rw [View.set_slice_whole, Rect.mem_set_unit]
  exact Iff.rfl

/-- The sixteen blocks cover the array: row r is in the block of point r / 6256. -/
private theorem cover (i : S100096x128.Idx) :
    ∃ t : Fin cfg2.N, (cfg2.win 2).flush t = true ∧ i ∈ ((cfg2.win 2).blk t).view.set := by
  have hrow : (i 0).val < 100096 := (i 0).isLt
  have hcol : (i 1).val < 128 := (i 1).isLt
  have hN : cfg2.N = 16 := N_2
  obtain ⟨t, ht⟩ : ∃ t : Fin cfg2.N, t.val = (i 0).val / 6256 := ⟨⟨(i 0).val / 6256, by rw [hN]; omega⟩, rfl⟩
  obtain ⟨-, -, -, -, eRow, eCol⟩ := blk_index t
  refine ⟨t, flush2_2 t, ?_⟩
  rw [mem_blk]
  intro a
  match a with
  | ⟨0, _⟩ =>
    show win2_2.index t (0 : Fin 2) * 6256 ≤ (i 0).val ∧ (i 0).val < win2_2.index t (0 : Fin 2) * 6256 + 6256
    rw [eRow, ht]; omega
  | ⟨1, _⟩ =>
    show win2_2.index t (1 : Fin 2) * 128 ≤ (i 1).val ∧ (i 1).val < win2_2.index t (1 : Fin 2) * 128 + 128
    rw [eCol]; omega

theorem mm_region2 (c : Dev nD) :
    (dat2 (F := Ideal) V c).arrAt 2 cfg2.N = mmOut (V c (Pipeline.arrRef spec2 0)) (V c (Pipeline.arrRef spec2 1)) :=
  (dat2 (F := Ideal) V c).arrAt_eq_of_cover 2 (mmOut (V c (Pipeline.arrRef spec2 0)) (V c (Pipeline.arrRef spec2 1)))
    (fun t _ => flushed_eq V c t) cover

end Cert.KV

end
-- ==== Proof.MatmulRegion4.lean ====
/-
  Region 4 (a row-block matrix product): the array the sixteen grid points leave is ONE whole-array function of the
  two input arrays as the region finds them — row r of the result is row r of the left array times the right array.
-/
import proofs.«407808_j56547539419677_2_alg».proof.Proof.Gen.KernelIdeal.Frame
import proofs.«407808_j56547539419677_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KV

open Idealize.ShloMosaic Idealize.ShloMosaic.TcCoe Idealize.ShloMosaic.ValueIdx Idealize.SL.Sem Cert.KernelIdeal Cert.KernelIdeal.Gen

/-! ## The body's payload at an index -/

/-- The left operand of the product is read at the result's row … -/
private theorem lhs_row (i : S6256x128.Idx) (q : dot_S6256x128_S128x128_S6256x128_1_0_0_1_n_n.contr.Idx) :
    (dot_S6256x128_S128x128_S6256x128_1_0_0_1_n_n.lhsIdx i q 0).val = (i 0).val := by
  unfold DotDims.lhsIdx
  rw [dif_neg (show ¬(0 : Fin S6256x128.rank) ∈ dot_S6256x128_S128x128_S6256x128_1_0_0_1_n_n.lhsBatch by decide), dif_pos (show (0 : Fin S6256x128.rank) ∈ dot_S6256x128_S128x128_S6256x128_1_0_0_1_n_n.lhsNonContracting by decide)]
  rfl
/-- … and at the contraction index along its columns; -/
private theorem lhs_col (i : S6256x128.Idx) (q : dot_S6256x128_S128x128_S6256x128_1_0_0_1_n_n.contr.Idx) :
    (dot_S6256x128_S128x128_S6256x128_1_0_0_1_n_n.lhsIdx i q 1).val = (q ⟨0, by decide⟩).val :=
  dot_S6256x128_S128x128_S6256x128_1_0_0_1_n_n.lhsIdx_val_of_single rfl i q
/-- the right operand at the contraction index along its rows … -/
private theorem rhs_row (i : S6256x128.Idx) (q : dot_S6256x128_S128x128_S6256x128_1_0_0_1_n_n.contr.Idx) :
    (dot_S6256x128_S128x128_S6256x128_1_0_0_1_n_n.rhsIdx i q 0).val = (q ⟨0, by decide⟩).val :=
  dot_S6256x128_S128x128_S6256x128_1_0_0_1_n_n.rhsIdx_val_of_single rfl i q
/-- … and at the result's column. -/
private theorem rhs_col (i : S6256x128.Idx) (q : dot_S6256x128_S128x128_S6256x128_1_0_0_1_n_n.contr.Idx) :
    (dot_S6256x128_S128x128_S6256x128_1_0_0_1_n_n.rhsIdx i q 1).val = (i 1).val := by
  unfold DotDims.rhsIdx
  rw [dif_neg (show ¬(1 : Fin S128x128.rank) ∈ dot_S6256x128_S128x128_S6256x128_1_0_0_1_n_n.rhsBatch by decide), dif_pos (show (1 : Fin S128x128.rank) ∈ dot_S6256x128_S128x128_S6256x128_1_0_0_1_n_n.rhsNonContracting by decide)]
  rfl

/-- The payload at row p, column q: over the extended reals the roundings are the identity, so it is the sum over k of
    the left block's (p, k) entry times the right block's (k, q) entry. -/
private theorem pay_apply (x : Vec Ideal S6256x128 .f32) (w : Vec Ideal S128x128 .f32) (p : Fin 6256) (q : Fin 128) :
    k4_pay1 (F := Ideal) x w (ix2 p q) = ∑ k : Fin 128, x (ix2 p k) * w (ix2 k q) := by
  unfold k4_pay1
  refine (truncf_apply (ψ := .bf16) (φ := .f32) _ bitsLt_bf16_f32 (ix2 p q)).trans ?_
  refine (Ideal.matmul_constant_zero_apply dot_S6256x128_S128x128_S6256x128_1_0_0_1_n_n none _ _ (ix2 p q)).trans ?_
  rw [← Equiv.sum_comp (contrEquiv1 dot_S6256x128_S128x128_S6256x128_1_0_0_1_n_n 128 rfl rfl).symm]
  refine Finset.sum_congr rfl fun k _ => ?_
  have hk := contrEquiv1_symm_val dot_S6256x128_S128x128_S6256x128_1_0_0_1_n_n 128 rfl rfl k
  have el : dot_S6256x128_S128x128_S6256x128_1_0_0_1_n_n.lhsIdx (ix2 p q) ((contrEquiv1 dot_S6256x128_S128x128_S6256x128_1_0_0_1_n_n 128 rfl rfl).symm k) = ix2 p k := funext fun a => Fin.ext (by
    match a with
    | ⟨0, _⟩ => exact lhs_row _ _
    | ⟨1, _⟩ => exact (lhs_col _ _).trans hk)
  have er : dot_S6256x128_S128x128_S6256x128_1_0_0_1_n_n.rhsIdx (ix2 p q) ((contrEquiv1 dot_S6256x128_S128x128_S6256x128_1_0_0_1_n_n 128 rfl rfl).symm k) = ix2 k q := funext fun a => Fin.ext (by
    match a with
    | ⟨0, _⟩ => exact (rhs_row _ _).trans hk
    | ⟨1, _⟩ => exact rhs_col _ _)
  rw [el, er, shapeCast_self]
  rfl

/-! ## The blocks a grid point reads and writes -/

/-- The zero offsets, spelt as the constant function. -/
private theorem zero_off : (![0, 0] : Fin 2 → Nat) = fun _ => 0 :=
  funext fun a => match a with | ⟨0, _⟩ => rfl | ⟨1, _⟩ => rfl

/-- The windows' block indices, decided once over the grid: at point t the left array's and the result's block is block
    row t, the right array's is the whole array. -/
private theorem blk_index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- Row p of the left block at point t is row 6256 t + p of the left array. -/
private theorem left_blk (c : Dev nD) (t : Fin cfg4.N) (p : Fin 6256) (k : Fin 128) (r : Fin 100096)
    (hr : r.val = 6256 * t.val + p.val) :
    (iblk4 V c 0 t : Vec Ideal S6256x128 .f32) (ix2 p k)
      = (V c (Pipeline.arrRef spec4 0) : S100096x128.Idx → Elt Ideal .f32) (ix2 r k) := by
  obtain ⟨eRow, eCol, -⟩ := blk_index t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 6256 + 1 * p.val = r.val; rw [eRow, hr]; omega
  | ⟨1, _⟩ => show win4_0.index t (1 : Fin 2) * 128 + 1 * k.val = k.val; rw [eCol]; omega

/-- The right block at every point is the right array. -/
private theorem right_blk (c : Dev nD) (t : Fin cfg4.N) (k : Fin 128) (q : Fin 128) :
    (iblk4 V c 1 t : Vec Ideal S128x128 .f32) (ix2 k q)
      = (V c (Pipeline.arrRef spec4 1) : S128x128.Idx → Elt Ideal .f32) (ix2 k q) := by
  obtain ⟨-, -, eRow, eCol, -⟩ := blk_index t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 128 + 1 * k.val = k.val; rw [eRow]; omega
  | ⟨1, _⟩ => show win4_1.index t (1 : Fin 2) * 128 + 1 * q.val = q.val; rw [eCol]; omega

/-- Row p of the result's block at point t, read off a whole array, is the array's row 6256 t + p. -/
private theorem out_blk (t : Fin cfg4.N) (G : S100096x128.Idx → Elt Ideal .bf16) (p : Fin 6256) (q : Fin 128)
    (r : Fin 100096) (hr : r.val = 6256 * t.val + p.val) :
    ((cfg4.win 2).blk t).view.read (Elt Ideal) G (ix2 p q) = G (ix2 r q) := by
  obtain ⟨-, -, -, -, eRow, eCol⟩ := blk_index t
  rw [View.read_apply]
  show G _ = G _
  congr 1
  funext a
  apply Fin.ext
  match a with
  | ⟨0, _⟩ => show win4_2.index t (0 : Fin 2) * 6256 + 1 * p.val = r.val; rw [eRow, hr]; omega
  | ⟨1, _⟩ => show win4_2.index t (1 : Fin 2) * 128 + 1 * q.val = q.val; rw [eCol]; omega

/-- WHAT POINT t WRITES BACK is block row t of the row-block product of the two arrays as the region finds them. -/
private theorem flushed_eq (c : Dev nD) (t : Fin cfg4.N) :
    (dat4 (F := Ideal) V c).flushed 2 t
      = ((cfg4.win 2).blk t).view.read (Elt Ideal) (mmOut (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero zero_off]
  simp only [View.ld_unit_zero (S := S6256x128) zero_off, View.ld_unit_zero (S := S128x128) zero_off]
  funext j
  obtain ⟨p, q, rfl⟩ : ∃ (p : Fin 6256) (q : Fin 128), j = ix2 p q := ⟨j 0, j 1, eq_ix2 j⟩
  have hN : cfg4.N = 16 := N_4
  have hr : 6256 * t.val + p.val < 100096 := by have := t.isLt; have := p.isLt; omega
  refine (pay_apply (iblk4 V c 0 t) (iblk4 V c 1 t) p q).trans ?_
  refine Eq.trans ?_ (out_blk t _ p q ⟨_, hr⟩ rfl).symm
  show _ = ∑ k : Fin 128, _
  refine Finset.sum_congr rfl fun k _ => ?_
  rw [left_blk V c t p k ⟨_, hr⟩ rfl, right_blk V c t k q]

/-! ## From the blocks to the array -/

/-- An index of the array is in point t's block iff each coordinate is in the block's range on its axis. -/
private theorem mem_blk (t : Fin cfg4.N) (i : S100096x128.Idx) :
    i ∈ ((cfg4.win 2).blk t).view.set ↔ ∀ a : Fin 2, win4_2.index t a * S6256x128.size a ≤ (i a).val
      ∧ (i a).val < win4_2.index t a * S6256x128.size a + S6256x128.size a := by
  show i ∈ ((View.whole (Pipeline.arrRef spec4 2)).slice (win4_2.rect t)).set ↔ _
  rw [View.set_slice_whole, Rect.mem_set_unit]
  exact Iff.rfl

/-- The sixteen blocks cover the array: row r is in the block of point r / 6256. -/
private theorem cover (i : S100096x128.Idx) :
    ∃ t : Fin cfg4.N, (cfg4.win 2).flush t = true ∧ i ∈ ((cfg4.win 2).blk t).view.set := by
  have hrow : (i 0).val < 100096 := (i 0).isLt
  have hcol : (i 1).val < 128 := (i 1).isLt
  have hN : cfg4.N = 16 := N_4
  obtain ⟨t, ht⟩ : ∃ t : Fin cfg4.N, t.val = (i 0).val / 6256 := ⟨⟨(i 0).val / 6256, by rw [hN]; omega⟩, rfl⟩
  obtain ⟨-, -, -, -, eRow, eCol⟩ := blk_index t
  refine ⟨t, flush4_2 t, ?_⟩
  rw [mem_blk]
  intro a
  match a with
  | ⟨0, _⟩ =>
    show win4_2.index t (0 : Fin 2) * 6256 ≤ (i 0).val ∧ (i 0).val < win4_2.index t (0 : Fin 2) * 6256 + 6256
    rw [eRow, ht]; omega
  | ⟨1, _⟩ =>
    show win4_2.index t (1 : Fin 2) * 128 ≤ (i 1).val ∧ (i 1).val < win4_2.index t (1 : Fin 2) * 128 + 128
    rw [eCol]; omega

theorem mm_region4 (c : Dev nD) :
    (dat4 (F := Ideal) V c).arrAt 2 cfg4.N = mmOut (V c (Pipeline.arrRef spec4 0)) (V c (Pipeline.arrRef spec4 1)) :=
  (dat4 (F := Ideal) V c).arrAt_eq_of_cover 2 (mmOut (V c (Pipeline.arrRef spec4 0)) (V c (Pipeline.arrRef spec4 1)))
    (fun t _ => flushed_eq V c t) cover

end Cert.KV

end
-- ==== Proof.PoolRegion1.lean ====
/-
  Region 1 (the one-hot graph sums): the array the 2 × 17 grid points leave is ONE whole-array function of the node
  array and the graph-id row as the region finds them — accumulator c holds, for graph g and feature d, the sum over its
  seventeen row blocks and their 2944 nodes of (is the node in g?) × the node's feature.

  Point t = 17 a + i works on accumulator a and row block i: it reads rows [2944 t, 2944 t + 2944) of the node array and
  the same columns of the graph-id row. At i = 0 the body first stores zeros into output block a, then adds the block's
  one-hot product to what it reads back; at i > 0 it adds the product to what the point before left there. A float is
  an extended real here, where addition is commutative and associative with 0 neutral, so after point 17 a + i the block
  holds the sum over i' ≤ i of the one-hot products of row blocks (a, i'). Block a is written back once, after point
  17 a + 16, when it holds the whole accumulator; the two blocks tile the [2, 128, 128] array.
-/
import proofs.«407808_j56547539419677_2_alg».proof.Proof.Gen.KernelIdeal.Frame
import proofs.«407808_j56547539419677_2_alg».proof.Proof.Spec
import Idealize.ShloMosaic.Lib.Pipeline.Value
import Idealize.ShloMosaic.Lib.ValueIdx
import Idealize.ShloMosaic.PureOps.Ideal.Laws
import Idealize.ShloMosaic.Lib.Tactic
import Mathlib.Algebra.BigOperators.Fin

set_option maxRecDepth 16384

noncomputable section

open scoped BigOperators

namespace Cert.KV

open Idealize.ShloMosaic Idealize.ShloMosaic.TcCoe Idealize.ShloMosaic.ValueIdx Idealize.SL.Sem Cert.KernelIdeal Cert.KernelIdeal.Gen

/-! ## What each control case leaves in the output block, as the body's arithmetic of what it loaded -/

section Pieces
variable {F : FTy → Type} [FloatOps F]

private theorem zeroOffsThree : (![0, 0, 0] : Fin 3 → Nat) = fun _ => 0 := funext fun a => by fin_cases a <;> rfl
private theorem zeroOffsTwo : (![0, 0] : Fin 2 → Nat) = fun _ => 0 := funext fun a => by fin_cases a <;> rfl

/-- The first point of an accumulator: the zero block is stored, read back, and the one-hot product added to it. -/
private theorem pieceA (c : Dev nD) (i : grid1.Coords) (bufN : Memref sig .tc .vmem S2944x128 .f32) (hbN : bufN.IsWhole)
    (bufW : Memref sig .tc .vmem S1x2944 .i32) (hbW : bufW.IsWhole) (bufO : Memref sig .tc .vmem S1x128x128 .f32) (hbO : bufO.IsWhole)
    (hc : cond1_0 i) (xs : Vec F S2944x128 .f32) (ws : Vec F S1x2944 .i32) :
    out1_A_2 c i bufN hbN bufW hbW bufO hbO hc xs ws = k1_pay2 xs ws (k1_pay1 (F := F)) := by
  unfold out1_A_2
  rw [View.read_writes_eq_canon _ _ _ (cover1_A_2 c i bufN hbN bufW hbW bufO hbO hc xs ws)]
  unfold kernelRun1_A
  dsimp only
  sl_unfold_words
  rw [View.canon_cons_unit_zero (S := S1x128x128) zeroOffsThree, View.readCov_unit_zero (S := S1x128x128) _ zeroOffsThree]
  simp only [View.readAt_eq_ld, hbN.read_unread, hbW.read_unread, View.ld_unit_zero (S := S2944x128) zeroOffsTwo, View.ld_unit_zero (S := S1x2944) zeroOffsTwo]

/-- Every later point: the one-hot product is added to what the block held. -/
private theorem pieceB (c : Dev nD) (i : grid1.Coords) (bufN : Memref sig .tc .vmem S2944x128 .f32) (hbN : bufN.IsWhole)
    (bufW : Memref sig .tc .vmem S1x2944 .i32) (hbW : bufW.IsWhole) (bufO : Memref sig .tc .vmem S1x128x128 .f32) (hbO : bufO.IsWhole)
    (hc : ¬cond1_0 i) (xs : Vec F S2944x128 .f32) (ws : Vec F S1x2944 .i32) (xo : Vec F S1x128x128 .f32) :
    out1_B_2 c i bufN hbN bufW hbW bufO hbO hc xs ws xo = k1_pay2 xs ws xo := by
  unfold out1_B_2
  rw [View.read_writes_eq_canon _ _ _ (cover1_B_2 c i bufN hbN bufW hbW bufO hbO hc xs ws xo)]
  unfold kernelRun1_B
  dsimp only
  rw [View.canon_unit_zero zeroOffsThree]
  simp only [View.readAt_eq_ld, hbN.read_unread, hbW.read_unread, hbO.read_unread, View.ld_unit_zero (S := S2944x128) zeroOffsTwo, View.ld_unit_zero (S := S1x2944) zeroOffsTwo, View.ld_unit_zero (S := S1x128x128) zeroOffsThree]

end Pieces

/-! ## The body's arithmetic at one entry (g, d) of the block -/

/-- The product's operand indices at output entry i and contraction index q: (i₀, q) on the left, … -/
private theorem lhsAxisZero (i : S128x128.Idx) (q : dot_S128x2944_S2944x128_S128x128_1_0_0_1_n_n.contr.Idx) :
    (dot_S128x2944_S2944x128_S128x128_1_0_0_1_n_n.lhsIdx i q 0).val = (i 0).val := by
  unfold DotDims.lhsIdx
  rw [dif_neg (show ¬(0 : Fin S128x2944.rank) ∈ dot_S128x2944_S2944x128_S128x128_1_0_0_1_n_n.lhsBatch by decide), dif_pos (show (0 : Fin S128x2944.rank) ∈ dot_S128x2944_S2944x128_S128x128_1_0_0_1_n_n.lhsNonContracting by decide)]
  rfl
private theorem lhsAxisOne (i : S128x128.Idx) (q : dot_S128x2944_S2944x128_S128x128_1_0_0_1_n_n.contr.Idx) :
    (dot_S128x2944_S2944x128_S128x128_1_0_0_1_n_n.lhsIdx i q 1).val = (q ⟨0, by decide⟩).val :=
  dot_S128x2944_S2944x128_S128x128_1_0_0_1_n_n.lhsIdx_val_of_single rfl i q
/-- … and (q, i₁) on the right. -/
private theorem rhsAxisZero (i : S128x128.Idx) (q : dot_S128x2944_S2944x128_S128x128_1_0_0_1_n_n.contr.Idx) :
    (dot_S128x2944_S2944x128_S128x128_1_0_0_1_n_n.rhsIdx i q 0).val = (q ⟨0, by decide⟩).val :=
  dot_S128x2944_S2944x128_S128x128_1_0_0_1_n_n.rhsIdx_val_of_single rfl i q
private theorem rhsAxisOne (i : S128x128.Idx) (q : dot_S128x2944_S2944x128_S128x128_1_0_0_1_n_n.contr.Idx) :
    (dot_S128x2944_S2944x128_S128x128_1_0_0_1_n_n.rhsIdx i q 1).val = (i 1).val := by
  unfold DotDims.rhsIdx
  rw [dif_neg (show ¬(1 : Fin S2944x128.rank) ∈ dot_S128x2944_S2944x128_S128x128_1_0_0_1_n_n.rhsBatch by decide), dif_pos (show (1 : Fin S2944x128.rank) ∈ dot_S128x2944_S2944x128_S128x128_1_0_0_1_n_n.rhsNonContracting by decide)]
  rfl

/-- The comparison bit, widened and converted to a float, is the one-hot entry: 1 where the row number is the word, else 0. -/
private theorem oneHot_of_word (g : Nat) (w : BitVec 32) :
    (FloatOps.sitofp (F := Ideal) .f32 ((IntOp.cmpi .eq (BitVec.ofNat 32 g) w).setWidth 32) : EReal) = oneHot g w := by
  unfold oneHot IntOp.cmpi
  by_cases h : BitVec.ofNat 32 g = w
  · rw [if_pos h]
    have hb : (BitVec.ofNat 32 g == w) = true := by simpa using h
    rw [hb]
    show (((BitVec.setWidth 32 (BitVec.ofBool true)).toInt : ℝ) : EReal) = 1
    rw [show (BitVec.setWidth 32 (BitVec.ofBool true)).toInt = 1 from by decide]
    simp
  · rw [if_neg h]
    have hb : (BitVec.ofNat 32 g == w) = false := by simpa using h
    rw [hb]
    show (((BitVec.setWidth 32 (BitVec.ofBool false)).toInt : ℝ) : EReal) = 0
    rw [show (BitVec.setWidth 32 (BitVec.ofBool false)).toInt = 0 from by decide]
    simp

/-- The one-hot operand of the product: row g, column j is 1 where graph-id word j is g, else 0 (a change of float
    format is the identity on extended reals). -/
private def hotBlock (w : IVec S1x2944 32) : FVec Ideal S128x2944 .bf16 :=
  truncf .bf16 (sitofp .f32 (extui 32 (cmpi .eq
    (broadcastTo S128x2944 (iota .tc S128x1 32 [0] iota_S128x1_d0_w32) broadcasts_S128x1_S128x2944)
    (broadcastTo S128x2944 (shapeCast S1x2944 w shapeCasts_S1x2944_S1x2944) broadcasts_S1x2944_S128x2944)) natLt_1_32)) bitsLt_bf16_f32

private theorem hotBlock_apply (w : IVec S1x2944 32) (g : Fin 128) (j : Fin 2944) :
    hotBlock w (ix2 g j) = oneHot g.val (w (ix2 (0 : Fin 1) j)) := by
  unfold hotBlock
  rw [shapeCast_self]
  show FloatOps.sitofp (F := Ideal) .f32 ((IntOp.cmpi .eq
      (broadcastTo S128x2944 (iota .tc S128x1 32 [0] iota_S128x1_d0_w32) broadcasts_S128x1_S128x2944 (ix2 g j))
      (broadcastTo S128x2944 w broadcasts_S1x2944_S128x2944 (ix2 g j))).setWidth 32) = _
  rw [broadcastTo_apply (iota .tc S128x1 32 [0] iota_S128x1_d0_w32) broadcasts_S128x1_S128x2944 (ix2 g j) (ix2 g (0 : Fin 1))
        (fun a => match a with
          | ⟨0, _⟩ => by show g.val = if (128 : Nat) = 1 then 0 else g.val; rw [if_neg (by decide)]
          | ⟨1, _⟩ => by show (0 : Nat) = if (1 : Nat) = 1 then 0 else j.val; rw [if_pos rfl]),
    broadcastTo_apply w broadcasts_S1x2944_S128x2944 (ix2 g j) (ix2 (0 : Fin 1) j)
        (fun a => match a with
          | ⟨0, _⟩ => by show (0 : Nat) = if (1 : Nat) = 1 then 0 else g.val; rw [if_pos rfl]
          | ⟨1, _⟩ => by show j.val = if (2944 : Nat) = 1 then 0 else j.val; rw [if_neg (by decide)]),
    iota_single_apply]
  exact oneHot_of_word g.val (w (ix2 (0 : Fin 1) j))

/-- The second store's payload: the block read back plus the product of the one-hot operand with the node block. -/
private theorem payTwo_eq (xs : Vec Ideal S2944x128 .f32) (ws : Vec Ideal S1x2944 .i32) (acc : Vec Ideal S1x128x128 .f32) :
    k1_pay2 (F := Ideal) xs ws acc
      = shapeCast S1x128x128 (addf (shapeCast S128x128 acc shapeCasts_S1x128x128_S128x128)
          (matmul dot_S128x2944_S2944x128_S128x128_1_0_0_1_n_n none (hotBlock ws)
            (truncf .bf16 (shapeCast S2944x128 xs shapeCasts_S2944x128_S2944x128) bitsLt_bf16_f32)
            (constant (F := Ideal) S128x128 .f32 0x00000000#32))) shapeCasts_S128x128_S1x128x128 := rfl

/-- At entry (g, d): what the block held there plus the sum over the block's 2944 nodes of (is node j in graph g?) ×
    feature d of node j. -/
private theorem payTwo_apply (xs : Vec Ideal S2944x128 .f32) (ws : Vec Ideal S1x2944 .i32) (acc : Vec Ideal S1x128x128 .f32)
    (g d : Fin 128) :
    k1_pay2 (F := Ideal) xs ws acc (ix3 (0 : Fin 1) g d)
      = acc (ix3 (0 : Fin 1) g d) + ∑ j : Fin 2944, oneHot g.val (ws (ix2 (0 : Fin 1) j)) * xs (ix2 j d) := by
  rw [payTwo_eq]
  refine (shapeCast_apply _ shapeCasts_S128x128_S1x128x128 (ix3 (0 : Fin 1) g d) (ix2 g d) ?_).trans ?_
  · rw [Shape.rowMajor_val_two, Shape.rowMajor_val_three]
    show g.val * 128 + d.val = ((0 * 128 + g.val) * 128 + d.val)
    omega
  refine (addf_apply _ _ (ix2 g d)).trans ?_
  refine congrArg₂ (· + ·) ?_ ?_
  · refine shapeCast_apply acc shapeCasts_S1x128x128_S128x128 (ix2 g d) (ix3 (0 : Fin 1) g d) ?_
    rw [Shape.rowMajor_val_two, Shape.rowMajor_val_three]
    show ((0 * 128 + g.val) * 128 + d.val) = g.val * 128 + d.val
    omega
  · refine (Ideal.matmul_constant_zero_apply dot_S128x2944_S2944x128_S128x128_1_0_0_1_n_n none _ _ (ix2 g d)).trans ?_
    rw [← Equiv.sum_comp (contrEquiv1 dot_S128x2944_S2944x128_S128x128_1_0_0_1_n_n 2944 rfl rfl).symm]
    refine Finset.sum_congr rfl fun k _ => ?_
    have hk := contrEquiv1_symm_val dot_S128x2944_S2944x128_S128x128_1_0_0_1_n_n 2944 rfl rfl k
    have el : dot_S128x2944_S2944x128_S128x128_1_0_0_1_n_n.lhsIdx (ix2 g d) ((contrEquiv1 dot_S128x2944_S2944x128_S128x128_1_0_0_1_n_n 2944 rfl rfl).symm k) = ix2 g k := funext fun a => Fin.ext (by
      match a with
      | ⟨0, _⟩ => exact lhsAxisZero _ _
      | ⟨1, _⟩ => exact (lhsAxisOne _ _).trans hk)
    have er : dot_S128x2944_S2944x128_S128x128_1_0_0_1_n_n.rhsIdx (ix2 g d) ((contrEquiv1 dot_S128x2944_S2944x128_S128x128_1_0_0_1_n_n 2944 rfl rfl).symm k) = ix2 k d := funext fun a => Fin.ext (by
      match a with
      | ⟨0, _⟩ => exact (rhsAxisZero _ _).trans hk
      | ⟨1, _⟩ => exact rhsAxisOne _ _)
    rw [el, er, hotBlock_apply, shapeCast_self]
    rfl

/-- The first store's payload is zero everywhere. -/
private theorem payOne_apply (i : S1x128x128.Idx) : k1_pay1 (F := Ideal) i = 0 := by
  unfold k1_pay1
  show Ideal.ofBits .f32 0x00000000#32 = 0
  exact Ideal.ofBits_zero_f32

/-! ## The windows' blocks, read off the arrays -/

variable (V : (c : Dev nD) → (b : Ref sig .tc) → Buf (Elt Ideal) ((c : Thread nD τ).loc b))

/-- The node array and the graph-id row as the region finds them, and their blocks at a point. -/
private abbrev nodeArr (c : Dev nD) : FVec Ideal S100096x128 .f32 := V c (Pipeline.arrRef spec1 0)
private abbrev idRow (c : Dev nD) : IVec S1x100096 32 := V c (Pipeline.arrRef spec1 1)
private abbrev nodeBlk (c : Dev nD) (t : Fin cfg1.N) : FVec Ideal S2944x128 .f32 := iblk1 V c 0 t
private abbrev idBlk (c : Dev nD) (t : Fin cfg1.N) : IVec S1x2944 32 := iblk1 V c 1 t

/-- The index maps, decided over the 34 points: at point t the node window is at row block t, the graph-id window at
    column block t, the output window at block t / 17. -/
private theorem idxFacts : ∀ t : Fin cfg1.N,
    win1_0.index t (0 : Fin 2) = t.val ∧ win1_0.index t (1 : Fin 2) = 0
    ∧ win1_1.index t (0 : Fin 2) = 0 ∧ win1_1.index t (1 : Fin 2) = t.val
    ∧ win1_2.index t (0 : Fin 3) = t.val / 17 ∧ win1_2.index t (1 : Fin 3) = 0 ∧ win1_2.index t (2 : Fin 3) = 0 :=
  (by decide +kernel : ∀ t : Fin grid1.N, _)

/-- Row j of the node block at point t is row 2944 t + j of the node array. -/
private theorem nodeBlk_apply (c : Dev nD) (t : Fin cfg1.N) (j : Fin 2944) (d : Fin 128) (h : t.val * 2944 + j.val < 100096) :
    nodeBlk V c t (ix2 j d) = nodeArr V c (ix2 (⟨t.val * 2944 + j.val, h⟩ : Fin 100096) d) := by
  obtain ⟨ea, eb, -⟩ := idxFacts t
  show ((cfg1.win 0).blk t).view.read (Elt Ideal) (V c (Pipeline.arrRef spec1 0)) (ix2 j d) = _
  rw [View.read_apply]
  show V c (Pipeline.arrRef spec1 0) (((cfg1.win 0).blk t).view.emb (ix2 j d)) = V c (Pipeline.arrRef spec1 0) (ix2 (⟨t.val * 2944 + j.val, h⟩ : Fin 100096) d)
  congr 1
  funext a
  apply Fin.ext
  match a with
  | ⟨0, _⟩ => show win1_0.index t (0 : Fin 2) * 2944 + 1 * j.val = t.val * 2944 + j.val; rw [ea]; omega
  | ⟨1, _⟩ => show win1_0.index t (1 : Fin 2) * 128 + 1 * d.val = d.val; rw [eb]; omega

/-- Column j of the graph-id block at point t is column 2944 t + j of the graph-id row. -/
private theorem idBlk_apply (c : Dev nD) (t : Fin cfg1.N) (j : Fin 2944) (h : t.val * 2944 + j.val < 100096) :
    idBlk V c t (ix2 (0 : Fin 1) j) = idRow V c (ix2 (0 : Fin 1) (⟨t.val * 2944 + j.val, h⟩ : Fin 100096)) := by
  obtain ⟨-, -, ea, eb, -⟩ := idxFacts t
  show ((cfg1.win 1).blk t).view.read (Elt Ideal) (V c (Pipeline.arrRef spec1 1)) (ix2 (0 : Fin 1) j) = _
  rw [View.read_apply]
  show V c (Pipeline.arrRef spec1 1) (((cfg1.win 1).blk t).view.emb (ix2 (0 : Fin 1) j)) = V c (Pipeline.arrRef spec1 1) (ix2 (0 : Fin 1) (⟨t.val * 2944 + j.val, h⟩ : Fin 100096))
  congr 1
  funext a
  apply Fin.ext
  match a with
  | ⟨0, _⟩ => show win1_1.index t (0 : Fin 2) * 1 + 1 * 0 = 0; rw [ea]
  | ⟨1, _⟩ => show win1_1.index t (1 : Fin 2) * 2944 + 1 * j.val = t.val * 2944 + j.val; rw [eb]; omega

/-! ## The running sum over the points of one accumulator -/

/-- Point n's addend at entry (g, d): the one-hot product of its two blocks there (0 past the grid, never used). -/
private def blockSum (c : Dev nD) (n : Nat) (g d : Fin 128) : EReal :=
  if h : n < cfg1.N then
    ∑ j : Fin 2944, oneHot g.val (idBlk V c ⟨n, h⟩ (ix2 (0 : Fin 1) j)) * nodeBlk V c ⟨n, h⟩ (ix2 j d)
  else 0

/-- What the output block holds after a first point of an accumulator … -/
private theorem afterFirst (c : Dev nD) (t : Fin cfg1.N) (hz : t.val % 17 = 0) :
    outsAt1 V c t.val t.isLt = k1_pay2 (F := Ideal) (nodeBlk V c t) (idBlk V c t) (k1_pay1 (F := Ideal)) := by
  rw [outsAt1_A V c t hz]
  exact pieceA (F := Ideal) c (grid1.coords t) (ms1_0 t) (hs1_0 t) (ms1_1 t) (hs1_1 t) (ms1_2 t) (hs1_2 t)
    ((hcond1_0 t).mpr hz) (iblk1 V c 0 t) (iblk1 V c 1 t)

/-- … and after a later one, over what the point before left. -/
private theorem afterLater (c : Dev nD) (t : Fin cfg1.N) (hz : ¬t.val % 17 = 0) :
    outsAt1 V c t.val t.isLt = k1_pay2 (F := Ideal) (nodeBlk V c t) (idBlk V c t)
      (outsAt1 V c (t.val - 1) (Nat.lt_of_le_of_lt (Nat.sub_le _ _) t.isLt)) := by
  rw [outsAt1_B V c t hz]
  exact pieceB (F := Ideal) c (grid1.coords t) (ms1_0 t) (hs1_0 t) (ms1_1 t) (hs1_1 t) (ms1_2 t) (hs1_2 t)
    (fun h => hz ((hcond1_0 t).mp h)) (iblk1 V c 0 t) (iblk1 V c 1 t)
    (outsAt1 V c (t.val - 1) (Nat.lt_of_le_of_lt (Nat.sub_le _ _) t.isLt))

/-- The block's contents depend on the point's number only. -/
private theorem outsAt_congr (c : Dev nD) (u n : Nat) (hu : u < cfg1.N) (hn : n < cfg1.N) (e : u = n) :
    outsAt1 V c u hu = outsAt1 V c n hn := by
  subst e; rfl

/-- THE INVARIANT: after point 17 q + j (j < 17) entry (g, d) of the block holds the sum of the addends of points
    17 q … 17 q + j — by induction on j: the first point leaves 0 + its addend, each later one adds its own. -/
private theorem runningSum (c : Dev nD) (q : Nat) : ∀ (j : Nat) (_ : j < 17) (h : 17 * q + j < cfg1.N) (g d : Fin 128),
    (outsAt1 V c (17 * q + j) h : FVec Ideal S1x128x128 .f32) (ix3 (0 : Fin 1) g d)
      = ∑ s ∈ Finset.range (j + 1), blockSum V c (17 * q + s) g d
  | 0, _, h, g, d => by
    have hz : (⟨17 * q + 0, h⟩ : Fin cfg1.N).val % 17 = 0 := by show (17 * q + 0) % 17 = 0; omega
    refine (congrFun (afterFirst V c ⟨17 * q + 0, h⟩ hz) (ix3 (0 : Fin 1) g d)).trans ?_
    refine (payTwo_apply (nodeBlk V c ⟨17 * q + 0, h⟩) (idBlk V c ⟨17 * q + 0, h⟩) (k1_pay1 (F := Ideal)) g d).trans ?_
    rw [payOne_apply, zero_add, Finset.sum_range_one]
    unfold blockSum
    rw [dif_pos h]
  | j + 1, hj, h, g, d => by
    have hlater : ¬(⟨17 * q + (j + 1), h⟩ : Fin cfg1.N).val % 17 = 0 := by show ¬(17 * q + (j + 1)) % 17 = 0; omega
    refine (congrFun (afterLater V c ⟨17 * q + (j + 1), h⟩ hlater) (ix3 (0 : Fin 1) g d)).trans ?_
    refine (payTwo_apply (nodeBlk V c ⟨17 * q + (j + 1), h⟩) (idBlk V c ⟨17 * q + (j + 1), h⟩)
      (outsAt1 V c ((⟨17 * q + (j + 1), h⟩ : Fin cfg1.N).val - 1)
        (Nat.lt_of_le_of_lt (Nat.sub_le _ _) (⟨17 * q + (j + 1), h⟩ : Fin cfg1.N).isLt)) g d).trans ?_
    rw [Finset.sum_range_succ _ (j + 1)]
    refine congrArg₂ (· + ·) ?_ ?_
    · exact (congrFun (outsAt_congr V c _ (17 * q + j) _ (Nat.lt_of_succ_lt h)
        (by show 17 * q + (j + 1) - 1 = 17 * q + j; omega)) (ix3 (0 : Fin 1) g d)).trans
        (runningSum c q j (Nat.lt_of_succ_lt hj) (Nat.lt_of_succ_lt h) g d)
    · unfold blockSum
      rw [dif_pos h]

/-! ## The whole accumulator is the specification's entry -/

private theorem poolOut_apply (A : FVec Ideal S100096x128 .f32) (bp : IVec S1x100096 32) (q : Fin 2) (g d : Fin 128) :
    poolOut A bp (ix3 q g d)
      = ∑ t : Fin 17, ∑ j : Fin 2944, oneHot g.val (bp (ix2 (0 : Fin 1) (nodeOf q t j))) * A (ix2 (nodeOf q t j) d) := rfl

/-- The seventeen addends of accumulator q add up to the specification's entry: row j of row block (q, i) is node
    (17 q + i) · 2944 + j. -/
private theorem sumBlocks (c : Dev nD) (q : Fin 2) (g d : Fin 128) :
    ∑ s ∈ Finset.range 17, blockSum V c (17 * q.val + s) g d = poolOut (nodeArr V c) (idRow V c) (ix3 q g d) := by
  have hN : cfg1.N = 34 := N_1
  rw [poolOut_apply, Finset.sum_range]
  refine Finset.sum_congr rfl fun i _ => ?_
  have hq := q.isLt
  have hi := i.isLt
  have hlt : 17 * q.val + i.val < cfg1.N := by rw [hN]; omega
  unfold blockSum
  rw [dif_pos hlt]
  refine Finset.sum_congr rfl fun j _ => ?_
  have hj := j.isLt
  have hr : (⟨17 * q.val + i.val, hlt⟩ : Fin cfg1.N).val * 2944 + j.val < 100096 := by
    show (17 * q.val + i.val) * 2944 + j.val < 100096; omega
  have en : (⟨(⟨17 * q.val + i.val, hlt⟩ : Fin cfg1.N).val * 2944 + j.val, hr⟩ : Fin 100096) = nodeOf q i j :=
    Fin.ext (by show (17 * q.val + i.val) * 2944 + j.val = (q.val * 17 + i.val) * 2944 + j.val; omega)
  rw [nodeBlk_apply V c ⟨17 * q.val + i.val, hlt⟩ j d hr, idBlk_apply V c ⟨17 * q.val + i.val, hlt⟩ j hr, en]

/-! ## From the blocks to the array -/

/-- The one write-back of accumulator a, after its last point 17 a + 16, writes block a of the specification. -/
private theorem flushed_eq (c : Dev nD) (t : Fin cfg1.N) (hf : (cfg1.win 2).flush t = true) :
    (dat1 (F := Ideal) V c).flushed 2 t
      = ((cfg1.win 2).blk t).view.read (Elt Ideal) (poolOut (nodeArr V c) (idRow V c)) := by
  have hN : cfg1.N = 34 := N_1
  have hm : t.val % 17 = 16 := (flush1_2 t).mp hf
  have ht := t.isLt
  obtain ⟨-, -, -, -, ea, eb, ec⟩ := idxFacts t
  have hq : t.val / 17 < 2 := by omega
  show (cfg1.win 2).cut (grid1.coords t) ((dat1 (F := Ideal) V c).after 2 t) = _
  rw [after1_2]
  refine funext fun (y : S1x128x128.Idx) => ?_
  obtain ⟨z, g, d, rfl⟩ : ∃ (z : Fin 1) (g d : Fin 128), y = ix3 z g d := ⟨y 0, y 1, y 2, eq_ix3 y⟩
  obtain rfl : z = 0 := Subsingleton.elim _ _
  rw [View.read_apply]
  show (outsAt1 V c t.val t.isLt : FVec Ideal S1x128x128 .f32) (ix3 (0 : Fin 1) g d)
    = poolOut (nodeArr V c) (idRow V c) (((cfg1.win 2).blk t).view.emb (ix3 (0 : Fin 1) g d))
  have hemb : ((cfg1.win 2).blk t).view.emb (ix3 (0 : Fin 1) g d) = ix3 (⟨t.val / 17, hq⟩ : Fin 2) g d := by
    funext a
    apply Fin.ext
    match a with
    | ⟨0, _⟩ => show win1_2.index t (0 : Fin 3) * 1 + 1 * 0 = t.val / 17; rw [ea]; omega
    | ⟨1, _⟩ => show win1_2.index t (1 : Fin 3) * 128 + 1 * g.val = g.val; rw [eb]; omega
    | ⟨2, _⟩ => show win1_2.index t (2 : Fin 3) * 128 + 1 * d.val = d.val; rw [ec]; omega
  rw [hemb, ← sumBlocks V c ⟨t.val / 17, hq⟩ g d]
  have hl : 17 * (t.val / 17) + 16 < cfg1.N := by omega
  exact (congrFun (outsAt_congr V c t.val (17 * (t.val / 17) + 16) t.isLt hl (by omega)) (ix3 (0 : Fin 1) g d)).trans
    (runningSum V c (t.val / 17) 16 (by decide) hl g d)

/-- Every entry of the [2, 128, 128] array lies in the block its accumulator's last point writes back. -/
private theorem covered (i : S2x128x128.Idx) :
    ∃ t : Fin cfg1.N, (cfg1.win 2).flush t = true ∧ i ∈ ((cfg1.win 2).blk t).view.set := by
  have hN : cfg1.N = 34 := N_1
  have hia : (i 0).val < 2 := (i 0).isLt
  have hib : (i 1).val < 128 := (i 1).isLt
  have hic : (i 2).val < 128 := (i 2).isLt
  have hlt : 17 * (i 0).val + 16 < cfg1.N := by rw [hN]; omega
  refine ⟨⟨17 * (i 0).val + 16, hlt⟩, (flush1_2 _).mpr (by show (17 * (i 0).val + 16) % 17 = 16; omega), ?_⟩
  obtain ⟨-, -, -, -, ea, eb, ec⟩ := idxFacts ⟨17 * (i 0).val + 16, hlt⟩
  have ea' : win1_2.index ⟨17 * (i 0).val + 16, hlt⟩ (0 : Fin 3) = (i 0).val := by
    rw [ea]; show (17 * (i 0).val + 16) / 17 = (i 0).val; omega
  show i ∈ ((View.whole (Pipeline.arrRef spec1 2)).slice (win1_2.rect ⟨17 * (i 0).val + 16, hlt⟩)).set
  rw [View.set_slice_whole, Rect.mem_set_unit]
  intro a
  match a with
  | ⟨0, _⟩ =>
    show win1_2.index ⟨17 * (i 0).val + 16, hlt⟩ (0 : Fin 3) * 1 ≤ (i 0).val
      ∧ (i 0).val < win1_2.index ⟨17 * (i 0).val + 16, hlt⟩ (0 : Fin 3) * 1 + 1
    rw [ea']; omega
  | ⟨1, _⟩ =>
    show win1_2.index ⟨17 * (i 0).val + 16, hlt⟩ (1 : Fin 3) * 128 ≤ (i 1).val
      ∧ (i 1).val < win1_2.index ⟨17 * (i 0).val + 16, hlt⟩ (1 : Fin 3) * 128 + 128
    rw [eb]; omega
  | ⟨2, _⟩ =>
    show win1_2.index ⟨17 * (i 0).val + 16, hlt⟩ (2 : Fin 3) * 128 ≤ (i 2).val
      ∧ (i 2).val < win1_2.index ⟨17 * (i 0).val + 16, hlt⟩ (2 : Fin 3) * 128 + 128
    rw [ec]; omega

/-- So the array the region leaves is the specification's one-hot graph sums of the arrays it found. -/
theorem pool_region1 (c : Dev nD) :
    (dat1 (F := Ideal) V c).arrAt 2 cfg1.N = poolOut (V c (Pipeline.arrRef spec1 0)) (V c (Pipeline.arrRef spec1 1)) :=
  (dat1 (F := Ideal) V c).arrAt_eq_of_cover 2 (poolOut (nodeArr V c) (idRow V c))
    (fun t hf => flushed_eq V c t hf) (fun i => covered i)

end Cert.KV

end
-- ==== Proof.PoolRegion3.lean ====
/-
  Region 3 (the one-hot graph sums): the array the 2 × 17 grid points leave is ONE whole-array function of the node
  array and the graph-id row as the region finds them — accumulator c holds, for graph g and feature d, the sum over its
  seventeen row blocks and their 2944 nodes of (is the node in g?) × the node's feature.

  Point t = 17 a + i works on accumulator a and row block i: it reads rows [2944 t, 2944 t + 2944) of the node array and
  the same columns of the graph-id row. At i = 0 the body first stores zeros into output block a, then adds the block's
  one-hot product to what it reads back; at i > 0 it adds the product to what the point before left there. A float is
  an extended real here, where addition is commutative and associative with 0 neutral, so after point 17 a + i the block
  holds the sum over i' ≤ i of the one-hot products of row blocks (a, i'). Block a is written back once, after point
  17 a + 16, when it holds the whole accumulator; the two blocks tile the [2, 128, 128] array.
-/
import proofs.«407808_j56547539419677_2_alg».proof.Proof.Gen.KernelIdeal.Frame
import proofs.«407808_j56547539419677_2_alg».proof.Proof.Spec
import Idealize.ShloMosaic.Lib.Pipeline.Value
import Idealize.ShloMosaic.Lib.ValueIdx
import Idealize.ShloMosaic.PureOps.Ideal.Laws
import Idealize.ShloMosaic.Lib.Tactic
import Mathlib.Algebra.BigOperators.Fin

set_option maxRecDepth 16384

noncomputable section

open scoped BigOperators

namespace Cert.KV

open Idealize.ShloMosaic Idealize.ShloMosaic.TcCoe Idealize.ShloMosaic.ValueIdx Idealize.SL.Sem Cert.KernelIdeal Cert.KernelIdeal.Gen

/-! ## What each control case leaves in the output block, as the body's arithmetic of what it loaded -/

section Pieces
variable {F : FTy → Type} [FloatOps F]

private theorem zeroOffsThree : (![0, 0, 0] : Fin 3 → Nat) = fun _ => 0 := funext fun a => by fin_cases a <;> rfl
private theorem zeroOffsTwo : (![0, 0] : Fin 2 → Nat) = fun _ => 0 := funext fun a => by fin_cases a <;> rfl

/-- The first point of an accumulator: the zero block is stored, read back, and the one-hot product added to it. -/
private theorem pieceA (c : Dev nD) (i : grid3.Coords) (bufN : Memref sig .tc .vmem S2944x128 .f32) (hbN : bufN.IsWhole)
    (bufW : Memref sig .tc .vmem S1x2944 .i32) (hbW : bufW.IsWhole) (bufO : Memref sig .tc .vmem S1x128x128 .f32) (hbO : bufO.IsWhole)
    (hc : cond3_0 i) (xs : Vec F S2944x128 .f32) (ws : Vec F S1x2944 .i32) :
    out3_A_2 c i bufN hbN bufW hbW bufO hbO hc xs ws = k3_pay2 xs ws (k3_pay1 (F := F)) := by
  unfold out3_A_2
  rw [View.read_writes_eq_canon _ _ _ (cover3_A_2 c i bufN hbN bufW hbW bufO hbO hc xs ws)]
  unfold kernelRun3_A
  dsimp only
  sl_unfold_words
  rw [View.canon_cons_unit_zero (S := S1x128x128) zeroOffsThree, View.readCov_unit_zero (S := S1x128x128) _ zeroOffsThree]
  simp only [View.readAt_eq_ld, hbN.read_unread, hbW.read_unread, View.ld_unit_zero (S := S2944x128) zeroOffsTwo, View.ld_unit_zero (S := S1x2944) zeroOffsTwo]

/-- Every later point: the one-hot product is added to what the block held. -/
private theorem pieceB (c : Dev nD) (i : grid3.Coords) (bufN : Memref sig .tc .vmem S2944x128 .f32) (hbN : bufN.IsWhole)
    (bufW : Memref sig .tc .vmem S1x2944 .i32) (hbW : bufW.IsWhole) (bufO : Memref sig .tc .vmem S1x128x128 .f32) (hbO : bufO.IsWhole)
    (hc : ¬cond3_0 i) (xs : Vec F S2944x128 .f32) (ws : Vec F S1x2944 .i32) (xo : Vec F S1x128x128 .f32) :
    out3_B_2 c i bufN hbN bufW hbW bufO hbO hc xs ws xo = k3_pay2 xs ws xo := by
  unfold out3_B_2
  rw [View.read_writes_eq_canon _ _ _ (cover3_B_2 c i bufN hbN bufW hbW bufO hbO hc xs ws xo)]
  unfold kernelRun3_B
  dsimp only
  rw [View.canon_unit_zero zeroOffsThree]
  simp only [View.readAt_eq_ld, hbN.read_unread, hbW.read_unread, hbO.read_unread, View.ld_unit_zero (S := S2944x128) zeroOffsTwo, View.ld_unit_zero (S := S1x2944) zeroOffsTwo, View.ld_unit_zero (S := S1x128x128) zeroOffsThree]

end Pieces

/-! ## The body's arithmetic at one entry (g, d) of the block -/

/-- The product's operand indices at output entry i and contraction index q: (i₀, q) on the left, … -/
private theorem lhsAxisZero (i : S128x128.Idx) (q : dot_S128x2944_S2944x128_S128x128_1_0_0_1_n_n.contr.Idx) :
    (dot_S128x2944_S2944x128_S128x128_1_0_0_1_n_n.lhsIdx i q 0).val = (i 0).val := by
  unfold DotDims.lhsIdx
  rw [dif_neg (show ¬(0 : Fin S128x2944.rank) ∈ dot_S128x2944_S2944x128_S128x128_1_0_0_1_n_n.lhsBatch by decide), dif_pos (show (0 : Fin S128x2944.rank) ∈ dot_S128x2944_S2944x128_S128x128_1_0_0_1_n_n.lhsNonContracting by decide)]
  rfl
private theorem lhsAxisOne (i : S128x128.Idx) (q : dot_S128x2944_S2944x128_S128x128_1_0_0_1_n_n.contr.Idx) :
    (dot_S128x2944_S2944x128_S128x128_1_0_0_1_n_n.lhsIdx i q 1).val = (q ⟨0, by decide⟩).val :=
  dot_S128x2944_S2944x128_S128x128_1_0_0_1_n_n.lhsIdx_val_of_single rfl i q
/-- … and (q, i₁) on the right. -/
private theorem rhsAxisZero (i : S128x128.Idx) (q : dot_S128x2944_S2944x128_S128x128_1_0_0_1_n_n.contr.Idx) :
    (dot_S128x2944_S2944x128_S128x128_1_0_0_1_n_n.rhsIdx i q 0).val = (q ⟨0, by decide⟩).val :=
  dot_S128x2944_S2944x128_S128x128_1_0_0_1_n_n.rhsIdx_val_of_single rfl i q
private theorem rhsAxisOne (i : S128x128.Idx) (q : dot_S128x2944_S2944x128_S128x128_1_0_0_1_n_n.contr.Idx) :
    (dot_S128x2944_S2944x128_S128x128_1_0_0_1_n_n.rhsIdx i q 1).val = (i 1).val := by
  unfold DotDims.rhsIdx
  rw [dif_neg (show ¬(1 : Fin S2944x128.rank) ∈ dot_S128x2944_S2944x128_S128x128_1_0_0_1_n_n.rhsBatch by decide), dif_pos (show (1 : Fin S2944x128.rank) ∈ dot_S128x2944_S2944x128_S128x128_1_0_0_1_n_n.rhsNonContracting by decide)]
  rfl

/-- The comparison bit, widened and converted to a float, is the one-hot entry: 1 where the row number is the word, else 0. -/
private theorem oneHot_of_word (g : Nat) (w : BitVec 32) :
    (FloatOps.sitofp (F := Ideal) .f32 ((IntOp.cmpi .eq (BitVec.ofNat 32 g) w).setWidth 32) : EReal) = oneHot g w := by
  unfold oneHot IntOp.cmpi
  by_cases h : BitVec.ofNat 32 g = w
  · rw [if_pos h]
    have hb : (BitVec.ofNat 32 g == w) = true := by simpa using h
    rw [hb]
    show (((BitVec.setWidth 32 (BitVec.ofBool true)).toInt : ℝ) : EReal) = 1
    rw [show (BitVec.setWidth 32 (BitVec.ofBool true)).toInt = 1 from by decide]
    simp
  · rw [if_neg h]
    have hb : (BitVec.ofNat 32 g == w) = false := by simpa using h
    rw [hb]
    show (((BitVec.setWidth 32 (BitVec.ofBool false)).toInt : ℝ) : EReal) = 0
    rw [show (BitVec.setWidth 32 (BitVec.ofBool false)).toInt = 0 from by decide]
    simp

/-- The one-hot operand of the product: row g, column j is 1 where graph-id word j is g, else 0 (a change of float
    format is the identity on extended reals). -/
private def hotBlock (w : IVec S1x2944 32) : FVec Ideal S128x2944 .bf16 :=
  truncf .bf16 (sitofp .f32 (extui 32 (cmpi .eq
    (broadcastTo S128x2944 (iota .tc S128x1 32 [0] iota_S128x1_d0_w32) broadcasts_S128x1_S128x2944)
    (broadcastTo S128x2944 (shapeCast S1x2944 w shapeCasts_S1x2944_S1x2944) broadcasts_S1x2944_S128x2944)) natLt_1_32)) bitsLt_bf16_f32

private theorem hotBlock_apply (w : IVec S1x2944 32) (g : Fin 128) (j : Fin 2944) :
    hotBlock w (ix2 g j) = oneHot g.val (w (ix2 (0 : Fin 1) j)) := by
  unfold hotBlock
  rw [shapeCast_self]
  show FloatOps.sitofp (F := Ideal) .f32 ((IntOp.cmpi .eq
      (broadcastTo S128x2944 (iota .tc S128x1 32 [0] iota_S128x1_d0_w32) broadcasts_S128x1_S128x2944 (ix2 g j))
      (broadcastTo S128x2944 w broadcasts_S1x2944_S128x2944 (ix2 g j))).setWidth 32) = _
  rw [broadcastTo_apply (iota .tc S128x1 32 [0] iota_S128x1_d0_w32) broadcasts_S128x1_S128x2944 (ix2 g j) (ix2 g (0 : Fin 1))
        (fun a => match a with
          | ⟨0, _⟩ => by show g.val = if (128 : Nat) = 1 then 0 else g.val; rw [if_neg (by decide)]
          | ⟨1, _⟩ => by show (0 : Nat) = if (1 : Nat) = 1 then 0 else j.val; rw [if_pos rfl]),
    broadcastTo_apply w broadcasts_S1x2944_S128x2944 (ix2 g j) (ix2 (0 : Fin 1) j)
        (fun a => match a with
          | ⟨0, _⟩ => by show (0 : Nat) = if (1 : Nat) = 1 then 0 else g.val; rw [if_pos rfl]
          | ⟨1, _⟩ => by show j.val = if (2944 : Nat) = 1 then 0 else j.val; rw [if_neg (by decide)]),
    iota_single_apply]
  exact oneHot_of_word g.val (w (ix2 (0 : Fin 1) j))

/-- The second store's payload: the block read back plus the product of the one-hot operand with the node block. -/
private theorem payTwo_eq (xs : Vec Ideal S2944x128 .f32) (ws : Vec Ideal S1x2944 .i32) (acc : Vec Ideal S1x128x128 .f32) :
    k3_pay2 (F := Ideal) xs ws acc
      = shapeCast S1x128x128 (addf (shapeCast S128x128 acc shapeCasts_S1x128x128_S128x128)
          (matmul dot_S128x2944_S2944x128_S128x128_1_0_0_1_n_n none (hotBlock ws)
            (truncf .bf16 (shapeCast S2944x128 xs shapeCasts_S2944x128_S2944x128) bitsLt_bf16_f32)
            (constant (F := Ideal) S128x128 .f32 0x00000000#32))) shapeCasts_S128x128_S1x128x128 := rfl

/-- At entry (g, d): what the block held there plus the sum over the block's 2944 nodes of (is node j in graph g?) ×
    feature d of node j. -/
private theorem payTwo_apply (xs : Vec Ideal S2944x128 .f32) (ws : Vec Ideal S1x2944 .i32) (acc : Vec Ideal S1x128x128 .f32)
    (g d : Fin 128) :
    k3_pay2 (F := Ideal) xs ws acc (ix3 (0 : Fin 1) g d)
      = acc (ix3 (0 : Fin 1) g d) + ∑ j : Fin 2944, oneHot g.val (ws (ix2 (0 : Fin 1) j)) * xs (ix2 j d) := by
  rw [payTwo_eq]
  refine (shapeCast_apply _ shapeCasts_S128x128_S1x128x128 (ix3 (0 : Fin 1) g d) (ix2 g d) ?_).trans ?_
  · rw [Shape.rowMajor_val_two, Shape.rowMajor_val_three]
    show g.val * 128 + d.val = ((0 * 128 + g.val) * 128 + d.val)
    omega
  refine (addf_apply _ _ (ix2 g d)).trans ?_
  refine congrArg₂ (· + ·) ?_ ?_
  · refine shapeCast_apply acc shapeCasts_S1x128x128_S128x128 (ix2 g d) (ix3 (0 : Fin 1) g d) ?_
    rw [Shape.rowMajor_val_two, Shape.rowMajor_val_three]
    show ((0 * 128 + g.val) * 128 + d.val) = g.val * 128 + d.val
    omega
  · refine (Ideal.matmul_constant_zero_apply dot_S128x2944_S2944x128_S128x128_1_0_0_1_n_n none _ _ (ix2 g d)).trans ?_
    rw [← Equiv.sum_comp (contrEquiv1 dot_S128x2944_S2944x128_S128x128_1_0_0_1_n_n 2944 rfl rfl).symm]
    refine Finset.sum_congr rfl fun k _ => ?_
    have hk := contrEquiv1_symm_val dot_S128x2944_S2944x128_S128x128_1_0_0_1_n_n 2944 rfl rfl k
    have el : dot_S128x2944_S2944x128_S128x128_1_0_0_1_n_n.lhsIdx (ix2 g d) ((contrEquiv1 dot_S128x2944_S2944x128_S128x128_1_0_0_1_n_n 2944 rfl rfl).symm k) = ix2 g k := funext fun a => Fin.ext (by
      match a with
      | ⟨0, _⟩ => exact lhsAxisZero _ _
      | ⟨1, _⟩ => exact (lhsAxisOne _ _).trans hk)
    have er : dot_S128x2944_S2944x128_S128x128_1_0_0_1_n_n.rhsIdx (ix2 g d) ((contrEquiv1 dot_S128x2944_S2944x128_S128x128_1_0_0_1_n_n 2944 rfl rfl).symm k) = ix2 k d := funext fun a => Fin.ext (by
      match a with
      | ⟨0, _⟩ => exact (rhsAxisZero _ _).trans hk
      | ⟨1, _⟩ => exact rhsAxisOne _ _)
    rw [el, er, hotBlock_apply, shapeCast_self]
    rfl

/-- The first store's payload is zero everywhere. -/
private theorem payOne_apply (i : S1x128x128.Idx) : k3_pay1 (F := Ideal) i = 0 := by
  unfold k3_pay1
  show Ideal.ofBits .f32 0x00000000#32 = 0
  exact Ideal.ofBits_zero_f32

/-! ## The windows' blocks, read off the arrays -/

variable (V : (c : Dev nD) → (b : Ref sig .tc) → Buf (Elt Ideal) ((c : Thread nD τ).loc b))

/-- The node array and the graph-id row as the region finds them, and their blocks at a point. -/
private abbrev nodeArr (c : Dev nD) : FVec Ideal S100096x128 .f32 := V c (Pipeline.arrRef spec3 0)
private abbrev idRow (c : Dev nD) : IVec S1x100096 32 := V c (Pipeline.arrRef spec3 1)
private abbrev nodeBlk (c : Dev nD) (t : Fin cfg3.N) : FVec Ideal S2944x128 .f32 := iblk3 V c 0 t
private abbrev idBlk (c : Dev nD) (t : Fin cfg3.N) : IVec S1x2944 32 := iblk3 V c 1 t

/-- The index maps, decided over the 34 points: at point t the node window is at row block t, the graph-id window at
    column block t, the output window at block t / 17. -/
private theorem idxFacts : ∀ t : Fin cfg3.N,
    win3_0.index t (0 : Fin 2) = t.val ∧ win3_0.index t (1 : Fin 2) = 0
    ∧ win3_1.index t (0 : Fin 2) = 0 ∧ win3_1.index t (1 : Fin 2) = t.val
    ∧ win3_2.index t (0 : Fin 3) = t.val / 17 ∧ win3_2.index t (1 : Fin 3) = 0 ∧ win3_2.index t (2 : Fin 3) = 0 :=
  (by decide +kernel : ∀ t : Fin grid3.N, _)

/-- Row j of the node block at point t is row 2944 t + j of the node array. -/
private theorem nodeBlk_apply (c : Dev nD) (t : Fin cfg3.N) (j : Fin 2944) (d : Fin 128) (h : t.val * 2944 + j.val < 100096) :
    nodeBlk V c t (ix2 j d) = nodeArr V c (ix2 (⟨t.val * 2944 + j.val, h⟩ : Fin 100096) d) := by
  obtain ⟨ea, eb, -⟩ := idxFacts t
  show ((cfg3.win 0).blk t).view.read (Elt Ideal) (V c (Pipeline.arrRef spec3 0)) (ix2 j d) = _
  rw [View.read_apply]
  show V c (Pipeline.arrRef spec3 0) (((cfg3.win 0).blk t).view.emb (ix2 j d)) = V c (Pipeline.arrRef spec3 0) (ix2 (⟨t.val * 2944 + j.val, h⟩ : Fin 100096) d)
  congr 1
  funext a
  apply Fin.ext
  match a with
  | ⟨0, _⟩ => show win3_0.index t (0 : Fin 2) * 2944 + 1 * j.val = t.val * 2944 + j.val; rw [ea]; omega
  | ⟨1, _⟩ => show win3_0.index t (1 : Fin 2) * 128 + 1 * d.val = d.val; rw [eb]; omega

/-- Column j of the graph-id block at point t is column 2944 t + j of the graph-id row. -/
private theorem idBlk_apply (c : Dev nD) (t : Fin cfg3.N) (j : Fin 2944) (h : t.val * 2944 + j.val < 100096) :
    idBlk V c t (ix2 (0 : Fin 1) j) = idRow V c (ix2 (0 : Fin 1) (⟨t.val * 2944 + j.val, h⟩ : Fin 100096)) := by
  obtain ⟨-, -, ea, eb, -⟩ := idxFacts t
  show ((cfg3.win 1).blk t).view.read (Elt Ideal) (V c (Pipeline.arrRef spec3 1)) (ix2 (0 : Fin 1) j) = _
  rw [View.read_apply]
  show V c (Pipeline.arrRef spec3 1) (((cfg3.win 1).blk t).view.emb (ix2 (0 : Fin 1) j)) = V c (Pipeline.arrRef spec3 1) (ix2 (0 : Fin 1) (⟨t.val * 2944 + j.val, h⟩ : Fin 100096))
  congr 1
  funext a
  apply Fin.ext
  match a with
  | ⟨0, _⟩ => show win3_1.index t (0 : Fin 2) * 1 + 1 * 0 = 0; rw [ea]
  | ⟨1, _⟩ => show win3_1.index t (1 : Fin 2) * 2944 + 1 * j.val = t.val * 2944 + j.val; rw [eb]; omega

/-! ## The running sum over the points of one accumulator -/

/-- Point n's addend at entry (g, d): the one-hot product of its two blocks there (0 past the grid, never used). -/
private def blockSum (c : Dev nD) (n : Nat) (g d : Fin 128) : EReal :=
  if h : n < cfg3.N then
    ∑ j : Fin 2944, oneHot g.val (idBlk V c ⟨n, h⟩ (ix2 (0 : Fin 1) j)) * nodeBlk V c ⟨n, h⟩ (ix2 j d)
  else 0

/-- What the output block holds after a first point of an accumulator … -/
private theorem afterFirst (c : Dev nD) (t : Fin cfg3.N) (hz : t.val % 17 = 0) :
    outsAt3 V c t.val t.isLt = k3_pay2 (F := Ideal) (nodeBlk V c t) (idBlk V c t) (k3_pay1 (F := Ideal)) := by
  rw [outsAt3_A V c t hz]
  exact pieceA (F := Ideal) c (grid3.coords t) (ms3_0 t) (hs3_0 t) (ms3_1 t) (hs3_1 t) (ms3_2 t) (hs3_2 t)
    ((hcond3_0 t).mpr hz) (iblk3 V c 0 t) (iblk3 V c 1 t)

/-- … and after a later one, over what the point before left. -/
private theorem afterLater (c : Dev nD) (t : Fin cfg3.N) (hz : ¬t.val % 17 = 0) :
    outsAt3 V c t.val t.isLt = k3_pay2 (F := Ideal) (nodeBlk V c t) (idBlk V c t)
      (outsAt3 V c (t.val - 1) (Nat.lt_of_le_of_lt (Nat.sub_le _ _) t.isLt)) := by
  rw [outsAt3_B V c t hz]
  exact pieceB (F := Ideal) c (grid3.coords t) (ms3_0 t) (hs3_0 t) (ms3_1 t) (hs3_1 t) (ms3_2 t) (hs3_2 t)
    (fun h => hz ((hcond3_0 t).mp h)) (iblk3 V c 0 t) (iblk3 V c 1 t)
    (outsAt3 V c (t.val - 1) (Nat.lt_of_le_of_lt (Nat.sub_le _ _) t.isLt))

/-- The block's contents depend on the point's number only. -/
private theorem outsAt_congr (c : Dev nD) (u n : Nat) (hu : u < cfg3.N) (hn : n < cfg3.N) (e : u = n) :
    outsAt3 V c u hu = outsAt3 V c n hn := by
  subst e; rfl

/-- THE INVARIANT: after point 17 q + j (j < 17) entry (g, d) of the block holds the sum of the addends of points
    17 q … 17 q + j — by induction on j: the first point leaves 0 + its addend, each later one adds its own. -/
private theorem runningSum (c : Dev nD) (q : Nat) : ∀ (j : Nat) (_ : j < 17) (h : 17 * q + j < cfg3.N) (g d : Fin 128),
    (outsAt3 V c (17 * q + j) h : FVec Ideal S1x128x128 .f32) (ix3 (0 : Fin 1) g d)
      = ∑ s ∈ Finset.range (j + 1), blockSum V c (17 * q + s) g d
  | 0, _, h, g, d => by
    have hz : (⟨17 * q + 0, h⟩ : Fin cfg3.N).val % 17 = 0 := by show (17 * q + 0) % 17 = 0; omega
    refine (congrFun (afterFirst V c ⟨17 * q + 0, h⟩ hz) (ix3 (0 : Fin 1) g d)).trans ?_
    refine (payTwo_apply (nodeBlk V c ⟨17 * q + 0, h⟩) (idBlk V c ⟨17 * q + 0, h⟩) (k3_pay1 (F := Ideal)) g d).trans ?_
    rw [payOne_apply, zero_add, Finset.sum_range_one]
    unfold blockSum
    rw [dif_pos h]
  | j + 1, hj, h, g, d => by
    have hlater : ¬(⟨17 * q + (j + 1), h⟩ : Fin cfg3.N).val % 17 = 0 := by show ¬(17 * q + (j + 1)) % 17 = 0; omega
    refine (congrFun (afterLater V c ⟨17 * q + (j + 1), h⟩ hlater) (ix3 (0 : Fin 1) g d)).trans ?_
    refine (payTwo_apply (nodeBlk V c ⟨17 * q + (j + 1), h⟩) (idBlk V c ⟨17 * q + (j + 1), h⟩)
      (outsAt3 V c ((⟨17 * q + (j + 1), h⟩ : Fin cfg3.N).val - 1)
        (Nat.lt_of_le_of_lt (Nat.sub_le _ _) (⟨17 * q + (j + 1), h⟩ : Fin cfg3.N).isLt)) g d).trans ?_
    rw [Finset.sum_range_succ _ (j + 1)]
    refine congrArg₂ (· + ·) ?_ ?_
    · exact (congrFun (outsAt_congr V c _ (17 * q + j) _ (Nat.lt_of_succ_lt h)
        (by show 17 * q + (j + 1) - 1 = 17 * q + j; omega)) (ix3 (0 : Fin 1) g d)).trans
        (runningSum c q j (Nat.lt_of_succ_lt hj) (Nat.lt_of_succ_lt h) g d)
    · unfold blockSum
      rw [dif_pos h]

/-! ## The whole accumulator is the specification's entry -/

private theorem poolOut_apply (A : FVec Ideal S100096x128 .f32) (bp : IVec S1x100096 32) (q : Fin 2) (g d : Fin 128) :
    poolOut A bp (ix3 q g d)
      = ∑ t : Fin 17, ∑ j : Fin 2944, oneHot g.val (bp (ix2 (0 : Fin 1) (nodeOf q t j))) * A (ix2 (nodeOf q t j) d) := rfl

/-- The seventeen addends of accumulator q add up to the specification's entry: row j of row block (q, i) is node
    (17 q + i) · 2944 + j. -/
private theorem sumBlocks (c : Dev nD) (q : Fin 2) (g d : Fin 128) :
    ∑ s ∈ Finset.range 17, blockSum V c (17 * q.val + s) g d = poolOut (nodeArr V c) (idRow V c) (ix3 q g d) := by
  have hN : cfg3.N = 34 := N_3
  rw [poolOut_apply, Finset.sum_range]
  refine Finset.sum_congr rfl fun i _ => ?_
  have hq := q.isLt
  have hi := i.isLt
  have hlt : 17 * q.val + i.val < cfg3.N := by rw [hN]; omega
  unfold blockSum
  rw [dif_pos hlt]
  refine Finset.sum_congr rfl fun j _ => ?_
  have hj := j.isLt
  have hr : (⟨17 * q.val + i.val, hlt⟩ : Fin cfg3.N).val * 2944 + j.val < 100096 := by
    show (17 * q.val + i.val) * 2944 + j.val < 100096; omega
  have en : (⟨(⟨17 * q.val + i.val, hlt⟩ : Fin cfg3.N).val * 2944 + j.val, hr⟩ : Fin 100096) = nodeOf q i j :=
    Fin.ext (by show (17 * q.val + i.val) * 2944 + j.val = (q.val * 17 + i.val) * 2944 + j.val; omega)
  rw [nodeBlk_apply V c ⟨17 * q.val + i.val, hlt⟩ j d hr, idBlk_apply V c ⟨17 * q.val + i.val, hlt⟩ j hr, en]

/-! ## From the blocks to the array -/

/-- The one write-back of accumulator a, after its last point 17 a + 16, writes block a of the specification. -/
private theorem flushed_eq (c : Dev nD) (t : Fin cfg3.N) (hf : (cfg3.win 2).flush t = true) :
    (dat3 (F := Ideal) V c).flushed 2 t
      = ((cfg3.win 2).blk t).view.read (Elt Ideal) (poolOut (nodeArr V c) (idRow V c)) := by
  have hN : cfg3.N = 34 := N_3
  have hm : t.val % 17 = 16 := (flush3_2 t).mp hf
  have ht := t.isLt
  obtain ⟨-, -, -, -, ea, eb, ec⟩ := idxFacts t
  have hq : t.val / 17 < 2 := by omega
  show (cfg3.win 2).cut (grid3.coords t) ((dat3 (F := Ideal) V c).after 2 t) = _
  rw [after3_2]
  refine funext fun (y : S1x128x128.Idx) => ?_
  obtain ⟨z, g, d, rfl⟩ : ∃ (z : Fin 1) (g d : Fin 128), y = ix3 z g d := ⟨y 0, y 1, y 2, eq_ix3 y⟩
  obtain rfl : z = 0 := Subsingleton.elim _ _
  rw [View.read_apply]
  show (outsAt3 V c t.val t.isLt : FVec Ideal S1x128x128 .f32) (ix3 (0 : Fin 1) g d)
    = poolOut (nodeArr V c) (idRow V c) (((cfg3.win 2).blk t).view.emb (ix3 (0 : Fin 1) g d))
  have hemb : ((cfg3.win 2).blk t).view.emb (ix3 (0 : Fin 1) g d) = ix3 (⟨t.val / 17, hq⟩ : Fin 2) g d := by
    funext a
    apply Fin.ext
    match a with
    | ⟨0, _⟩ => show win3_2.index t (0 : Fin 3) * 1 + 1 * 0 = t.val / 17; rw [ea]; omega
    | ⟨1, _⟩ => show win3_2.index t (1 : Fin 3) * 128 + 1 * g.val = g.val; rw [eb]; omega
    | ⟨2, _⟩ => show win3_2.index t (2 : Fin 3) * 128 + 1 * d.val = d.val; rw [ec]; omega
  rw [hemb, ← sumBlocks V c ⟨t.val / 17, hq⟩ g d]
  have hl : 17 * (t.val / 17) + 16 < cfg3.N := by omega
  exact (congrFun (outsAt_congr V c t.val (17 * (t.val / 17) + 16) t.isLt hl (by omega)) (ix3 (0 : Fin 1) g d)).trans
    (runningSum V c (t.val / 17) 16 (by decide) hl g d)

/-- Every entry of the [2, 128, 128] array lies in the block its accumulator's last point writes back. -/
private theorem covered (i : S2x128x128.Idx) :
    ∃ t : Fin cfg3.N, (cfg3.win 2).flush t = true ∧ i ∈ ((cfg3.win 2).blk t).view.set := by
  have hN : cfg3.N = 34 := N_3
  have hia : (i 0).val < 2 := (i 0).isLt
  have hib : (i 1).val < 128 := (i 1).isLt
  have hic : (i 2).val < 128 := (i 2).isLt
  have hlt : 17 * (i 0).val + 16 < cfg3.N := by rw [hN]; omega
  refine ⟨⟨17 * (i 0).val + 16, hlt⟩, (flush3_2 _).mpr (by show (17 * (i 0).val + 16) % 17 = 16; omega), ?_⟩
  obtain ⟨-, -, -, -, ea, eb, ec⟩ := idxFacts ⟨17 * (i 0).val + 16, hlt⟩
  have ea' : win3_2.index ⟨17 * (i 0).val + 16, hlt⟩ (0 : Fin 3) = (i 0).val := by
    rw [ea]; show (17 * (i 0).val + 16) / 17 = (i 0).val; omega
  show i ∈ ((View.whole (Pipeline.arrRef spec3 2)).slice (win3_2.rect ⟨17 * (i 0).val + 16, hlt⟩)).set
  rw [View.set_slice_whole, Rect.mem_set_unit]
  intro a
  match a with
  | ⟨0, _⟩ =>
    show win3_2.index ⟨17 * (i 0).val + 16, hlt⟩ (0 : Fin 3) * 1 ≤ (i 0).val
      ∧ (i 0).val < win3_2.index ⟨17 * (i 0).val + 16, hlt⟩ (0 : Fin 3) * 1 + 1
    rw [ea']; omega
  | ⟨1, _⟩ =>
    show win3_2.index ⟨17 * (i 0).val + 16, hlt⟩ (1 : Fin 3) * 128 ≤ (i 1).val
      ∧ (i 1).val < win3_2.index ⟨17 * (i 0).val + 16, hlt⟩ (1 : Fin 3) * 128 + 128
    rw [eb]; omega
  | ⟨2, _⟩ =>
    show win3_2.index ⟨17 * (i 0).val + 16, hlt⟩ (2 : Fin 3) * 128 ≤ (i 2).val
      ∧ (i 2).val < win3_2.index ⟨17 * (i 0).val + 16, hlt⟩ (2 : Fin 3) * 128 + 128
    rw [ec]; omega

/-- So the array the region leaves is the specification's one-hot graph sums of the arrays it found. -/
theorem pool_region3 (c : Dev nD) :
    (dat3 (F := Ideal) V c).arrAt 2 cfg3.N = poolOut (V c (Pipeline.arrRef spec3 0)) (V c (Pipeline.arrRef spec3 1)) :=
  (dat3 (F := Ideal) V c).arrAt_eq_of_cover 2 (poolOut (nodeArr V c) (idRow V c))
    (fun t hf => flushed_eq V c t hf) (fun i => covered i)

end Cert.KV

end
-- ==== Proof.PoolRegion5.lean ====
/-
  Region 5 (the one-hot graph sums): the array the 2 × 17 grid points leave is ONE whole-array function of the node
  array and the graph-id row as the region finds them — accumulator c holds, for graph g and feature d, the sum over its
  seventeen row blocks and their 2944 nodes of (is the node in g?) × the node's feature.

  Point t = 17 a + i works on accumulator a and row block i: it reads rows [2944 t, 2944 t + 2944) of the node array and
  the same columns of the graph-id row. At i = 0 the body first stores zeros into output block a, then adds the block's
  one-hot product to what it reads back; at i > 0 it adds the product to what the point before left there. A float is
  an extended real here, where addition is commutative and associative with 0 neutral, so after point 17 a + i the block
  holds the sum over i' ≤ i of the one-hot products of row blocks (a, i'). Block a is written back once, after point
  17 a + 16, when it holds the whole accumulator; the two blocks tile the [2, 128, 128] array.
-/
import proofs.«407808_j56547539419677_2_alg».proof.Proof.Gen.KernelIdeal.Frame
import proofs.«407808_j56547539419677_2_alg».proof.Proof.Spec
import Idealize.ShloMosaic.Lib.Pipeline.Value
import Idealize.ShloMosaic.Lib.ValueIdx
import Idealize.ShloMosaic.PureOps.Ideal.Laws
import Idealize.ShloMosaic.Lib.Tactic
import Mathlib.Algebra.BigOperators.Fin

set_option maxRecDepth 16384

noncomputable section

open scoped BigOperators

namespace Cert.KV

open Idealize.ShloMosaic Idealize.ShloMosaic.TcCoe Idealize.ShloMosaic.ValueIdx Idealize.SL.Sem Cert.KernelIdeal Cert.KernelIdeal.Gen

/-! ## What each control case leaves in the output block, as the body's arithmetic of what it loaded -/

section Pieces
variable {F : FTy → Type} [FloatOps F]

private theorem zeroOffsThree : (![0, 0, 0] : Fin 3 → Nat) = fun _ => 0 := funext fun a => by fin_cases a <;> rfl
private theorem zeroOffsTwo : (![0, 0] : Fin 2 → Nat) = fun _ => 0 := funext fun a => by fin_cases a <;> rfl

/-- The first point of an accumulator: the zero block is stored, read back, and the one-hot product added to it. -/
private theorem pieceA (c : Dev nD) (i : grid5.Coords) (bufN : Memref sig .tc .vmem S2944x128 .f32) (hbN : bufN.IsWhole)
    (bufW : Memref sig .tc .vmem S1x2944 .i32) (hbW : bufW.IsWhole) (bufO : Memref sig .tc .vmem S1x128x128 .f32) (hbO : bufO.IsWhole)
    (hc : cond5_0 i) (xs : Vec F S2944x128 .f32) (ws : Vec F S1x2944 .i32) :
    out5_A_2 c i bufN hbN bufW hbW bufO hbO hc xs ws = k5_pay2 xs ws (k5_pay1 (F := F)) := by
  unfold out5_A_2
  rw [View.read_writes_eq_canon _ _ _ (cover5_A_2 c i bufN hbN bufW hbW bufO hbO hc xs ws)]
  unfold kernelRun5_A
  dsimp only
  sl_unfold_words
  rw [View.canon_cons_unit_zero (S := S1x128x128) zeroOffsThree, View.readCov_unit_zero (S := S1x128x128) _ zeroOffsThree]
  simp only [View.readAt_eq_ld, hbN.read_unread, hbW.read_unread, View.ld_unit_zero (S := S2944x128) zeroOffsTwo, View.ld_unit_zero (S := S1x2944) zeroOffsTwo]

/-- Every later point: the one-hot product is added to what the block held. -/
private theorem pieceB (c : Dev nD) (i : grid5.Coords) (bufN : Memref sig .tc .vmem S2944x128 .f32) (hbN : bufN.IsWhole)
    (bufW : Memref sig .tc .vmem S1x2944 .i32) (hbW : bufW.IsWhole) (bufO : Memref sig .tc .vmem S1x128x128 .f32) (hbO : bufO.IsWhole)
    (hc : ¬cond5_0 i) (xs : Vec F S2944x128 .f32) (ws : Vec F S1x2944 .i32) (xo : Vec F S1x128x128 .f32) :
    out5_B_2 c i bufN hbN bufW hbW bufO hbO hc xs ws xo = k5_pay2 xs ws xo := by
  unfold out5_B_2
  rw [View.read_writes_eq_canon _ _ _ (cover5_B_2 c i bufN hbN bufW hbW bufO hbO hc xs ws xo)]
  unfold kernelRun5_B
  dsimp only
  rw [View.canon_unit_zero zeroOffsThree]
  simp only [View.readAt_eq_ld, hbN.read_unread, hbW.read_unread, hbO.read_unread, View.ld_unit_zero (S := S2944x128) zeroOffsTwo, View.ld_unit_zero (S := S1x2944) zeroOffsTwo, View.ld_unit_zero (S := S1x128x128) zeroOffsThree]

end Pieces

/-! ## The body's arithmetic at one entry (g, d) of the block -/

/-- The product's operand indices at output entry i and contraction index q: (i₀, q) on the left, … -/
private theorem lhsAxisZero (i : S128x128.Idx) (q : dot_S128x2944_S2944x128_S128x128_1_0_0_1_n_n.contr.Idx) :
    (dot_S128x2944_S2944x128_S128x128_1_0_0_1_n_n.lhsIdx i q 0).val = (i 0).val := by
  unfold DotDims.lhsIdx
  rw [dif_neg (show ¬(0 : Fin S128x2944.rank) ∈ dot_S128x2944_S2944x128_S128x128_1_0_0_1_n_n.lhsBatch by decide), dif_pos (show (0 : Fin S128x2944.rank) ∈ dot_S128x2944_S2944x128_S128x128_1_0_0_1_n_n.lhsNonContracting by decide)]
  rfl
private theorem lhsAxisOne (i : S128x128.Idx) (q : dot_S128x2944_S2944x128_S128x128_1_0_0_1_n_n.contr.Idx) :
    (dot_S128x2944_S2944x128_S128x128_1_0_0_1_n_n.lhsIdx i q 1).val = (q ⟨0, by decide⟩).val :=
  dot_S128x2944_S2944x128_S128x128_1_0_0_1_n_n.lhsIdx_val_of_single rfl i q
/-- … and (q, i₁) on the right. -/
private theorem rhsAxisZero (i : S128x128.Idx) (q : dot_S128x2944_S2944x128_S128x128_1_0_0_1_n_n.contr.Idx) :
    (dot_S128x2944_S2944x128_S128x128_1_0_0_1_n_n.rhsIdx i q 0).val = (q ⟨0, by decide⟩).val :=
  dot_S128x2944_S2944x128_S128x128_1_0_0_1_n_n.rhsIdx_val_of_single rfl i q
private theorem rhsAxisOne (i : S128x128.Idx) (q : dot_S128x2944_S2944x128_S128x128_1_0_0_1_n_n.contr.Idx) :
    (dot_S128x2944_S2944x128_S128x128_1_0_0_1_n_n.rhsIdx i q 1).val = (i 1).val := by
  unfold DotDims.rhsIdx
  rw [dif_neg (show ¬(1 : Fin S2944x128.rank) ∈ dot_S128x2944_S2944x128_S128x128_1_0_0_1_n_n.rhsBatch by decide), dif_pos (show (1 : Fin S2944x128.rank) ∈ dot_S128x2944_S2944x128_S128x128_1_0_0_1_n_n.rhsNonContracting by decide)]
  rfl

/-- The comparison bit, widened and converted to a float, is the one-hot entry: 1 where the row number is the word, else 0. -/
private theorem oneHot_of_word (g : Nat) (w : BitVec 32) :
    (FloatOps.sitofp (F := Ideal) .f32 ((IntOp.cmpi .eq (BitVec.ofNat 32 g) w).setWidth 32) : EReal) = oneHot g w := by
  unfold oneHot IntOp.cmpi
  by_cases h : BitVec.ofNat 32 g = w
  · rw [if_pos h]
    have hb : (BitVec.ofNat 32 g == w) = true := by simpa using h
    rw [hb]
    show (((BitVec.setWidth 32 (BitVec.ofBool true)).toInt : ℝ) : EReal) = 1
    rw [show (BitVec.setWidth 32 (BitVec.ofBool true)).toInt = 1 from by decide]
    simp
  · rw [if_neg h]
    have hb : (BitVec.ofNat 32 g == w) = false := by simpa using h
    rw [hb]
    show (((BitVec.setWidth 32 (BitVec.ofBool false)).toInt : ℝ) : EReal) = 0
    rw [show (BitVec.setWidth 32 (BitVec.ofBool false)).toInt = 0 from by decide]
    simp

/-- The one-hot operand of the product: row g, column j is 1 where graph-id word j is g, else 0 (a change of float
    format is the identity on extended reals). -/
private def hotBlock (w : IVec S1x2944 32) : FVec Ideal S128x2944 .bf16 :=
  truncf .bf16 (sitofp .f32 (extui 32 (cmpi .eq
    (broadcastTo S128x2944 (iota .tc S128x1 32 [0] iota_S128x1_d0_w32) broadcasts_S128x1_S128x2944)
    (broadcastTo S128x2944 (shapeCast S1x2944 w shapeCasts_S1x2944_S1x2944) broadcasts_S1x2944_S128x2944)) natLt_1_32)) bitsLt_bf16_f32

private theorem hotBlock_apply (w : IVec S1x2944 32) (g : Fin 128) (j : Fin 2944) :
    hotBlock w (ix2 g j) = oneHot g.val (w (ix2 (0 : Fin 1) j)) := by
  unfold hotBlock
  rw [shapeCast_self]
  show FloatOps.sitofp (F := Ideal) .f32 ((IntOp.cmpi .eq
      (broadcastTo S128x2944 (iota .tc S128x1 32 [0] iota_S128x1_d0_w32) broadcasts_S128x1_S128x2944 (ix2 g j))
      (broadcastTo S128x2944 w broadcasts_S1x2944_S128x2944 (ix2 g j))).setWidth 32) = _
  rw [broadcastTo_apply (iota .tc S128x1 32 [0] iota_S128x1_d0_w32) broadcasts_S128x1_S128x2944 (ix2 g j) (ix2 g (0 : Fin 1))
        (fun a => match a with
          | ⟨0, _⟩ => by show g.val = if (128 : Nat) = 1 then 0 else g.val; rw [if_neg (by decide)]
          | ⟨1, _⟩ => by show (0 : Nat) = if (1 : Nat) = 1 then 0 else j.val; rw [if_pos rfl]),
    broadcastTo_apply w broadcasts_S1x2944_S128x2944 (ix2 g j) (ix2 (0 : Fin 1) j)
        (fun a => match a with
          | ⟨0, _⟩ => by show (0 : Nat) = if (1 : Nat) = 1 then 0 else g.val; rw [if_pos rfl]
          | ⟨1, _⟩ => by show j.val = if (2944 : Nat) = 1 then 0 else j.val; rw [if_neg (by decide)]),
    iota_single_apply]
  exact oneHot_of_word g.val (w (ix2 (0 : Fin 1) j))

/-- The second store's payload: the block read back plus the product of the one-hot operand with the node block. -/
private theorem payTwo_eq (xs : Vec Ideal S2944x128 .f32) (ws : Vec Ideal S1x2944 .i32) (acc : Vec Ideal S1x128x128 .f32) :
    k5_pay2 (F := Ideal) xs ws acc
      = shapeCast S1x128x128 (addf (shapeCast S128x128 acc shapeCasts_S1x128x128_S128x128)
          (matmul dot_S128x2944_S2944x128_S128x128_1_0_0_1_n_n none (hotBlock ws)
            (truncf .bf16 (shapeCast S2944x128 xs shapeCasts_S2944x128_S2944x128) bitsLt_bf16_f32)
            (constant (F := Ideal) S128x128 .f32 0x00000000#32))) shapeCasts_S128x128_S1x128x128 := rfl

/-- At entry (g, d): what the block held there plus the sum over the block's 2944 nodes of (is node j in graph g?) ×
    feature d of node j. -/
private theorem payTwo_apply (xs : Vec Ideal S2944x128 .f32) (ws : Vec Ideal S1x2944 .i32) (acc : Vec Ideal S1x128x128 .f32)
    (g d : Fin 128) :
    k5_pay2 (F := Ideal) xs ws acc (ix3 (0 : Fin 1) g d)
      = acc (ix3 (0 : Fin 1) g d) + ∑ j : Fin 2944, oneHot g.val (ws (ix2 (0 : Fin 1) j)) * xs (ix2 j d) := by
  rw [payTwo_eq]
  refine (shapeCast_apply _ shapeCasts_S128x128_S1x128x128 (ix3 (0 : Fin 1) g d) (ix2 g d) ?_).trans ?_
  · rw [Shape.rowMajor_val_two, Shape.rowMajor_val_three]
    show g.val * 128 + d.val = ((0 * 128 + g.val) * 128 + d.val)
    omega
  refine (addf_apply _ _ (ix2 g d)).trans ?_
  refine congrArg₂ (· + ·) ?_ ?_
  · refine shapeCast_apply acc shapeCasts_S1x128x128_S128x128 (ix2 g d) (ix3 (0 : Fin 1) g d) ?_
    rw [Shape.rowMajor_val_two, Shape.rowMajor_val_three]
    show ((0 * 128 + g.val) * 128 + d.val) = g.val * 128 + d.val
    omega
  · refine (Ideal.matmul_constant_zero_apply dot_S128x2944_S2944x128_S128x128_1_0_0_1_n_n none _ _ (ix2 g d)).trans ?_
    rw [← Equiv.sum_comp (contrEquiv1 dot_S128x2944_S2944x128_S128x128_1_0_0_1_n_n 2944 rfl rfl).symm]
    refine Finset.sum_congr rfl fun k _ => ?_
    have hk := contrEquiv1_symm_val dot_S128x2944_S2944x128_S128x128_1_0_0_1_n_n 2944 rfl rfl k
    have el : dot_S128x2944_S2944x128_S128x128_1_0_0_1_n_n.lhsIdx (ix2 g d) ((contrEquiv1 dot_S128x2944_S2944x128_S128x128_1_0_0_1_n_n 2944 rfl rfl).symm k) = ix2 g k := funext fun a => Fin.ext (by
      match a with
      | ⟨0, _⟩ => exact lhsAxisZero _ _
      | ⟨1, _⟩ => exact (lhsAxisOne _ _).trans hk)
    have er : dot_S128x2944_S2944x128_S128x128_1_0_0_1_n_n.rhsIdx (ix2 g d) ((contrEquiv1 dot_S128x2944_S2944x128_S128x128_1_0_0_1_n_n 2944 rfl rfl).symm k) = ix2 k d := funext fun a => Fin.ext (by
      match a with
      | ⟨0, _⟩ => exact (rhsAxisZero _ _).trans hk
      | ⟨1, _⟩ => exact rhsAxisOne _ _)
    rw [el, er, hotBlock_apply, shapeCast_self]
    rfl

/-- The first store's payload is zero everywhere. -/
private theorem payOne_apply (i : S1x128x128.Idx) : k5_pay1 (F := Ideal) i = 0 := by
  unfold k5_pay1
  show Ideal.ofBits .f32 0x00000000#32 = 0
  exact Ideal.ofBits_zero_f32

/-! ## The windows' blocks, read off the arrays -/

variable (V : (c : Dev nD) → (b : Ref sig .tc) → Buf (Elt Ideal) ((c : Thread nD τ).loc b))

/-- The node array and the graph-id row as the region finds them, and their blocks at a point. -/
private abbrev nodeArr (c : Dev nD) : FVec Ideal S100096x128 .f32 := V c (Pipeline.arrRef spec5 0)
private abbrev idRow (c : Dev nD) : IVec S1x100096 32 := V c (Pipeline.arrRef spec5 1)
private abbrev nodeBlk (c : Dev nD) (t : Fin cfg5.N) : FVec Ideal S2944x128 .f32 := iblk5 V c 0 t
private abbrev idBlk (c : Dev nD) (t : Fin cfg5.N) : IVec S1x2944 32 := iblk5 V c 1 t

/-- The index maps, decided over the 34 points: at point t the node window is at row block t, the graph-id window at
    column block t, the output window at block t / 17. -/
private theorem idxFacts : ∀ t : Fin cfg5.N,
    win5_0.index t (0 : Fin 2) = t.val ∧ win5_0.index t (1 : Fin 2) = 0
    ∧ win5_1.index t (0 : Fin 2) = 0 ∧ win5_1.index t (1 : Fin 2) = t.val
    ∧ win5_2.index t (0 : Fin 3) = t.val / 17 ∧ win5_2.index t (1 : Fin 3) = 0 ∧ win5_2.index t (2 : Fin 3) = 0 :=
  (by decide +kernel : ∀ t : Fin grid5.N, _)

/-- Row j of the node block at point t is row 2944 t + j of the node array. -/
private theorem nodeBlk_apply (c : Dev nD) (t : Fin cfg5.N) (j : Fin 2944) (d : Fin 128) (h : t.val * 2944 + j.val < 100096) :
    nodeBlk V c t (ix2 j d) = nodeArr V c (ix2 (⟨t.val * 2944 + j.val, h⟩ : Fin 100096) d) := by
  obtain ⟨ea, eb, -⟩ := idxFacts t
  show ((cfg5.win 0).blk t).view.read (Elt Ideal) (V c (Pipeline.arrRef spec5 0)) (ix2 j d) = _
  rw [View.read_apply]
  show V c (Pipeline.arrRef spec5 0) (((cfg5.win 0).blk t).view.emb (ix2 j d)) = V c (Pipeline.arrRef spec5 0) (ix2 (⟨t.val * 2944 + j.val, h⟩ : Fin 100096) d)
  congr 1
  funext a
  apply Fin.ext
  match a with
  | ⟨0, _⟩ => show win5_0.index t (0 : Fin 2) * 2944 + 1 * j.val = t.val * 2944 + j.val; rw [ea]; omega
  | ⟨1, _⟩ => show win5_0.index t (1 : Fin 2) * 128 + 1 * d.val = d.val; rw [eb]; omega

/-- Column j of the graph-id block at point t is column 2944 t + j of the graph-id row. -/
private theorem idBlk_apply (c : Dev nD) (t : Fin cfg5.N) (j : Fin 2944) (h : t.val * 2944 + j.val < 100096) :
    idBlk V c t (ix2 (0 : Fin 1) j) = idRow V c (ix2 (0 : Fin 1) (⟨t.val * 2944 + j.val, h⟩ : Fin 100096)) := by
  obtain ⟨-, -, ea, eb, -⟩ := idxFacts t
  show ((cfg5.win 1).blk t).view.read (Elt Ideal) (V c (Pipeline.arrRef spec5 1)) (ix2 (0 : Fin 1) j) = _
  rw [View.read_apply]
  show V c (Pipeline.arrRef spec5 1) (((cfg5.win 1).blk t).view.emb (ix2 (0 : Fin 1) j)) = V c (Pipeline.arrRef spec5 1) (ix2 (0 : Fin 1) (⟨t.val * 2944 + j.val, h⟩ : Fin 100096))
  congr 1
  funext a
  apply Fin.ext
  match a with
  | ⟨0, _⟩ => show win5_1.index t (0 : Fin 2) * 1 + 1 * 0 = 0; rw [ea]
  | ⟨1, _⟩ => show win5_1.index t (1 : Fin 2) * 2944 + 1 * j.val = t.val * 2944 + j.val; rw [eb]; omega

/-! ## The running sum over the points of one accumulator -/

/-- Point n's addend at entry (g, d): the one-hot product of its two blocks there (0 past the grid, never used). -/
private def blockSum (c : Dev nD) (n : Nat) (g d : Fin 128) : EReal :=
  if h : n < cfg5.N then
    ∑ j : Fin 2944, oneHot g.val (idBlk V c ⟨n, h⟩ (ix2 (0 : Fin 1) j)) * nodeBlk V c ⟨n, h⟩ (ix2 j d)
  else 0

/-- What the output block holds after a first point of an accumulator … -/
private theorem afterFirst (c : Dev nD) (t : Fin cfg5.N) (hz : t.val % 17 = 0) :
    outsAt5 V c t.val t.isLt = k5_pay2 (F := Ideal) (nodeBlk V c t) (idBlk V c t) (k5_pay1 (F := Ideal)) := by
  rw [outsAt5_A V c t hz]
  exact pieceA (F := Ideal) c (grid5.coords t) (ms5_0 t) (hs5_0 t) (ms5_1 t) (hs5_1 t) (ms5_2 t) (hs5_2 t)
    ((hcond5_0 t).mpr hz) (iblk5 V c 0 t) (iblk5 V c 1 t)

/-- … and after a later one, over what the point before left. -/
private theorem afterLater (c : Dev nD) (t : Fin cfg5.N) (hz : ¬t.val % 17 = 0) :
    outsAt5 V c t.val t.isLt = k5_pay2 (F := Ideal) (nodeBlk V c t) (idBlk V c t)
      (outsAt5 V c (t.val - 1) (Nat.lt_of_le_of_lt (Nat.sub_le _ _) t.isLt)) := by
  rw [outsAt5_B V c t hz]
  exact pieceB (F := Ideal) c (grid5.coords t) (ms5_0 t) (hs5_0 t) (ms5_1 t) (hs5_1 t) (ms5_2 t) (hs5_2 t)
    (fun h => hz ((hcond5_0 t).mp h)) (iblk5 V c 0 t) (iblk5 V c 1 t)
    (outsAt5 V c (t.val - 1) (Nat.lt_of_le_of_lt (Nat.sub_le _ _) t.isLt))

/-- The block's contents depend on the point's number only. -/
private theorem outsAt_congr (c : Dev nD) (u n : Nat) (hu : u < cfg5.N) (hn : n < cfg5.N) (e : u = n) :
    outsAt5 V c u hu = outsAt5 V c n hn := by
  subst e; rfl

/-- THE INVARIANT: after point 17 q + j (j < 17) entry (g, d) of the block holds the sum of the addends of points
    17 q … 17 q + j — by induction on j: the first point leaves 0 + its addend, each later one adds its own. -/
private theorem runningSum (c : Dev nD) (q : Nat) : ∀ (j : Nat) (_ : j < 17) (h : 17 * q + j < cfg5.N) (g d : Fin 128),
    (outsAt5 V c (17 * q + j) h : FVec Ideal S1x128x128 .f32) (ix3 (0 : Fin 1) g d)
      = ∑ s ∈ Finset.range (j + 1), blockSum V c (17 * q + s) g d
  | 0, _, h, g, d => by
    have hz : (⟨17 * q + 0, h⟩ : Fin cfg5.N).val % 17 = 0 := by show (17 * q + 0) % 17 = 0; omega
    refine (congrFun (afterFirst V c ⟨17 * q + 0, h⟩ hz) (ix3 (0 : Fin 1) g d)).trans ?_
    refine (payTwo_apply (nodeBlk V c ⟨17 * q + 0, h⟩) (idBlk V c ⟨17 * q + 0, h⟩) (k5_pay1 (F := Ideal)) g d).trans ?_
    rw [payOne_apply, zero_add, Finset.sum_range_one]
    unfold blockSum
    rw [dif_pos h]
  | j + 1, hj, h, g, d => by
    have hlater : ¬(⟨17 * q + (j + 1), h⟩ : Fin cfg5.N).val % 17 = 0 := by show ¬(17 * q + (j + 1)) % 17 = 0; omega
    refine (congrFun (afterLater V c ⟨17 * q + (j + 1), h⟩ hlater) (ix3 (0 : Fin 1) g d)).trans ?_
    refine (payTwo_apply (nodeBlk V c ⟨17 * q + (j + 1), h⟩) (idBlk V c ⟨17 * q + (j + 1), h⟩)
      (outsAt5 V c ((⟨17 * q + (j + 1), h⟩ : Fin cfg5.N).val - 1)
        (Nat.lt_of_le_of_lt (Nat.sub_le _ _) (⟨17 * q + (j + 1), h⟩ : Fin cfg5.N).isLt)) g d).trans ?_
    rw [Finset.sum_range_succ _ (j + 1)]
    refine congrArg₂ (· + ·) ?_ ?_
    · exact (congrFun (outsAt_congr V c _ (17 * q + j) _ (Nat.lt_of_succ_lt h)
        (by show 17 * q + (j + 1) - 1 = 17 * q + j; omega)) (ix3 (0 : Fin 1) g d)).trans
        (runningSum c q j (Nat.lt_of_succ_lt hj) (Nat.lt_of_succ_lt h) g d)
    · unfold blockSum
      rw [dif_pos h]

/-! ## The whole accumulator is the specification's entry -/

private theorem poolOut_apply (A : FVec Ideal S100096x128 .f32) (bp : IVec S1x100096 32) (q : Fin 2) (g d : Fin 128) :
    poolOut A bp (ix3 q g d)
      = ∑ t : Fin 17, ∑ j : Fin 2944, oneHot g.val (bp (ix2 (0 : Fin 1) (nodeOf q t j))) * A (ix2 (nodeOf q t j) d) := rfl

/-- The seventeen addends of accumulator q add up to the specification's entry: row j of row block (q, i) is node
    (17 q + i) · 2944 + j. -/
private theorem sumBlocks (c : Dev nD) (q : Fin 2) (g d : Fin 128) :
    ∑ s ∈ Finset.range 17, blockSum V c (17 * q.val + s) g d = poolOut (nodeArr V c) (idRow V c) (ix3 q g d) := by
  have hN : cfg5.N = 34 := N_5
  rw [poolOut_apply, Finset.sum_range]
  refine Finset.sum_congr rfl fun i _ => ?_
  have hq := q.isLt
  have hi := i.isLt
  have hlt : 17 * q.val + i.val < cfg5.N := by rw [hN]; omega
  unfold blockSum
  rw [dif_pos hlt]
  refine Finset.sum_congr rfl fun j _ => ?_
  have hj := j.isLt
  have hr : (⟨17 * q.val + i.val, hlt⟩ : Fin cfg5.N).val * 2944 + j.val < 100096 := by
    show (17 * q.val + i.val) * 2944 + j.val < 100096; omega
  have en : (⟨(⟨17 * q.val + i.val, hlt⟩ : Fin cfg5.N).val * 2944 + j.val, hr⟩ : Fin 100096) = nodeOf q i j :=
    Fin.ext (by show (17 * q.val + i.val) * 2944 + j.val = (q.val * 17 + i.val) * 2944 + j.val; omega)
  rw [nodeBlk_apply V c ⟨17 * q.val + i.val, hlt⟩ j d hr, idBlk_apply V c ⟨17 * q.val + i.val, hlt⟩ j hr, en]

/-! ## From the blocks to the array -/

/-- The one write-back of accumulator a, after its last point 17 a + 16, writes block a of the specification. -/
private theorem flushed_eq (c : Dev nD) (t : Fin cfg5.N) (hf : (cfg5.win 2).flush t = true) :
    (dat5 (F := Ideal) V c).flushed 2 t
      = ((cfg5.win 2).blk t).view.read (Elt Ideal) (poolOut (nodeArr V c) (idRow V c)) := by
  have hN : cfg5.N = 34 := N_5
  have hm : t.val % 17 = 16 := (flush5_2 t).mp hf
  have ht := t.isLt
  obtain ⟨-, -, -, -, ea, eb, ec⟩ := idxFacts t
  have hq : t.val / 17 < 2 := by omega
  show (cfg5.win 2).cut (grid5.coords t) ((dat5 (F := Ideal) V c).after 2 t) = _
  rw [after5_2]
  refine funext fun (y : S1x128x128.Idx) => ?_
  obtain ⟨z, g, d, rfl⟩ : ∃ (z : Fin 1) (g d : Fin 128), y = ix3 z g d := ⟨y 0, y 1, y 2, eq_ix3 y⟩
  obtain rfl : z = 0 := Subsingleton.elim _ _
  rw [View.read_apply]
  show (outsAt5 V c t.val t.isLt : FVec Ideal S1x128x128 .f32) (ix3 (0 : Fin 1) g d)
    = poolOut (nodeArr V c) (idRow V c) (((cfg5.win 2).blk t).view.emb (ix3 (0 : Fin 1) g d))
  have hemb : ((cfg5.win 2).blk t).view.emb (ix3 (0 : Fin 1) g d) = ix3 (⟨t.val / 17, hq⟩ : Fin 2) g d := by
    funext a
    apply Fin.ext
    match a with
    | ⟨0, _⟩ => show win5_2.index t (0 : Fin 3) * 1 + 1 * 0 = t.val / 17; rw [ea]; omega
    | ⟨1, _⟩ => show win5_2.index t (1 : Fin 3) * 128 + 1 * g.val = g.val; rw [eb]; omega
    | ⟨2, _⟩ => show win5_2.index t (2 : Fin 3) * 128 + 1 * d.val = d.val; rw [ec]; omega
  rw [hemb, ← sumBlocks V c ⟨t.val / 17, hq⟩ g d]
  have hl : 17 * (t.val / 17) + 16 < cfg5.N := by omega
  exact (congrFun (outsAt_congr V c t.val (17 * (t.val / 17) + 16) t.isLt hl (by omega)) (ix3 (0 : Fin 1) g d)).trans
    (runningSum V c (t.val / 17) 16 (by decide) hl g d)

/-- Every entry of the [2, 128, 128] array lies in the block its accumulator's last point writes back. -/
private theorem covered (i : S2x128x128.Idx) :
    ∃ t : Fin cfg5.N, (cfg5.win 2).flush t = true ∧ i ∈ ((cfg5.win 2).blk t).view.set := by
  have hN : cfg5.N = 34 := N_5
  have hia : (i 0).val < 2 := (i 0).isLt
  have hib : (i 1).val < 128 := (i 1).isLt
  have hic : (i 2).val < 128 := (i 2).isLt
  have hlt : 17 * (i 0).val + 16 < cfg5.N := by rw [hN]; omega
  refine ⟨⟨17 * (i 0).val + 16, hlt⟩, (flush5_2 _).mpr (by show (17 * (i 0).val + 16) % 17 = 16; omega), ?_⟩
  obtain ⟨-, -, -, -, ea, eb, ec⟩ := idxFacts ⟨17 * (i 0).val + 16, hlt⟩
  have ea' : win5_2.index ⟨17 * (i 0).val + 16, hlt⟩ (0 : Fin 3) = (i 0).val := by
    rw [ea]; show (17 * (i 0).val + 16) / 17 = (i 0).val; omega
  show i ∈ ((View.whole (Pipeline.arrRef spec5 2)).slice (win5_2.rect ⟨17 * (i 0).val + 16, hlt⟩)).set
  rw [View.set_slice_whole, Rect.mem_set_unit]
  intro a
  match a with
  | ⟨0, _⟩ =>
    show win5_2.index ⟨17 * (i 0).val + 16, hlt⟩ (0 : Fin 3) * 1 ≤ (i 0).val
      ∧ (i 0).val < win5_2.index ⟨17 * (i 0).val + 16, hlt⟩ (0 : Fin 3) * 1 + 1
    rw [ea']; omega
  | ⟨1, _⟩ =>
    show win5_2.index ⟨17 * (i 0).val + 16, hlt⟩ (1 : Fin 3) * 128 ≤ (i 1).val
      ∧ (i 1).val < win5_2.index ⟨17 * (i 0).val + 16, hlt⟩ (1 : Fin 3) * 128 + 128
    rw [eb]; omega
  | ⟨2, _⟩ =>
    show win5_2.index ⟨17 * (i 0).val + 16, hlt⟩ (2 : Fin 3) * 128 ≤ (i 2).val
      ∧ (i 2).val < win5_2.index ⟨17 * (i 0).val + 16, hlt⟩ (2 : Fin 3) * 128 + 128
    rw [ec]; omega

/-- So the array the region leaves is the specification's one-hot graph sums of the arrays it found. -/
theorem pool_region5 (c : Dev nD) :
    (dat5 (F := Ideal) V c).arrAt 2 cfg5.N = poolOut (V c (Pipeline.arrRef spec5 0)) (V c (Pipeline.arrRef spec5 1)) :=
  (dat5 (F := Ideal) V c).arrAt_eq_of_cover 2 (poolOut (nodeArr V c) (idRow V c))
    (fun t hf => flushed_eq V c t hf) (fun i => covered i)

end Cert.KV

end
-- ==== Proof.BoundaryKeep.lean ====
/-
  A buffer no operation writes between two segment boundaries holds the same contents at both: a host stretch that does
  not write it leaves it alone, a kernel region leaves every buffer that is none of its arrays alone, and an INPUT
  array of a region is handed back as it was found.  The walks below step one boundary at a time.
-/
import proofs.«407808_j56547539419677_2_alg».proof.Proof.Gen.KernelIdeal.Frame

set_option maxRecDepth 16384

noncomputable section

namespace Cert.KV

open Idealize.ShloMosaic Idealize.ShloMosaic.TcCoe Idealize.SL.Sem Cert.KernelIdeal Cert.KernelIdeal.Gen

/-- One host stretch, none of whose operations writes the buffer: the contents after it are the contents before. -/
macro "keep_host " ops:ident : tactic => `(tactic|
  exact Idealize.ShloMosaic.StableHlo.after_of_forall_not_mem _ _ (List.forall_iff_forall_mem.mp (by
    simp only [$ops:ident, List.flatten_cons, List.flatten_nil, List.append_nil, List.cons_append,
      List.nil_append, List.Forall, Idealize.ShloMosaic.StableHlo.nullary_writes, Idealize.ShloMosaic.StableHlo.unary_writes, Idealize.ShloMosaic.StableHlo.binary_writes, Idealize.ShloMosaic.StableHlo.ternary_writes, Idealize.ShloMosaic.StableHlo.quaternary_writes, Idealize.ShloMosaic.StableHlo.reshape_writes, Idealize.ShloMosaic.StableHlo.binaryIndexed_writes, Finset.mem_singleton]
    repeat' apply And.intro
    all_goals exact Idealize.ShloMosaic.StableHlo.devRef_ne_of_ne (by decide))))

variable {F : FTy → Type} [FloatOps F] (m : (ℓ : Loc nD τ sig) → Buf (Elt F) ℓ) (ρ : Dev nD → PrngReg)

theorem keep_v3_9 (c : Dev nD) : W9 m ρ c (Proc.devRef .tc main_v3) = W8 m ρ c (Proc.devRef .tc main_v3) :=
  calc W9 m ρ c (Proc.devRef .tc main_v3)
    _ = W8 m ρ c (Proc.devRef .tc main_v3) := W9_of_ne m ρ c main_v3 (by decide)

theorem keep_v3_14 (c : Dev nD) : W14 m ρ c (Proc.devRef .tc main_v3) = W8 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := by keep_host hostOps2
    _ = W11 m ρ c (Proc.devRef .tc main_v3) := W12_of_ne m ρ c main_v3 (by decide)
    _ = W10 m ρ c (Proc.devRef .tc main_v3) := by keep_host hostOps1_1
    _ = W9 m ρ c (Proc.devRef .tc main_v3) := by keep_host hostOps1
    _ = W8 m ρ c (Proc.devRef .tc main_v3) := W9_of_ne m ρ c main_v3 (by decide)

theorem keep_v3_19 (c : Dev nD) : W19 m ρ c (Proc.devRef .tc main_v3) = W8 m ρ c (Proc.devRef .tc main_v3) :=
  calc W19 m ρ c (Proc.devRef .tc main_v3)
    _ = W18 m ρ c (Proc.devRef .tc main_v3) := W19_of_ne m ρ c main_v3 (by decide)
    _ = W17 m ρ c (Proc.devRef .tc main_v3) := by keep_host hostOps4
    _ = W16 m ρ c (Proc.devRef .tc main_v3) := W17_of_ne m ρ c main_v3 (by decide)
    _ = W15 m ρ c (Proc.devRef .tc main_v3) := by keep_host hostOps3_1
    _ = W14 m ρ c (Proc.devRef .tc main_v3) := by keep_host hostOps3
    _ = W13 m ρ c (Proc.devRef .tc main_v3) := W14_of_ne m ρ c main_v3 (by decide)
    _ = W12 m ρ c (Proc.devRef .tc main_v3) := by keep_host hostOps2
    _ = W11 m ρ c (Proc.devRef .tc main_v3) := W12_of_ne m ρ c main_v3 (by decide)
    _ = W10 m ρ c (Proc.devRef .tc main_v3) := by keep_host hostOps1_1
    _ = W9 m ρ c (Proc.devRef .tc main_v3) := by keep_host hostOps1
    _ = W8 m ρ c (Proc.devRef .tc main_v3) := W9_of_ne m ρ c main_v3 (by decide)

theorem keep_v7_9 (c : Dev nD) : W9 m ρ c (Proc.devRef .tc main_v7) = W8 m ρ c (Proc.devRef .tc main_v7) :=
  calc W9 m ρ c (Proc.devRef .tc main_v7)
    _ = W8 m ρ c (Proc.devRef .tc main_v7) := W9_of_ne m ρ c main_v7 (by decide)

theorem keep_v7_14 (c : Dev nD) : W14 m ρ c (Proc.devRef .tc main_v7) = W8 m ρ c (Proc.devRef .tc main_v7) :=
  calc W14 m ρ c (Proc.devRef .tc main_v7)
    _ = W13 m ρ c (Proc.devRef .tc main_v7) := W14_of_ne m ρ c main_v7 (by decide)
    _ = W12 m ρ c (Proc.devRef .tc main_v7) := by keep_host hostOps2
    _ = W11 m ρ c (Proc.devRef .tc main_v7) := W12_of_ne m ρ c main_v7 (by decide)
    _ = W10 m ρ c (Proc.devRef .tc main_v7) := by keep_host hostOps1_1
    _ = W9 m ρ c (Proc.devRef .tc main_v7) := by keep_host hostOps1
    _ = W8 m ρ c (Proc.devRef .tc main_v7) := W9_of_ne m ρ c main_v7 (by decide)

theorem keep_v7_19 (c : Dev nD) : W19 m ρ c (Proc.devRef .tc main_v7) = W8 m ρ c (Proc.devRef .tc main_v7) :=
  calc W19 m ρ c (Proc.devRef .tc main_v7)
    _ = W18 m ρ c (Proc.devRef .tc main_v7) := W19_of_ne m ρ c main_v7 (by decide)
    _ = W17 m ρ c (Proc.devRef .tc main_v7) := by keep_host hostOps4
    _ = W16 m ρ c (Proc.devRef .tc main_v7) := W17_of_ne m ρ c main_v7 (by decide)
    _ = W15 m ρ c (Proc.devRef .tc main_v7) := by keep_host hostOps3_1
    _ = W14 m ρ c (Proc.devRef .tc main_v7) := by keep_host hostOps3
    _ = W13 m ρ c (Proc.devRef .tc main_v7) := W14_of_ne m ρ c main_v7 (by decide)
    _ = W12 m ρ c (Proc.devRef .tc main_v7) := by keep_host hostOps2
    _ = W11 m ρ c (Proc.devRef .tc main_v7) := W12_of_ne m ρ c main_v7 (by decide)
    _ = W10 m ρ c (Proc.devRef .tc main_v7) := by keep_host hostOps1_1
    _ = W9 m ρ c (Proc.devRef .tc main_v7) := by keep_host hostOps1
    _ = W8 m ρ c (Proc.devRef .tc main_v7) := W9_of_ne m ρ c main_v7 (by decide)

theorem keep_v32_9 (c : Dev nD) : W9 m ρ c (Proc.devRef .tc main_v32) = W8 m ρ c (Proc.devRef .tc main_v32) :=
  calc W9 m ρ c (Proc.devRef .tc main_v32)
    _ = W8 m ρ c (Proc.devRef .tc main_v32) := W9_of_ne m ρ c main_v32 (by decide)

theorem keep_v32_14 (c : Dev nD) : W14 m ρ c (Proc.devRef .tc main_v32) = W8 m ρ c (Proc.devRef .tc main_v32) :=
  calc W14 m ρ c (Proc.devRef .tc main_v32)
    _ = W13 m ρ c (Proc.devRef .tc main_v32) := W14_of_ne m ρ c main_v32 (by decide)
    _ = W12 m ρ c (Proc.devRef .tc main_v32) := by keep_host hostOps2
    _ = W11 m ρ c (Proc.devRef .tc main_v32) := W12_of_ne m ρ c main_v32 (by decide)
    _ = W10 m ρ c (Proc.devRef .tc main_v32) := by keep_host hostOps1_1
    _ = W9 m ρ c (Proc.devRef .tc main_v32) := by keep_host hostOps1
    _ = W8 m ρ c (Proc.devRef .tc main_v32) := W9_of_ne m ρ c main_v32 (by decide)

theorem keep_v32_19 (c : Dev nD) : W19 m ρ c (Proc.devRef .tc main_v32) = W8 m ρ c (Proc.devRef .tc main_v32) :=
  calc W19 m ρ c (Proc.devRef .tc main_v32)
    _ = W18 m ρ c (Proc.devRef .tc main_v32) := W19_of_ne m ρ c main_v32 (by decide)
    _ = W17 m ρ c (Proc.devRef .tc main_v32) := by keep_host hostOps4
    _ = W16 m ρ c (Proc.devRef .tc main_v32) := W17_of_ne m ρ c main_v32 (by decide)
    _ = W15 m ρ c (Proc.devRef .tc main_v32) := by keep_host hostOps3_1
    _ = W14 m ρ c (Proc.devRef .tc main_v32) := by keep_host hostOps3
    _ = W13 m ρ c (Proc.devRef .tc main_v32) := W14_of_ne m ρ c main_v32 (by decide)
    _ = W12 m ρ c (Proc.devRef .tc main_v32) := by keep_host hostOps2
    _ = W11 m ρ c (Proc.devRef .tc main_v32) := W12_of_ne m ρ c main_v32 (by decide)
    _ = W10 m ρ c (Proc.devRef .tc main_v32) := by keep_host hostOps1_1
    _ = W9 m ρ c (Proc.devRef .tc main_v32) := by keep_host hostOps1
    _ = W8 m ρ c (Proc.devRef .tc main_v32) := W9_of_ne m ρ c main_v32 (by decide)

theorem keep_v34_11 (c : Dev nD) : W11 m ρ c (Proc.devRef .tc main_v34) = W8 m ρ c (Proc.devRef .tc main_v34) :=
  calc W11 m ρ c (Proc.devRef .tc main_v34)
    _ = W10 m ρ c (Proc.devRef .tc main_v34) := by keep_host hostOps1_1
    _ = W9 m ρ c (Proc.devRef .tc main_v34) := by keep_host hostOps1
    _ = W8 m ρ c (Proc.devRef .tc main_v34) := W9_of_ne m ρ c main_v34 (by decide)

theorem keep_v34_16 (c : Dev nD) : W16 m ρ c (Proc.devRef .tc main_v34) = W8 m ρ c (Proc.devRef .tc main_v34) :=
  calc W16 m ρ c (Proc.devRef .tc main_v34)
    _ = W15 m ρ c (Proc.devRef .tc main_v34) := by keep_host hostOps3_1
    _ = W14 m ρ c (Proc.devRef .tc main_v34) := by keep_host hostOps3
    _ = W13 m ρ c (Proc.devRef .tc main_v34) := W14_of_ne m ρ c main_v34 (by decide)
    _ = W12 m ρ c (Proc.devRef .tc main_v34) := by keep_host hostOps2
    _ = W11 m ρ c (Proc.devRef .tc main_v34) := (W12_arr m ρ c 1).trans (((dat1 (V11 m ρ) c).arrAt_in 1 rfl _).trans (A_eq1 (V11 m ρ) c 1))
    _ = W10 m ρ c (Proc.devRef .tc main_v34) := by keep_host hostOps1_1
    _ = W9 m ρ c (Proc.devRef .tc main_v34) := by keep_host hostOps1
    _ = W8 m ρ c (Proc.devRef .tc main_v34) := W9_of_ne m ρ c main_v34 (by decide)

theorem keep_v34_20 (c : Dev nD) : W20 m ρ c (Proc.devRef .tc main_v34) = W8 m ρ c (Proc.devRef .tc main_v34) :=
  calc W20 m ρ c (Proc.devRef .tc main_v34)
    _ = W19 m ρ c (Proc.devRef .tc main_v34) := by keep_host hostOps5
    _ = W18 m ρ c (Proc.devRef .tc main_v34) := W19_of_ne m ρ c main_v34 (by decide)
    _ = W17 m ρ c (Proc.devRef .tc main_v34) := by keep_host hostOps4
    _ = W16 m ρ c (Proc.devRef .tc main_v34) := (W17_arr m ρ c 1).trans (((dat3 (V16 m ρ) c).arrAt_in 1 rfl _).trans (A_eq3 (V16 m ρ) c 1))
    _ = W15 m ρ c (Proc.devRef .tc main_v34) := by keep_host hostOps3_1
    _ = W14 m ρ c (Proc.devRef .tc main_v34) := by keep_host hostOps3
    _ = W13 m ρ c (Proc.devRef .tc main_v34) := W14_of_ne m ρ c main_v34 (by decide)
    _ = W12 m ρ c (Proc.devRef .tc main_v34) := by keep_host hostOps2
    _ = W11 m ρ c (Proc.devRef .tc main_v34) := (W12_arr m ρ c 1).trans (((dat1 (V11 m ρ) c).arrAt_in 1 rfl _).trans (A_eq1 (V11 m ρ) c 1))
    _ = W10 m ρ c (Proc.devRef .tc main_v34) := by keep_host hostOps1_1
    _ = W9 m ρ c (Proc.devRef .tc main_v34) := by keep_host hostOps1
    _ = W8 m ρ c (Proc.devRef .tc main_v34) := W9_of_ne m ρ c main_v34 (by decide)

theorem keep_v40_12 (c : Dev nD) : W12 m ρ c (Proc.devRef .tc main_v40) = W8 m ρ c (Proc.devRef .tc main_v40) :=
  calc W12 m ρ c (Proc.devRef .tc main_v40)
    _ = W11 m ρ c (Proc.devRef .tc main_v40) := W12_of_ne m ρ c main_v40 (by decide)
    _ = W10 m ρ c (Proc.devRef .tc main_v40) := by keep_host hostOps1_1
    _ = W9 m ρ c (Proc.devRef .tc main_v40) := by keep_host hostOps1
    _ = W8 m ρ c (Proc.devRef .tc main_v40) := W9_of_ne m ρ c main_v40 (by decide)

theorem keep_v40_17 (c : Dev nD) : W17 m ρ c (Proc.devRef .tc main_v40) = W8 m ρ c (Proc.devRef .tc main_v40) :=
  calc W17 m ρ c (Proc.devRef .tc main_v40)
    _ = W16 m ρ c (Proc.devRef .tc main_v40) := W17_of_ne m ρ c main_v40 (by decide)
    _ = W15 m ρ c (Proc.devRef .tc main_v40) := by keep_host hostOps3_1
    _ = W14 m ρ c (Proc.devRef .tc main_v40) := by keep_host hostOps3
    _ = W13 m ρ c (Proc.devRef .tc main_v40) := W14_of_ne m ρ c main_v40 (by decide)
    _ = W12 m ρ c (Proc.devRef .tc main_v40) := by keep_host hostOps2
    _ = W11 m ρ c (Proc.devRef .tc main_v40) := W12_of_ne m ρ c main_v40 (by decide)
    _ = W10 m ρ c (Proc.devRef .tc main_v40) := by keep_host hostOps1_1
    _ = W9 m ρ c (Proc.devRef .tc main_v40) := by keep_host hostOps1
    _ = W8 m ρ c (Proc.devRef .tc main_v40) := W9_of_ne m ρ c main_v40 (by decide)

theorem keep_v40_21 (c : Dev nD) : W21 m ρ c (Proc.devRef .tc main_v40) = W8 m ρ c (Proc.devRef .tc main_v40) :=
  calc W21 m ρ c (Proc.devRef .tc main_v40)
    _ = W20 m ρ c (Proc.devRef .tc main_v40) := W21_of_ne m ρ c main_v40 (by decide)
    _ = W19 m ρ c (Proc.devRef .tc main_v40) := by keep_host hostOps5
    _ = W18 m ρ c (Proc.devRef .tc main_v40) := W19_of_ne m ρ c main_v40 (by decide)
    _ = W17 m ρ c (Proc.devRef .tc main_v40) := by keep_host hostOps4
    _ = W16 m ρ c (Proc.devRef .tc main_v40) := W17_of_ne m ρ c main_v40 (by decide)
    _ = W15 m ρ c (Proc.devRef .tc main_v40) := by keep_host hostOps3_1
    _ = W14 m ρ c (Proc.devRef .tc main_v40) := by keep_host hostOps3
    _ = W13 m ρ c (Proc.devRef .tc main_v40) := W14_of_ne m ρ c main_v40 (by decide)
    _ = W12 m ρ c (Proc.devRef .tc main_v40) := by keep_host hostOps2
    _ = W11 m ρ c (Proc.devRef .tc main_v40) := W12_of_ne m ρ c main_v40 (by decide)
    _ = W10 m ρ c (Proc.devRef .tc main_v40) := by keep_host hostOps1_1
    _ = W9 m ρ c (Proc.devRef .tc main_v40) := by keep_host hostOps1
    _ = W8 m ρ c (Proc.devRef .tc main_v40) := W9_of_ne m ρ c main_v40 (by decide)

theorem keep_v60_13 (c : Dev nD) : W13 m ρ c (Proc.devRef .tc main_v60) = W11 m ρ c (Proc.devRef .tc main_v60) :=
  calc W13 m ρ c (Proc.devRef .tc main_v60)
    _ = W12 m ρ c (Proc.devRef .tc main_v60) := by keep_host hostOps2
    _ = W11 m ρ c (Proc.devRef .tc main_v60) := (W12_arr m ρ c 0).trans (((dat1 (V11 m ρ) c).arrAt_in 0 rfl _).trans (A_eq1 (V11 m ρ) c 0))

theorem keep_v83_18 (c : Dev nD) : W18 m ρ c (Proc.devRef .tc main_v83) = W16 m ρ c (Proc.devRef .tc main_v83) :=
  calc W18 m ρ c (Proc.devRef .tc main_v83)
    _ = W17 m ρ c (Proc.devRef .tc main_v83) := by keep_host hostOps4
    _ = W16 m ρ c (Proc.devRef .tc main_v83) := (W17_arr m ρ c 0).trans (((dat3 (V16 m ρ) c).arrAt_in 0 rfl _).trans (A_eq3 (V16 m ρ) c 0))

theorem keep_v64_22 (c : Dev nD) : W22 m ρ c (Proc.devRef .tc main_v64) = W13 m ρ c (Proc.devRef .tc main_v64) :=
  calc W22 m ρ c (Proc.devRef .tc main_v64)
    _ = W21 m ρ c (Proc.devRef .tc main_v64) := by keep_host hostOps6
    _ = W20 m ρ c (Proc.devRef .tc main_v64) := W21_of_ne m ρ c main_v64 (by decide)
    _ = W19 m ρ c (Proc.devRef .tc main_v64) := by keep_host hostOps5
    _ = W18 m ρ c (Proc.devRef .tc main_v64) := W19_of_ne m ρ c main_v64 (by decide)
    _ = W17 m ρ c (Proc.devRef .tc main_v64) := by keep_host hostOps4
    _ = W16 m ρ c (Proc.devRef .tc main_v64) := W17_of_ne m ρ c main_v64 (by decide)
    _ = W15 m ρ c (Proc.devRef .tc main_v64) := by keep_host hostOps3_1
    _ = W14 m ρ c (Proc.devRef .tc main_v64) := by keep_host hostOps3
    _ = W13 m ρ c (Proc.devRef .tc main_v64) := W14_of_ne m ρ c main_v64 (by decide)

theorem keep_v87_22 (c : Dev nD) : W22 m ρ c (Proc.devRef .tc main_v87) = W18 m ρ c (Proc.devRef .tc main_v87) :=
  calc W22 m ρ c (Proc.devRef .tc main_v87)
    _ = W21 m ρ c (Proc.devRef .tc main_v87) := by keep_host hostOps6
    _ = W20 m ρ c (Proc.devRef .tc main_v87) := W21_of_ne m ρ c main_v87 (by decide)
    _ = W19 m ρ c (Proc.devRef .tc main_v87) := by keep_host hostOps5
    _ = W18 m ρ c (Proc.devRef .tc main_v87) := W19_of_ne m ρ c main_v87 (by decide)

theorem arg4_at8 (c : Dev nD) : W8 m ρ c (Proc.devRef .tc main_arg4) = m ((c : Thread nD τ).loc main_arg4) :=
  calc W8 m ρ c (Proc.devRef .tc main_arg4)
    _ = W7 m ρ c (Proc.devRef .tc main_arg4) := by keep_host hostOps0_7
    _ = W6 m ρ c (Proc.devRef .tc main_arg4) := by keep_host hostOps0_6
    _ = W5 m ρ c (Proc.devRef .tc main_arg4) := by keep_host hostOps0_5
    _ = W4 m ρ c (Proc.devRef .tc main_arg4) := by keep_host hostOps0_4
    _ = W3 m ρ c (Proc.devRef .tc main_arg4) := by keep_host hostOps0_3
    _ = W2 m ρ c (Proc.devRef .tc main_arg4) := by keep_host hostOps0_2
    _ = W1 m ρ c (Proc.devRef .tc main_arg4) := by keep_host hostOps0_1
    _ = W0 m ρ c (Proc.devRef .tc main_arg4) := by keep_host hostOps0
    _ = m ((c : Thread nD τ).loc main_arg4) := rfl

theorem arg5_at9 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := by keep_host hostOps0_7
    _ = W6 m ρ c (Proc.devRef .tc main_arg5) := by keep_host hostOps0_6
    _ = W5 m ρ c (Proc.devRef .tc main_arg5) := by keep_host hostOps0_5
    _ = W4 m ρ c (Proc.devRef .tc main_arg5) := by keep_host hostOps0_4
    _ = W3 m ρ c (Proc.devRef .tc main_arg5) := by keep_host hostOps0_3
    _ = W2 m ρ c (Proc.devRef .tc main_arg5) := by keep_host hostOps0_2
    _ = W1 m ρ c (Proc.devRef .tc main_arg5) := by keep_host hostOps0_1
    _ = W0 m ρ c (Proc.devRef .tc main_arg5) := by keep_host hostOps0
    _ = m ((c : Thread nD τ).loc main_arg5) := rfl

theorem arg6_at13 (c : Dev nD) : W13 m ρ c (Proc.devRef .tc main_arg6) = m ((c : Thread nD τ).loc main_arg6) :=
  calc W13 m ρ c (Proc.devRef .tc main_arg6)
    _ = W12 m ρ c (Proc.devRef .tc main_arg6) := by keep_host hostOps2
    _ = W11 m ρ c (Proc.devRef .tc main_arg6) := W12_of_ne m ρ c main_arg6 (by decide)
    _ = W10 m ρ c (Proc.devRef .tc main_arg6) := by keep_host hostOps1_1
    _ = W9 m ρ c (Proc.devRef .tc main_arg6) := by keep_host hostOps1
    _ = W8 m ρ c (Proc.devRef .tc main_arg6) := W9_of_ne m ρ c main_arg6 (by decide)
    _ = W7 m ρ c (Proc.devRef .tc main_arg6) := by keep_host hostOps0_7
    _ = W6 m ρ c (Proc.devRef .tc main_arg6) := by keep_host hostOps0_6
    _ = W5 m ρ c (Proc.devRef .tc main_arg6) := by keep_host hostOps0_5
    _ = W4 m ρ c (Proc.devRef .tc main_arg6) := by keep_host hostOps0_4
    _ = W3 m ρ c (Proc.devRef .tc main_arg6) := by keep_host hostOps0_3
    _ = W2 m ρ c (Proc.devRef .tc main_arg6) := by keep_host hostOps0_2
    _ = W1 m ρ c (Proc.devRef .tc main_arg6) := by keep_host hostOps0_1
    _ = W0 m ρ c (Proc.devRef .tc main_arg6) := by keep_host hostOps0
    _ = m ((c : Thread nD τ).loc main_arg6) := rfl

theorem arg7_at14 (c : Dev nD) : W14 m ρ c (Proc.devRef .tc main_arg7) = m ((c : Thread nD τ).loc main_arg7) :=
  calc W14 m ρ c (Proc.devRef .tc main_arg7)
    _ = W13 m ρ c (Proc.devRef .tc main_arg7) := W14_of_ne m ρ c main_arg7 (by decide)
    _ = W12 m ρ c (Proc.devRef .tc main_arg7) := by keep_host hostOps2
    _ = W11 m ρ c (Proc.devRef .tc main_arg7) := W12_of_ne m ρ c main_arg7 (by decide)
    _ = W10 m ρ c (Proc.devRef .tc main_arg7) := by keep_host hostOps1_1
    _ = W9 m ρ c (Proc.devRef .tc main_arg7) := by keep_host hostOps1
    _ = W8 m ρ c (Proc.devRef .tc main_arg7) := W9_of_ne m ρ c main_arg7 (by decide)
    _ = W7 m ρ c (Proc.devRef .tc main_arg7) := by keep_host hostOps0_7
    _ = W6 m ρ c (Proc.devRef .tc main_arg7) := by keep_host hostOps0_6
    _ = W5 m ρ c (Proc.devRef .tc main_arg7) := by keep_host hostOps0_5
    _ = W4 m ρ c (Proc.devRef .tc main_arg7) := by keep_host hostOps0_4
    _ = W3 m ρ c (Proc.devRef .tc main_arg7) := by keep_host hostOps0_3
    _ = W2 m ρ c (Proc.devRef .tc main_arg7) := by keep_host hostOps0_2
    _ = W1 m ρ c (Proc.devRef .tc main_arg7) := by keep_host hostOps0_1
    _ = W0 m ρ c (Proc.devRef .tc main_arg7) := by keep_host hostOps0
    _ = m ((c : Thread nD τ).loc main_arg7) := rfl

theorem arg8_at18 (c : Dev nD) : W18 m ρ c (Proc.devRef .tc main_arg8) = m ((c : Thread nD τ).loc main_arg8) :=
  calc W18 m ρ c (Proc.devRef .tc main_arg8)
    _ = W17 m ρ c (Proc.devRef .tc main_arg8) := by keep_host hostOps4
    _ = W16 m ρ c (Proc.devRef .tc main_arg8) := W17_of_ne m ρ c main_arg8 (by decide)
    _ = W15 m ρ c (Proc.devRef .tc main_arg8) := by keep_host hostOps3_1
    _ = W14 m ρ c (Proc.devRef .tc main_arg8) := by keep_host hostOps3
    _ = W13 m ρ c (Proc.devRef .tc main_arg8) := W14_of_ne m ρ c main_arg8 (by decide)
    _ = W12 m ρ c (Proc.devRef .tc main_arg8) := by keep_host hostOps2
    _ = W11 m ρ c (Proc.devRef .tc main_arg8) := W12_of_ne m ρ c main_arg8 (by decide)
    _ = W10 m ρ c (Proc.devRef .tc main_arg8) := by keep_host hostOps1_1
    _ = W9 m ρ c (Proc.devRef .tc main_arg8) := by keep_host hostOps1
    _ = W8 m ρ c (Proc.devRef .tc main_arg8) := W9_of_ne m ρ c main_arg8 (by decide)
    _ = W7 m ρ c (Proc.devRef .tc main_arg8) := by keep_host hostOps0_7
    _ = W6 m ρ c (Proc.devRef .tc main_arg8) := by keep_host hostOps0_6
    _ = W5 m ρ c (Proc.devRef .tc main_arg8) := by keep_host hostOps0_5
    _ = W4 m ρ c (Proc.devRef .tc main_arg8) := by keep_host hostOps0_4
    _ = W3 m ρ c (Proc.devRef .tc main_arg8) := by keep_host hostOps0_3
    _ = W2 m ρ c (Proc.devRef .tc main_arg8) := by keep_host hostOps0_2
    _ = W1 m ρ c (Proc.devRef .tc main_arg8) := by keep_host hostOps0_1
    _ = W0 m ρ c (Proc.devRef .tc main_arg8) := by keep_host hostOps0
    _ = m ((c : Thread nD τ).loc main_arg8) := rfl

theorem arg9_at19 (c : Dev nD) : W19 m ρ c (Proc.devRef .tc main_arg9) = m ((c : Thread nD τ).loc main_arg9) :=
  calc W19 m ρ c (Proc.devRef .tc main_arg9)
    _ = W18 m ρ c (Proc.devRef .tc main_arg9) := W19_of_ne m ρ c main_arg9 (by decide)
    _ = W17 m ρ c (Proc.devRef .tc main_arg9) := by keep_host hostOps4
    _ = W16 m ρ c (Proc.devRef .tc main_arg9) := W17_of_ne m ρ c main_arg9 (by decide)
    _ = W15 m ρ c (Proc.devRef .tc main_arg9) := by keep_host hostOps3_1
    _ = W14 m ρ c (Proc.devRef .tc main_arg9) := by keep_host hostOps3
    _ = W13 m ρ c (Proc.devRef .tc main_arg9) := W14_of_ne m ρ c main_arg9 (by decide)
    _ = W12 m ρ c (Proc.devRef .tc main_arg9) := by keep_host hostOps2
    _ = W11 m ρ c (Proc.devRef .tc main_arg9) := W12_of_ne m ρ c main_arg9 (by decide)
    _ = W10 m ρ c (Proc.devRef .tc main_arg9) := by keep_host hostOps1_1
    _ = W9 m ρ c (Proc.devRef .tc main_arg9) := by keep_host hostOps1
    _ = W8 m ρ c (Proc.devRef .tc main_arg9) := W9_of_ne m ρ c main_arg9 (by decide)
    _ = W7 m ρ c (Proc.devRef .tc main_arg9) := by keep_host hostOps0_7
    _ = W6 m ρ c (Proc.devRef .tc main_arg9) := by keep_host hostOps0_6
    _ = W5 m ρ c (Proc.devRef .tc main_arg9) := by keep_host hostOps0_5
    _ = W4 m ρ c (Proc.devRef .tc main_arg9) := by keep_host hostOps0_4
    _ = W3 m ρ c (Proc.devRef .tc main_arg9) := by keep_host hostOps0_3
    _ = W2 m ρ c (Proc.devRef .tc main_arg9) := by keep_host hostOps0_2
    _ = W1 m ρ c (Proc.devRef .tc main_arg9) := by keep_host hostOps0_1
    _ = W0 m ρ c (Proc.devRef .tc main_arg9) := by keep_host hostOps0
    _ = m ((c : Thread nD τ).loc main_arg9) := rfl

theorem arg0_at7 (c : Dev nD) : W7 m ρ c (Proc.devRef .tc main_arg0) = m ((c : Thread nD τ).loc main_arg0) :=
  calc W7 m ρ c (Proc.devRef .tc main_arg0)
    _ = W6 m ρ c (Proc.devRef .tc main_arg0) := by keep_host hostOps0_6
    _ = W5 m ρ c (Proc.devRef .tc main_arg0) := by keep_host hostOps0_5
    _ = W4 m ρ c (Proc.devRef .tc main_arg0) := by keep_host hostOps0_4
    _ = W3 m ρ c (Proc.devRef .tc main_arg0) := by keep_host hostOps0_3
    _ = W2 m ρ c (Proc.devRef .tc main_arg0) := by keep_host hostOps0_2
    _ = W1 m ρ c (Proc.devRef .tc main_arg0) := by keep_host hostOps0_1
    _ = W0 m ρ c (Proc.devRef .tc main_arg0) := by keep_host hostOps0
    _ = m ((c : Thread nD τ).loc main_arg0) := rfl

end Cert.KV

end
-- ==== Proof.LayerStretch.lean ====
/-
  The host stretches of one layer, read back as functions of the buffer contents they start from: the message passing
  with its bias (`convK` of the edge sources, the edge targets, the normalised weights, the projected table and the
  bias), the positive part, and the two accumulators added and divided by the clipped graph sizes (`poolDivK`).  Each is
  the stretch's own operations composed; the three layers run the same operations over differently numbered buffers.
-/
import proofs.«407808_j56547539419677_2_alg».proof.Proof.Gen.KernelIdeal.Frame
import proofs.«407808_j56547539419677_2_alg».proof.Proof.Spec
import Idealize.ShloMosaic.Lib.StableHlo.Run

set_option maxRecDepth 16384

noncomputable section

namespace Cert.KV

open Idealize.ShloMosaic Idealize.ShloMosaic.TcCoe Idealize.ShloMosaic.ValueIdx Idealize.SL.Sem Cert.KernelIdeal Cert.KernelIdeal.Gen

variable (V : Valuation τ sig (Elt Ideal))

/-! ## Layer 1 -/

/-- Layer 1's message passing and bias. -/
theorem convpre1 : StableHlo.after hostOps1 V (Proc.devRef .tc main_v59)
    = convK (V (Proc.devRef .tc main_v3)) (V (Proc.devRef .tc main_v7)) (V (Proc.devRef .tc main_v32)) (V (Proc.devRef .tc main_v42)) (V (Proc.devRef .tc main_arg5)) := by
  after_results_simp
  rfl

-- the outlined positive part writes through typed references, whose buffer types are computed from slot numbers
set_option maxRecDepth 200000 in
/-- Layer 1's positive part. -/
theorem relu1 : StableHlo.after hostOps1_1 V (Proc.devRef .tc main_v60) = reluK (V (Proc.devRef .tc main_v59)) := by
  after_results
  rfl

/-- Layer 1's node array from the projected table. -/
theorem conv1 : StableHlo.after hostOps1_1 (StableHlo.after hostOps1 V) (Proc.devRef .tc main_v60)
    = reluK (convK (V (Proc.devRef .tc main_v3)) (V (Proc.devRef .tc main_v7)) (V (Proc.devRef .tc main_v32)) (V (Proc.devRef .tc main_v42)) (V (Proc.devRef .tc main_arg5))) :=
  (relu1 (StableHlo.after hostOps1 V)).trans (congrArg reluK (convpre1 V))

/-- Layer 1's graph means from the two accumulators. -/
theorem pooldiv1 : StableHlo.after hostOps2 V (Proc.devRef .tc main_v64) = poolDivK (V (Proc.devRef .tc main_v61)) (V (Proc.devRef .tc main_v40)) := by
  after_results
  rfl

/-! ## Layer 2 -/

/-- Layer 2's message passing and bias. -/
theorem convpre2 : StableHlo.after hostOps3 V (Proc.devRef .tc main_v82)
    = convK (V (Proc.devRef .tc main_v3)) (V (Proc.devRef .tc main_v7)) (V (Proc.devRef .tc main_v32)) (V (Proc.devRef .tc main_v65)) (V (Proc.devRef .tc main_arg7)) := by
  after_results_simp
  rfl

set_option maxRecDepth 200000 in
/-- Layer 2's positive part. -/
theorem relu2 : StableHlo.after hostOps3_1 V (Proc.devRef .tc main_v83) = reluK (V (Proc.devRef .tc main_v82)) := by
  after_results
  rfl

/-- Layer 2's node array from the projected table. -/
theorem conv2 : StableHlo.after hostOps3_1 (StableHlo.after hostOps3 V) (Proc.devRef .tc main_v83)
    = reluK (convK (V (Proc.devRef .tc main_v3)) (V (Proc.devRef .tc main_v7)) (V (Proc.devRef .tc main_v32)) (V (Proc.devRef .tc main_v65)) (V (Proc.devRef .tc main_arg7))) :=
  (relu2 (StableHlo.after hostOps3 V)).trans (congrArg reluK (convpre2 V))

/-- Layer 2's graph means from the two accumulators. -/
theorem pooldiv2 : StableHlo.after hostOps4 V (Proc.devRef .tc main_v87) = poolDivK (V (Proc.devRef .tc main_v84)) (V (Proc.devRef .tc main_v40)) := by
  after_results
  rfl

/-! ## Layer 3 (no positive part) -/

/-- Layer 3's node array from the projected table. -/
theorem conv3 : StableHlo.after hostOps5 V (Proc.devRef .tc main_v105)
    = convK (V (Proc.devRef .tc main_v3)) (V (Proc.devRef .tc main_v7)) (V (Proc.devRef .tc main_v32)) (V (Proc.devRef .tc main_v88)) (V (Proc.devRef .tc main_arg9)) := by
  after_results_simp
  rfl

/-- Layer 3's graph means from the two accumulators. -/
theorem pooldiv3 : StableHlo.after hostOps6 V (Proc.devRef .tc main_v109) = poolDivK (V (Proc.devRef .tc main_v106)) (V (Proc.devRef .tc main_v40)) := by
  after_results
  rfl

end Cert.KV

end
-- ==== Proof.KernelValue.lean ====
/-
  What the program's three result arrays hold at the last segment boundary, as functions of the argument arrays: the
  graph means after each of the three layers (Spec.lean's `out1`, `out2`, `out3`).  Each host stretch is read back
  operation by operation from arbitrary contents before it; each region's array is the whole-array function its region
  module proves; a buffer nothing writes in between keeps its contents from boundary to boundary.
-/
import proofs.«407808_j56547539419677_2_alg».proof.Proof.Gen.KernelIdeal.Frame
import proofs.«407808_j56547539419677_2_alg».proof.Proof.Spec
import proofs.«407808_j56547539419677_2_alg».proof.Proof.MatmulRegion0
import proofs.«407808_j56547539419677_2_alg».proof.Proof.MatmulRegion2
import proofs.«407808_j56547539419677_2_alg».proof.Proof.MatmulRegion4
import proofs.«407808_j56547539419677_2_alg».proof.Proof.PoolRegion1
import proofs.«407808_j56547539419677_2_alg».proof.Proof.PoolRegion3
import proofs.«407808_j56547539419677_2_alg».proof.Proof.PoolRegion5
import proofs.«407808_j56547539419677_2_alg».proof.Proof.BoundaryKeep
import proofs.«407808_j56547539419677_2_alg».proof.Proof.LayerStretch
import Idealize.ShloMosaic.Lib.StableHlo.Run

set_option maxRecDepth 16384

noncomputable section

namespace Cert.KV

open Idealize.ShloMosaic Idealize.ShloMosaic.TcCoe Idealize.ShloMosaic.ValueIdx Idealize.SL.Sem Cert.KernelIdeal Cert.KernelIdeal.Gen

/-- One step down a host stretch that does not write the buffer, repeated until both sides agree. -/
macro "walk_down" : tactic =>
  `(tactic| repeat (first
      | with_reducible rfl
      | refine Eq.trans (StableHlo.after_of_forall_not_mem _ _ (List.forall_iff_forall_mem.mp (by
          simp only [hostOps0, hostOps0_1, hostOps0_2, hostOps0_3, hostOps0_4, hostOps0_5, hostOps0_6, hostOps0_7,
            hostOps1, hostOps1_1, hostOps2, hostOps3, hostOps3_1, hostOps4, hostOps5, hostOps6,
            List.Forall, StableHlo.nullary_writes, StableHlo.unary_writes, StableHlo.binary_writes,
            StableHlo.ternary_writes, StableHlo.quaternary_writes, StableHlo.reshape_writes, StableHlo.binaryIndexed_writes,
            Finset.mem_singleton]
          repeat' apply And.intro
          all_goals exact StableHlo.devRef_ne_of_ne (by decide)))) ?_))

/-- The operations' results read one by one where a single pass leaves some unread (inside an operand list). -/
macro "results_rest" : tactic =>
  `(tactic| repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

/-! ## The inverse square roots and the normalisation from their pieces -/

/-- The inverse square roots from the comparison, the roots and the zero they fall back to. -/
def dinvOf (p : (⟨S100000, .i1⟩ : BufTy).Contents (Elt Ideal)) (r : FVec Ideal S100000 .f32) (z : FVec Ideal S_ .f32) : FVec Ideal S100000 .f32 :=
  select p r (broadcastInDim S100000 ![] bcast_S_S100000 (id z))

/-- Where the degree is positive. -/
def posK (d : FVec Ideal S100000 .f32) : (⟨S100000, .i1⟩ : BufTy).Contents (Elt Ideal) :=
  cmpf .ogt d (broadcastInDim S100000 ![] bcast_S_S100000 (constant (F := Ideal) S_ .f32 0x00000000#32))

theorem dinvK_eq (a1 : IVec S2x1600000 32) (a2 : FVec Ideal S1600000 .f32) :
    dinvK a1 a2 = dinvOf (posK (degK a1 a2)) (Host.rsqrt (degK a1 a2)) (constant (F := Ideal) S_ .f32 0x00000000#32) := rfl

/-- The symmetric normalisation from its four pieces: the inverse square roots of the degrees, the sources, the targets
    and the weights of the edges. -/
def normOf (dinv : FVec Ideal S100000 .f32) (row col : IVec S1700000 32) (ew : FVec Ideal S1700000 .f32) : FVec Ideal S1700000 .f32 :=
  mulf (mulf (Host.gather gather_S100000_S1700000x1_S1700000_n_0_n_n_0_1_1 dinv (broadcastInDim S1700000x1 ![0] bcast_S1700000_S1700000x1_0 (wrapK 100000#32 row))) ew)
    (Host.gather gather_S100000_S1700000x1_S1700000_n_0_n_n_0_1_1 dinv (broadcastInDim S1700000x1 ![0] bcast_S1700000_S1700000x1_0 (wrapK 100000#32 col)))

theorem normK_eq (a1 : IVec S2x1600000 32) (a2 : FVec Ideal S1600000 .f32) :
    normK a1 a2 = normOf (dinvK a1 a2) (rowK a1) (colK a1) (ewK a2) := rfl

/-! ## What each host stretch of the prelude writes, from any contents `V` before it -/

section Stretch

variable (V : Valuation τ sig (Elt Ideal))

theorem pre_v3 : StableHlo.after hostOps0 V (Proc.devRef .tc main_v3) = rowK (V (Proc.devRef .tc main_arg1)) := by
  after_results
  rfl

theorem pre_v7 : StableHlo.after hostOps0 V (Proc.devRef .tc main_v7) = colK (V (Proc.devRef .tc main_arg1)) := by
  after_results
  rfl

theorem pre_v9 : StableHlo.after hostOps0 V (Proc.devRef .tc main_v9) = ewK (V (Proc.devRef .tc main_arg2)) := by
  after_results
  rfl

theorem pre_v12 : StableHlo.after hostOps0 V (Proc.devRef .tc main_v12) = degK (V (Proc.devRef .tc main_arg1)) (V (Proc.devRef .tc main_arg2)) := by
  after_results_simp
  results_rest
  rfl

theorem pre_v14 : StableHlo.after hostOps0 V (Proc.devRef .tc main_v14) = posK (degK (V (Proc.devRef .tc main_arg1)) (V (Proc.devRef .tc main_arg2))) := by
  after_results_simp
  results_rest
  rfl

theorem pre_v15 : StableHlo.after hostOps0 V (Proc.devRef .tc main_v15) = Host.rsqrt (degK (V (Proc.devRef .tc main_arg1)) (V (Proc.devRef .tc main_arg2))) := by
  after_results_simp
  results_rest
  rfl

theorem pre_cst2 : StableHlo.after hostOps0 V (Proc.devRef .tc main_cst_2) = constant (F := Ideal) S_ .f32 0x00000000#32 := by
  after_results_simp

set_option maxRecDepth 200000 in
theorem pre_v16 : StableHlo.after hostOps0_1 V (Proc.devRef .tc main_v16)
    = dinvOf (V (Proc.devRef .tc main_v14)) (V (Proc.devRef .tc main_v15)) (V (Proc.devRef .tc main_cst_2)) := by
  after_results
  rfl

theorem pre_v32 : StableHlo.after hostOps0_2 V (Proc.devRef .tc main_v32)
    = normOf (V (Proc.devRef .tc main_v16)) (V (Proc.devRef .tc main_v3)) (V (Proc.devRef .tc main_v7)) (V (Proc.devRef .tc main_v9)) := by
  after_results_simp
  rfl

set_option maxRecDepth 200000 in
theorem pre_v34 : StableHlo.after hostOps0_4 (StableHlo.after hostOps0_3 (StableHlo.after hostOps0_2 V)) (Proc.devRef .tc main_v34)
    = bpK (V (Proc.devRef .tc main_arg3)) := by
  after_results_simp
  results_rest
  rfl

set_option maxRecDepth 200000 in
theorem pre_v40 : StableHlo.after hostOps0_6 (StableHlo.after hostOps0_5 (StableHlo.after hostOps0_4 V)) (Proc.devRef .tc main_v40)
    = cntK (V (Proc.devRef .tc main_arg3)) := by
  after_results_simp
  results_rest
  rfl

set_option maxRecDepth 200000 in
theorem pre_v41 : StableHlo.after hostOps0_7 (StableHlo.after hostOps0_6 V) (Proc.devRef .tc main_v41) = padX (V (Proc.devRef .tc main_arg0)) := by
  after_results_simp
  rfl

end Stretch

variable (m : (ℓ : Loc nD τ sig) → Buf (Elt Ideal) ℓ) (ρ : Dev nD → PrngReg)

/-! ## The prelude at region 0's entry -/

theorem W8_v3 (c : Dev nD) : W8 m ρ c (Proc.devRef .tc main_v3) = rowK (m ((c : Thread nD τ).loc main_arg1)) :=
  (by walk_down : W8 m ρ c (Proc.devRef .tc main_v3) = W1 m ρ c (Proc.devRef .tc main_v3)).trans (pre_v3 (W0 m ρ c))

theorem W8_v7 (c : Dev nD) : W8 m ρ c (Proc.devRef .tc main_v7) = colK (m ((c : Thread nD τ).loc main_arg1)) :=
  (by walk_down : W8 m ρ c (Proc.devRef .tc main_v7) = W1 m ρ c (Proc.devRef .tc main_v7)).trans (pre_v7 (W0 m ρ c))

theorem W3_v32 (c : Dev nD) : W3 m ρ c (Proc.devRef .tc main_v32) = normK (m ((c : Thread nD τ).loc main_arg1)) (m ((c : Thread nD τ).loc main_arg2)) := by
  have h14 : W1 m ρ c (Proc.devRef .tc main_v14) = posK (degK (m ((c : Thread nD τ).loc main_arg1)) (m ((c : Thread nD τ).loc main_arg2))) := pre_v14 (W0 m ρ c)
  have h15 : W1 m ρ c (Proc.devRef .tc main_v15) = Host.rsqrt (degK (m ((c : Thread nD τ).loc main_arg1)) (m ((c : Thread nD τ).loc main_arg2))) := pre_v15 (W0 m ρ c)
  have hc : W1 m ρ c (Proc.devRef .tc main_cst_2) = constant (F := Ideal) S_ .f32 0x00000000#32 := pre_cst2 (W0 m ρ c)
  have h16 : W2 m ρ c (Proc.devRef .tc main_v16) = dinvK (m ((c : Thread nD τ).loc main_arg1)) (m ((c : Thread nD τ).loc main_arg2)) := by
    refine (pre_v16 (W1 m ρ c)).trans ?_
    rw [h14, h15, hc, dinvK_eq]
  have h3 : W2 m ρ c (Proc.devRef .tc main_v3) = rowK (m ((c : Thread nD τ).loc main_arg1)) :=
    (by walk_down : W2 m ρ c (Proc.devRef .tc main_v3) = W1 m ρ c (Proc.devRef .tc main_v3)).trans (pre_v3 (W0 m ρ c))
  have h7 : W2 m ρ c (Proc.devRef .tc main_v7) = colK (m ((c : Thread nD τ).loc main_arg1)) :=
    (by walk_down : W2 m ρ c (Proc.devRef .tc main_v7) = W1 m ρ c (Proc.devRef .tc main_v7)).trans (pre_v7 (W0 m ρ c))
  have h9 : W2 m ρ c (Proc.devRef .tc main_v9) = ewK (m ((c : Thread nD τ).loc main_arg2)) :=
    (by walk_down : W2 m ρ c (Proc.devRef .tc main_v9) = W1 m ρ c (Proc.devRef .tc main_v9)).trans (pre_v9 (W0 m ρ c))
  refine (pre_v32 (W2 m ρ c)).trans ?_
  rw [h16, h3, h7, h9, normK_eq]

theorem W8_v32 (c : Dev nD) : W8 m ρ c (Proc.devRef .tc main_v32) = normK (m ((c : Thread nD τ).loc main_arg1)) (m ((c : Thread nD τ).loc main_arg2)) :=
  (by walk_down : W8 m ρ c (Proc.devRef .tc main_v32) = W3 m ρ c (Proc.devRef .tc main_v32)).trans (W3_v32 m ρ c)

theorem W8_v34 (c : Dev nD) : W8 m ρ c (Proc.devRef .tc main_v34) = bpK (m ((c : Thread nD τ).loc main_arg3)) :=
  (by walk_down : W8 m ρ c (Proc.devRef .tc main_v34) = W5 m ρ c (Proc.devRef .tc main_v34)).trans
    ((pre_v34 (W2 m ρ c)).trans (congrArg bpK (by walk_down : W2 m ρ c (Proc.devRef .tc main_arg3) = W0 m ρ c (Proc.devRef .tc main_arg3))))

theorem W8_v40 (c : Dev nD) : W8 m ρ c (Proc.devRef .tc main_v40) = cntK (m ((c : Thread nD τ).loc main_arg3)) :=
  (by walk_down : W8 m ρ c (Proc.devRef .tc main_v40) = W7 m ρ c (Proc.devRef .tc main_v40)).trans
    ((pre_v40 (W4 m ρ c)).trans (congrArg cntK (by walk_down : W4 m ρ c (Proc.devRef .tc main_arg3) = W0 m ρ c (Proc.devRef .tc main_arg3))))

theorem W8_v41 (c : Dev nD) : W8 m ρ c (Proc.devRef .tc main_v41) = padX (m ((c : Thread nD τ).loc main_arg0)) :=
  (pre_v41 (W6 m ρ c)).trans (congrArg padX (by walk_down : W6 m ρ c (Proc.devRef .tc main_arg0) = W0 m ρ c (Proc.devRef .tc main_arg0)))

/-! ## Layer 1 -/

theorem W9_v42 (c : Dev nD) : W9 m ρ c (Proc.devRef .tc main_v42) = mmOut (padX (m ((c : Thread nD τ).loc main_arg0))) (m ((c : Thread nD τ).loc main_arg4)) :=
  ((W9_arr m ρ c 2).trans (mm_region0 (V8 m ρ) c)).trans (congrArg₂ mmOut (W8_v41 m ρ c) (arg4_at8 m ρ c))

theorem W11_v60 (c : Dev nD) : W11 m ρ c (Proc.devRef .tc main_v60) = (H1 (m ((c : Thread nD τ).loc main_arg0)) (m ((c : Thread nD τ).loc main_arg1)) (m ((c : Thread nD τ).loc main_arg2)) (m ((c : Thread nD τ).loc main_arg4)) (m ((c : Thread nD τ).loc main_arg5))) := by
  refine (conv1 (W9 m ρ c)).trans ?_
  rw [keep_v3_9 m ρ c, keep_v7_9 m ρ c, keep_v32_9 m ρ c, W8_v3 m ρ c, W8_v7 m ρ c, W8_v32 m ρ c, W9_v42 m ρ c,
    arg5_at9 m ρ c]
  rfl

theorem W12_v61 (c : Dev nD) : W12 m ρ c (Proc.devRef .tc main_v61) = poolOut (H1 (m ((c : Thread nD τ).loc main_arg0)) (m ((c : Thread nD τ).loc main_arg1)) (m ((c : Thread nD τ).loc main_arg2)) (m ((c : Thread nD τ).loc main_arg4)) (m ((c : Thread nD τ).loc main_arg5))) (bpK (m ((c : Thread nD τ).loc main_arg3))) :=
  ((W12_arr m ρ c 2).trans (pool_region1 (V11 m ρ) c)).trans
    (congrArg₂ poolOut (W11_v60 m ρ c) ((keep_v34_11 m ρ c).trans (W8_v34 m ρ c)))

theorem W22_out1 (c : Dev nD) :
    W22 m ρ c (Proc.devRef .tc main_v64) = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (keep_v64_22 m ρ c).trans ?_
  refine (pooldiv1 (W12 m ρ c)).trans ?_
  rw [W12_v61 m ρ c, keep_v40_12 m ρ c, W8_v40 m ρ c]
  rfl

/-! ## Layer 2 -/

theorem W14_v65 (c : Dev nD) : W14 m ρ c (Proc.devRef .tc main_v65) = mmOut (H1 (m ((c : Thread nD τ).loc main_arg0)) (m ((c : Thread nD τ).loc main_arg1)) (m ((c : Thread nD τ).loc main_arg2)) (m ((c : Thread nD τ).loc main_arg4)) (m ((c : Thread nD τ).loc main_arg5))) (m ((c : Thread nD τ).loc main_arg6)) :=
  ((W14_arr m ρ c 2).trans (mm_region2 (V13 m ρ) c)).trans
    (congrArg₂ mmOut ((keep_v60_13 m ρ c).trans (W11_v60 m ρ c)) (arg6_at13 m ρ c))

theorem W16_v83 (c : Dev nD) : W16 m ρ c (Proc.devRef .tc main_v83) = (H2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := by
  refine (conv2 (W14 m ρ c)).trans ?_
  rw [keep_v3_14 m ρ c, keep_v7_14 m ρ c, keep_v32_14 m ρ c, W8_v3 m ρ c, W8_v7 m ρ c, W8_v32 m ρ c, W14_v65 m ρ c,
    arg7_at14 m ρ c]
  rfl

theorem W17_v84 (c : Dev nD) : W17 m ρ c (Proc.devRef .tc main_v84) = poolOut (H2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (bpK (m ((c : Thread nD τ).loc main_arg3))) :=
  ((W17_arr m ρ c 2).trans (pool_region3 (V16 m ρ) c)).trans
    (congrArg₂ poolOut (W16_v83 m ρ c) ((keep_v34_16 m ρ c).trans (W8_v34 m ρ c)))

theorem W22_out2 (c : Dev nD) :
    W22 m ρ c (Proc.devRef .tc main_v87) = out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (keep_v87_22 m ρ c).trans ?_
  refine (pooldiv2 (W17 m ρ c)).trans ?_
  rw [W17_v84 m ρ c, keep_v40_17 m ρ c, W8_v40 m ρ c]
  rfl

/-! ## Layer 3 -/

theorem W19_v88 (c : Dev nD) : W19 m ρ c (Proc.devRef .tc main_v88) = mmOut (H2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg8)) :=
  ((W19_arr m ρ c 2).trans (mm_region4 (V18 m ρ) c)).trans
    (congrArg₂ mmOut ((keep_v83_18 m ρ c).trans (W16_v83 m ρ c)) (arg8_at18 m ρ c))

theorem W20_v105 (c : Dev nD) : W20 m ρ c (Proc.devRef .tc main_v105) = (H3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (conv3 (W19 m ρ c)).trans ?_
  rw [keep_v3_19 m ρ c, keep_v7_19 m ρ c, keep_v32_19 m ρ c, W8_v3 m ρ c, W8_v7 m ρ c, W8_v32 m ρ c, W19_v88 m ρ c,
    arg9_at19 m ρ c]
  rfl

theorem W21_v106 (c : Dev nD) : W21 m ρ c (Proc.devRef .tc main_v106) = poolOut (H3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (bpK (m ((c : Thread nD τ).loc main_arg3))) :=
  ((W21_arr m ρ c 2).trans (pool_region5 (V20 m ρ) c)).trans
    (congrArg₂ poolOut (W20_v105 m ρ c) ((keep_v34_20 m ρ c).trans (W8_v34 m ρ c)))

theorem W22_out3 (c : Dev nD) :
    W22 m ρ c (Proc.devRef .tc main_v109) = out3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (pooldiv3 (W21 m ρ c)).trans ?_
  rw [W21_v106 m ρ c, keep_v40_21 m ρ c, W8_v40 m ρ c]
  rfl

end Cert.KV

end
-- ==== Proof.PreDecode.lean ====
/-
  The precondition, read back: it says (beside the finiteness of the float inputs) that every entry of row 0 of the edge
  list, read signed, lies in [0, 100000).
-/
import proofs.«407808_j56547539419677_2_alg».proof.Proof.Spec
import proofs.«407808_j56547539419677_2_alg».proof.Proof.Gen.Pre_finite_inputs
import Idealize.ShloMosaic.Lib.ReduceAll
import Idealize.ShloMosaic.Lib.StableHlo.Predicate
import Idealize.ShloMosaic.Lib.Pipeline.Value

noncomputable section

namespace Cert.Bridge

open Idealize.ShloMosaic Idealize.ShloMosaic.ValueIdx

/-- The scalar shape has one index. -/
instance : Subsingleton Cert.Pre_finite_inputs.S_.Idx := ⟨fun a b => funext fun d => d.elim0⟩

/-- Row 0 of the edge list, sliced off ([0:1, :]) and flattened to [1600000], read at entry e, is the edge list at (0, e):
    the flattening keeps the row-major position (0 * 1600000 + e = e), and the slice starts at offset (0, 0). -/
theorem row0_apply [Cert.Pre_finite_inputs.Facts] (a1 : IVec Cert.Pre_finite_inputs.S2x1600000 32) (e : Fin 1600000) :
    shapeCast Cert.Pre_finite_inputs.S1600000
      (extractStridedSlice Cert.Pre_finite_inputs.S1x1600000 ![0, 0] a1
        Cert.Pre_finite_inputs.Facts.slices_S2x1600000_S1x1600000_0_0)
      Cert.Pre_finite_inputs.Facts.shapeCasts_S1x1600000_S1600000 (ix1 e) = a1 (ix2 (0 : Fin 2) e) := by
  refine (shapeCast_apply _ _ (ix1 e) (ix2 (0 : Fin 1) e) ?_).trans ?_
  · rw [Shape.rowMajor_val_two, Shape.rowMajor_val_one]
    show 0 * 1600000 + e.val = e.val
    omega
  · exact extractStridedSlice_apply ![0, 0] a1 _ (ix2 (0 : Fin 1) e) (ix2 (0 : Fin 2) e) (fun a => match a with
      | ⟨0, _⟩ => by show (0 : Nat) = 0 + 0; rfl
      | ⟨1, _⟩ => by show e.val = 0 + e.val; omega)

/-- A scalar word broadcast to the flat row reads that word at every entry. -/
theorem bcast_word [Cert.Pre_finite_inputs.Facts] (w : BitVec 32) (e : Fin 1600000) :
    broadcastInDim Cert.Pre_finite_inputs.S1600000 ![] Cert.Pre_finite_inputs.Facts.bcast_S_S1600000
      (constantI Cert.Pre_finite_inputs.S_ 32 w) (ix1 e) = w :=
  StableHlo.Predicate.bcast_scalar _ Cert.Pre_finite_inputs.Facts.h_S_ _ _

/-- The signed comparison "w ≥ 0" that came out true says 0 ≤ w read signed. -/
theorem sge_zero {w : BitVec 32} (h : IntOp.cmpi .sge w 0#32 = 1#1) : 0 ≤ w.toInt := by
  unfold IntOp.cmpi at h
  rw [StableHlo.Predicate.ofBool_eq_one_iff] at h
  simp only [BitVec.sle, decide_eq_true_eq] at h
  have h0 : (0#32 : BitVec 32).toInt = 0 := by decide
  omega

/-- The signed comparison "w < 100000" that came out true says w read signed is below 100000. -/
theorem slt_bound {w : BitVec 32} (h : IntOp.cmpi .slt w 100000#32 = 1#1) : w.toInt < 100000 := by
  unfold IntOp.cmpi at h
  rw [StableHlo.Predicate.ofBool_eq_one_iff] at h
  simp only [BitVec.slt, decide_eq_true_eq] at h
  have h0 : (100000#32 : BitVec 32).toInt = 100000 := by decide
  omega

/-- The last two conjuncts of the precondition (its second part), decoded: both range tests hold at every entry of row 0. -/
theorem rowOk_of_part2 [Cert.Pre_finite_inputs.Facts] (a1 : IVec Cert.Pre_finite_inputs.S2x1600000 32)
    (a9 : FVec Ideal Cert.Pre_finite_inputs.S128 .f32) (v33 : IVec Cert.Pre_finite_inputs.S_ 1)
    (h : Cert.Pre_finite_inputs.fn_part2 (F := Ideal) a1 a9 v33 ix0 = 1#1) : Cert.KV.RowOk a1 := by
  unfold Cert.Pre_finite_inputs.fn_part2 at h
  dsimp only [andi] at h
  rw [IntOp.andi_eq_one, IntOp.andi_eq_one] at h
  obtain ⟨⟨-, hge⟩, hlt⟩ := h
  intro e
  have g0 := Host.reduce_andi_all _ _ _ _ _ hge (ix1 e)
  have g1 := Host.reduce_andi_all _ _ _ _ _ hlt (ix1 e)
  dsimp only [cmpi] at g0 g1
  rw [row0_apply, bcast_word] at g0 g1
  exact ⟨sge_zero g0, slt_bound g1⟩

theorem rowOk_of_pre [Cert.Pre_finite_inputs.Facts] (a0 : FVec Ideal Cert.KernelIdeal.S100000x128 .f32) (a1 : IVec Cert.KernelIdeal.S2x1600000 32) (a2 : FVec Ideal Cert.KernelIdeal.S1600000 .f32) (a3 : IVec Cert.KernelIdeal.S100000 32) (a4 : FVec Ideal Cert.KernelIdeal.S128x128 .f32) (a5 : FVec Ideal Cert.KernelIdeal.S128 .f32) (a6 : FVec Ideal Cert.KernelIdeal.S128x128 .f32) (a7 : FVec Ideal Cert.KernelIdeal.S128 .f32) (a8 : FVec Ideal Cert.KernelIdeal.S128x128 .f32) (a9 : FVec Ideal Cert.KernelIdeal.S128 .f32)
    (hpre : Cert.Pre_finite_inputs.fn (F := Ideal) a0 a1 a2 a3 a4 a5 a6 a7 a8 a9 = (fun _ => 1#1)) : Cert.KV.RowOk a1 := by
  have e := congrFun hpre ValueIdx.ix0
  unfold Cert.Pre_finite_inputs.fn Cert.Pre_finite_inputs.fn_part1 at e
  exact rowOk_of_part2 a1 a9 _ e

end Cert.Bridge

end
-- ==== Proof.LibScatterGather.lean ====
/-
  StableHLO's gather and scatter-add READ AT AN INDEX, for the two layouts an embedding-style program prints:
  a table of rows [N × C] (or a vector [N]) addressed by an [n × 1] column of positions.

  * the row gather: result row e is the table's row at the position read signed and clamped into the table;
  * the scatter's landing index decoded: update row e lands in table row p exactly when its position, read signed,
    is p (an update whose position is outside the table lands nowhere), the column kept;
  * the scatter-add at the exact instance: the operand's element plus the sum of the update rows whose position
    is that element's row.
-/
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Idealize.ShloMosaic.ScatterGather

open Idealize.ShloMosaic Idealize.ShloMosaic.ValueIdx

/-- Axes 0 and 1 of a shape differ (stated through the underlying naturals, so it holds at any rank written
    with variables in it). -/
theorem fin_zero_ne_one {r : Nat} (h0 : 0 < r) (h1 : 1 < r) : (⟨0, h0⟩ : Fin r) ≠ ⟨1, h1⟩ :=
  fun h => Nat.zero_ne_one (congrArg Fin.val h)

/-! ## The row gather -/

/-- THE ROW GATHER. `table[pos]` over a table of rows [N × C] at an [n × 1] column of positions: operand axis 0
    collapsed and start-indexed, axis 1 the one offset axis (a whole row is the slice), no batching axes, the index
    vector on axis 1 of the positions. Result element (e, f) is the table at row `pos e` — read SIGNED and CLAMPED
    into [0, N − 1] — and column f. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (f : Fin C) (hN : 0 < N) :
    Host.gather d x idx (ix2 e f) = x (ix2 ⟨min (idx (ix2 e 0)).toInt.toNat (N - 1), by omega⟩ f) := by
  unfold Host.gather
  congr 1
  funext a
  apply Fin.ext
  have hb : ∀ a, a ∉ d.operandBatchingDims := by intro a; rw [hob]; exact List.not_mem_nil
  -- the result's one batch axis is axis 0, its one offset axis is axis 1
  have hbd : ∀ y ∈ d.batchDims, y = 0 := by
    show ∀ y ∈ Shape.kept _ d.offsetDims, y = 0
    rw [hoff]; intro y hy; exact List.mem_singleton.1 hy
  have hod : ∀ y ∈ d.offsetDims, y = 1 := by rw [hoff]; intro y hy; exact List.mem_singleton.1 hy
  -- the operand's one kept axis is axis 1
  have hsk : d.sKept = [1] := by
    show Shape.kept _ (d.collapsedSliceDims ++ d.operandBatchingDims) = _; rw [hcoll, hob]; rfl
  match a with
  | ⟨0, _⟩ =>
    -- axis 0: the clamped start, nothing added
    have hk : (0 : Fin 2) ∉ d.sKept := by
      rw [hsk, List.mem_singleton]; exact fin_zero_ne_one _ _
    have hm : (0 : Fin 2) ∈ d.startIndexMap := by rw [hsim]; exact List.mem_singleton.mpr rfl
    have hsl : d.sliceSizes 0 = 1 := d.slice_collapsed 0 (by rw [hcoll]; exact List.mem_singleton.mpr rfl)
    have hlen : d.startIndexMap.length = 1 := by rw [hsim]; rfl
    -- the start index of result row e is read at (e, 0)
    have hsi : ∀ c : Fin d.startIndexMap.length, d.siIdx (ix2 e f) c = ix2 e 0 := by
      intro c
      funext b
      match b with
      | ⟨0, _⟩ =>
        unfold GatherDims.siIdx
        rw [dif_neg (by rw [hivd]; exact Nat.zero_ne_one)]
        unfold GatherDims.siCoord
        apply Fin.ext
        simp only [Fin.val_cast]
        rw [hbd _ (List.getElem_mem _)]
        rfl
      | ⟨1, _⟩ =>
        unfold GatherDims.siIdx
        rw [dif_pos (by rw [hivd])]
        apply Fin.ext
        show c.val = 0
        have := c.isLt; omega
    show d.start (ix2 e f) idx 0 + d.batchCoord (ix2 e f) 0 + d.offCoord (ix2 e f) 0
      = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, hsi, hsl]
    rfl
  | ⟨1, _⟩ =>
    -- axis 1: no start, the offset coordinate is the result's column
    have hk : (1 : Fin 2) ∈ d.sKept := by rw [hsk]; exact List.mem_singleton.mpr rfl
    have hm : (1 : Fin 2) ∉ d.startIndexMap := by
      rw [hsim, List.mem_singleton]; exact (fin_zero_ne_one _ _).symm
    show d.start (ix2 e f) idx 1 + d.batchCoord (ix2 e f) 1 + d.offCoord (ix2 e f) 1 = f.val
    rw [GatherDims.batchCoord_eq_zero _ _ _ (hb 1), Nat.add_zero]
    unfold GatherDims.start
    rw [dif_neg hm, Nat.zero_add]
    unfold GatherDims.offCoord
    rw [dif_pos hk, hod _ (List.getElem_mem _)]
    rfl

/-! ## Where an update lands -/

/-- THE ROW SCATTER'S LANDING INDEX. Updates [n × C] scattered into a table of rows [N × C] at an [n × 1] column of
    positions: the updates' axis 1 is the window axis and goes to operand axis 1, operand axis 0 is inserted and is the
    one the positions address, the index vector on axis 1 of the positions. Update element (e, f) lands at table
    element (p, q) exactly when row e's position, read SIGNED (not clamped), is p, and the column is kept; a position
    outside the table lands nowhere. -/
theorem scatter_rows_resultIdx {N C n w : Nat} (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (f : Fin C) (p : Fin N) (q : Fin C) :
    d.resultIdx? (ix2 e f) idx = some (ix2 p q) ↔ (idx (ix2 e 0)).toInt = (p.val : ℤ) ∧ f = q := by
  have hus : ∀ y ∈ d.uScatter, y = 0 := by
    show ∀ y ∈ Shape.kept _ d.updateWindowDims, y = 0
    rw [huw]; intro y hy; exact List.mem_singleton.1 hy
  have huwm : ∀ y ∈ d.updateWindowDims, y = 1 := by rw [huw]; intro y hy; exact List.mem_singleton.1 hy
  have hsk : d.sKept = [1] := by
    show Shape.kept _ d.insertedWindowDims = _; rw [hiw]; rfl
  have hlen : d.scatterDimsToOperandDims.length = 1 := by rw [hsd]; rfl
  have hsi : ∀ c : Fin d.scatterDimsToOperandDims.length, d.siIdx (ix2 e f) c = ix2 e 0 := by
    intro c
    funext b
    match b with
    | ⟨0, _⟩ =>
      unfold ScatterDims.siIdx
      rw [dif_neg (by rw [hivd]; exact Nat.zero_ne_one)]
      unfold ScatterDims.siCoord
      apply Fin.ext
      simp only [Fin.val_cast]
      rw [hus _ (List.getElem_mem _)]
      rfl
    | ⟨1, _⟩ =>
      unfold ScatterDims.siIdx
      rw [dif_pos (by rw [hivd])]
      apply Fin.ext
      show c.val = 0
      have := c.isLt; omega
  have hs0 : d.start (ix2 e f) idx 0 = (idx (ix2 e 0)).toInt := by
    unfold ScatterDims.start
    rw [dif_pos (by rw [hsd]; exact List.mem_singleton.mpr rfl), hsi]
  have hs1 : d.start (ix2 e f) idx 1 = 0 := by
    unfold ScatterDims.start
    rw [dif_neg (by rw [hsd, List.mem_singleton]; exact (fin_zero_ne_one _ _).symm)]
  have hw0 : d.window (ix2 e f) 0 = 0 := by
    unfold ScatterDims.window
    rw [dif_neg (by rw [hsk, List.mem_singleton]; exact fin_zero_ne_one _ _)]
  have hw1 : d.window (ix2 e f) 1 = f.val := by
    unfold ScatterDims.window
    rw [dif_pos (by rw [hsk]; exact List.mem_singleton.mpr rfl), huwm _ (List.getElem_mem _)]
    rfl
  unfold ScatterDims.resultIdx?
  split
  · rename_i h
    rw [Option.some.injEq]
    constructor
    · intro hg
      have h0 := congrArg Fin.val (congrFun hg 0)
      have h1 := congrArg Fin.val (congrFun hg 1)
      have g0 := (h 0).1
      simp only [hs0, hs1, hw0, hw1] at h0 h1 g0
      change (_ : ℤ).toNat = p.val at h0
      change (_ : ℤ).toNat = q.val at h1
      refine ⟨by omega, Fin.ext (by omega)⟩
    · rintro ⟨hi, hf⟩
      funext a
      apply Fin.ext
      match a with
      | ⟨0, _⟩ =>
        show (d.start (ix2 e f) idx 0 + (d.window (ix2 e f) 0 : ℤ)).toNat = p.val
        rw [hs0, hw0, hi]; simp
      | ⟨1, _⟩ =>
        show (d.start (ix2 e f) idx 1 + (d.window (ix2 e f) 1 : ℤ)).toNat = q.val
        rw [hs1, hw1, hf]; simp
  · rename_i h
    constructor
    · intro hg; exact absurd hg (by simp)
    · rintro ⟨hi, hf⟩
      exfalso; apply h
      intro a
      match a with
      | ⟨0, _⟩ =>
        show 0 ≤ d.start (ix2 e f) idx 0 + (d.window (ix2 e f) 0 : ℤ) ∧ d.start (ix2 e f) idx 0 + (d.window (ix2 e f) 0 : ℤ) < (N : ℤ)
        rw [hs0, hw0, hi]
        have := p.isLt
        constructor <;> omega
      | ⟨1, _⟩ =>
        show 0 ≤ d.start (ix2 e f) idx 1 + (d.window (ix2 e f) 1 : ℤ) ∧ d.start (ix2 e f) idx 1 + (d.window (ix2 e f) 1 : ℤ) < (C : ℤ)
        rw [hs1, hw1]
        have := f.isLt
        constructor <;> omega

/-- THE VECTOR SCATTER'S LANDING INDEX. Updates [n] scattered into a vector [N] at an [n × 1] column of positions (no window
    axes, the operand's one axis inserted and addressed by the positions): update e lands at element p exactly when
    its position, read SIGNED, is p. -/
theorem scatter_vec_resultIdx {N n w : Nat} (d : ScatterDims ⟨1, ![N]⟩ ⟨2, ![n, 1]⟩ ⟨1, ![n]⟩)
    (hiw : d.insertedWindowDims = [0])
    (hsd : d.scatterDimsToOperandDims = [0]) (hivd : d.indexVectorDim = 1)
    (idx : IVec ⟨2, ![n, 1]⟩ w) (e : Fin n) (p : Fin N) :
    d.resultIdx? (ix1 e) idx = some (ix1 p) ↔ (idx (ix2 e 0)).toInt = (p.val : ℤ) := by
  have hsk : d.sKept = [] := by
    show Shape.kept _ d.insertedWindowDims = _; rw [hiw]; rfl
  have hlen : d.scatterDimsToOperandDims.length = 1 := by rw [hsd]; rfl
  have hsi : ∀ c : Fin d.scatterDimsToOperandDims.length, d.siIdx (ix1 e) c = ix2 e 0 := by
    intro c
    funext b
    match b with
    | ⟨0, _⟩ =>
      unfold ScatterDims.siIdx
      rw [dif_neg (by rw [hivd]; exact Nat.zero_ne_one)]
      unfold ScatterDims.siCoord
      apply Fin.ext
      simp only [Fin.val_cast]
      have hX : ∀ X : Fin 1, ((ix1 e : (⟨1, ![n]⟩ : Shape).Idx) X).val = e.val := fun X => by
        have hX : X = 0 := Subsingleton.elim _ _
        subst hX; rfl
      exact hX _
    | ⟨1, _⟩ =>
      unfold ScatterDims.siIdx
      rw [dif_pos (by rw [hivd])]
      apply Fin.ext
      show c.val = 0
      have := c.isLt; omega
  have hs0 : d.start (ix1 e) idx 0 = (idx (ix2 e 0)).toInt := by
    unfold ScatterDims.start
    rw [dif_pos (by rw [hsd]; exact List.mem_singleton.mpr rfl), hsi]
  have hw0 : d.window (ix1 e) 0 = 0 := by
    unfold ScatterDims.window
    rw [dif_neg (by rw [hsk]; exact List.not_mem_nil)]
  unfold ScatterDims.resultIdx?
  split
  · rename_i h
    rw [Option.some.injEq]
    constructor
    · intro hg
      have h0 := congrArg Fin.val (congrFun hg 0)
      have g0 := (h 0).1
      simp only [hs0, hw0] at h0 g0
      change (_ : ℤ).toNat = p.val at h0
      omega
    · intro hi
      funext a
      obtain rfl : a = 0 := Subsingleton.elim _ _
      apply Fin.ext
      show (d.start (ix1 e) idx 0 + (d.window (ix1 e) 0 : ℤ)).toNat = p.val
      rw [hs0, hw0, hi]; simp
  · rename_i h
    constructor
    · intro hg; exact absurd hg (by simp)
    · intro hi
      exfalso; apply h
      intro a
      obtain rfl : a = 0 := Subsingleton.elim _ _
      show 0 ≤ d.start (ix1 e) idx 0 + (d.window (ix1 e) 0 : ℤ) ∧ d.start (ix1 e) idx 0 + (d.window (ix1 e) 0 : ℤ) < (N : ℤ)
      rw [hs0, hw0, hi]
      have := p.isLt
      constructor <;> omega

/-! ## The scatter-add at the exact instance -/

/-- THE SCATTER-ADD READ AT AN INDEX, at the exact instance: the operand's element plus the sum of the update
    elements that land on it. -/
theorem scatterAdd_apply {s si u : Shape} {w : Nat} {φ : FTy} (d : ScatterDims s si u) (x : FVec Ideal s φ)
    (idx : IVec si w) (upd : FVec Ideal u φ) (i : s.Idx) :
    Host.scatterAdd (F := Ideal) d x idx upd i
      = x i + ∑ j ∈ Finset.univ.filter (fun j => d.resultIdx? j idx = some i), upd j := rfl

/-- THE ROW SCATTER-ADD: table element (p, q) is the operand's plus the sum, over the update ROWS whose position read
    signed is p, of the update's element in column q. (The update elements landing at (p, q) are those with column q in
    such a row: the sum over them is re-indexed by the row.) -/
theorem scatterAdd_rows {N C n w : Nat} {φ : FTy} (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ)
    (p : Fin N) (q : Fin C) :
    Host.scatterAdd (F := Ideal) d x idx upd (ix2 p q)
      = x (ix2 p q) + ∑ e ∈ Finset.univ.filter (fun e : Fin n => (idx (ix2 e 0)).toInt = (p.val : ℤ)), upd (ix2 e q) := by
  rw [scatterAdd_apply]
  congr 1
  have key : ∀ (a : Fin n) (b : Fin C),
      d.resultIdx? (ix2 a b) idx = some (ix2 p q) ↔ (idx (ix2 a 0)).toInt = (p.val : ℤ) ∧ b = q :=
    fun a b => scatter_rows_resultIdx d huw hiw hsd hivd idx a b p q
  refine Finset.sum_bij' (fun j _ => (j 0 : Fin n)) (fun e _ => ix2 e q) ?_ ?_ ?_ ?_ ?_
  · intro j hj
    obtain ⟨a, b, rfl⟩ : ∃ (a : Fin n) (b : Fin C), j = ix2 a b := ⟨j 0, j 1, eq_ix2 j⟩
    exact Finset.mem_filter.2 ⟨Finset.mem_univ _, ((key a b).1 (Finset.mem_filter.1 hj).2).1⟩
  · intro e he
    exact Finset.mem_filter.2 ⟨Finset.mem_univ _, (key e q).2 ⟨(Finset.mem_filter.1 he).2, rfl⟩⟩
  · intro j hj
    obtain ⟨a, b, rfl⟩ : ∃ (a : Fin n) (b : Fin C), j = ix2 a b := ⟨j 0, j 1, eq_ix2 j⟩
    have hq : b = q := ((key a b).1 (Finset.mem_filter.1 hj).2).2
    show ix2 a q = ix2 a b
    rw [hq]
  · intro e he; rfl
  · intro j hj
    obtain ⟨a, b, rfl⟩ : ∃ (a : Fin n) (b : Fin C), j = ix2 a b := ⟨j 0, j 1, eq_ix2 j⟩
    have hq : b = q := ((key a b).1 (Finset.mem_filter.1 hj).2).2
    show upd (ix2 a b) = upd (ix2 a q)
    rw [hq]

/-- THE VECTOR SCATTER-ADD: element p is the operand's plus the sum of the updates whose position read signed is p. -/
theorem scatterAdd_vec {N n w : Nat} {φ : FTy} (d : ScatterDims ⟨1, ![N]⟩ ⟨2, ![n, 1]⟩ ⟨1, ![n]⟩)
    (hiw : d.insertedWindowDims = [0])
    (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (p : Fin N) :
    Host.scatterAdd (F := Ideal) d x idx upd (ix1 p)
      = x (ix1 p) + ∑ e ∈ Finset.univ.filter (fun e : Fin n => (idx (ix2 e 0)).toInt = (p.val : ℤ)), upd (ix1 e) := by
  rw [scatterAdd_apply]
  congr 1
  have key : ∀ a : Fin n, d.resultIdx? (ix1 a) idx = some (ix1 p) ↔ (idx (ix2 a 0)).toInt = (p.val : ℤ) :=
    fun a => scatter_vec_resultIdx d hiw hsd hivd idx a p
  refine Finset.sum_bij' (fun j _ => (j 0 : Fin n)) (fun e _ => ix1 e) ?_ ?_ ?_ ?_ ?_
  · intro j hj
    obtain ⟨a, rfl⟩ : ∃ a : Fin n, j = ix1 a := ⟨j 0, eq_ix1 j⟩
    exact Finset.mem_filter.2 ⟨Finset.mem_univ _, (key a).1 (Finset.mem_filter.1 hj).2⟩
  · intro e he
    exact Finset.mem_filter.2 ⟨Finset.mem_univ _, (key e).2 (Finset.mem_filter.1 he).2⟩
  · intro j hj
    obtain ⟨a, rfl⟩ : ∃ a : Fin n, j = ix1 a := ⟨j 0, eq_ix1 j⟩
    rfl
  · intro e he; rfl
  · intro j hj
    obtain ⟨a, rfl⟩ : ∃ a : Fin n, j = ix1 a := ⟨j 0, eq_ix1 j⟩
    rfl

end Idealize.ShloMosaic.ScatterGather
-- ==== Proof.NodeAgree.lean ====
/-
  The padded node arrays agree with the reference's on the 100000 real nodes, layer by layer, when every input edge's
  source is a node.  One layer: the matrix product is row by row, so rows that agree give rows that agree; an edge's
  source row (in range, so neither wrapped nor clamped on either side) is then the same row; an update lands on a real
  node's row exactly when its target is that node, whichever the number of rows scattered into; bias and positive part
  are pointwise.
-/
import proofs.«407808_j56547539419677_2_alg».proof.Proof.Spec
import proofs.«407808_j56547539419677_2_alg».proof.Proof.LibScatterGather
import proofs.«407808_j56547539419677_2_alg».proof.Proof.Gen.ReferenceIdeal.Read
import Idealize.ShloMosaic.Lib.KernelVsHost
import Idealize.ShloMosaic.Lib.Pipeline.Value
import Idealize.ShloMosaic.Lib.StableHlo.Predicate
import Idealize.ShloMosaic.Lib.ValueIdx

noncomputable section

open scoped BigOperators

namespace Cert.Bridge

open Idealize.ShloMosaic Idealize.ShloMosaic.ValueIdx Idealize.ShloMosaic.ScatterGather

variable (a0 : FVec Ideal Cert.KernelIdeal.S100000x128 .f32) (a1 : IVec Cert.KernelIdeal.S2x1600000 32) (a2 : FVec Ideal Cert.KernelIdeal.S1600000 .f32) (a3 : IVec Cert.KernelIdeal.S100000 32)
  (a4 : FVec Ideal Cert.KernelIdeal.S128x128 .f32) (a5 : FVec Ideal Cert.KernelIdeal.S128 .f32) (a6 : FVec Ideal Cert.KernelIdeal.S128x128 .f32) (a7 : FVec Ideal Cert.KernelIdeal.S128 .f32)
  (a8 : FVec Ideal Cert.KernelIdeal.S128x128 .f32) (a9 : FVec Ideal Cert.KernelIdeal.S128 .f32)

/-! ## Words: an index that reads non-negative is not wrapped -/

/-- The wrap of a negative index by the table's length leaves a word that reads non-negative alone. -/
theorem wrap_of_nonneg (v n : BitVec 32) (hv : 0 ≤ v.toInt) :
    Scalar.select (IntOp.cmpi .slt v 0#32) (IntOp.addi v n) v = v := by
  have hc : IntOp.cmpi .slt v 0#32 = 0#1 := by
    apply eq_zero_of_ne_one
    intro h1
    have h2 : BitVec.ofBool (v.slt 0#32) = 1#1 := h1
    rw [StableHlo.Predicate.ofBool_eq_one_iff] at h2
    have h0 : (0#32 : BitVec 32).toInt = 0 := by decide
    simp only [BitVec.slt, decide_eq_true_eq, h0] at h2
    omega
  rw [hc]
  exact select_zero _ _

/-! ## The edge sources: an input edge's is the edge list's, a self loop's is its node -/

/-- Below 1600000 the source list reads row 0 of the edge list. -/
theorem rowK_input (e : Fin 1700000) (he : e.val < 1600000) :
    Cert.KV.rowK a1 (ix1 e) = a1 (ix2 (0 : Fin 2) (⟨e.val, he⟩ : Fin 1600000)) := by
  unfold Cert.KV.rowK
  refine (concatenate_pair_apply_left (s₁ := Cert.KernelIdeal.S1600000) (s₂ := Cert.KernelIdeal.S100000)
    (0 : Fin Cert.KernelIdeal.S1700000.rank) _ _ _ (ix1 e) rfl
    (ix1 (⟨e.val, he⟩ : Fin 1600000)) (fun b => match b with | ⟨0, _⟩ => rfl)).trans ?_
  refine (shapeCast_apply _ _ (ix1 (⟨e.val, he⟩ : Fin 1600000)) (ix2 (0 : Fin 1) (⟨e.val, he⟩ : Fin 1600000))
    (by rewrite [Shape.rowMajor_val_two, Shape.rowMajor_val_one]; show 0 * 1600000 + e.val = e.val; omega)).trans ?_
  exact extractStridedSlice_apply ![0, 0] a1 _ (ix2 (0 : Fin 1) (⟨e.val, he⟩ : Fin 1600000))
    (ix2 (0 : Fin 2) (⟨e.val, he⟩ : Fin 1600000)) (fun a => match a with
      | ⟨0, _⟩ => by show (0 : Nat) = 0 + 0; rfl
      | ⟨1, _⟩ => by show e.val = 0 + e.val; omega)

/-- From 1600000 on it reads the self loop's node, the position less 1600000. -/
theorem rowK_loop (e : Fin 1700000) (he : 1600000 ≤ e.val) :
    Cert.KV.rowK a1 (ix1 e) = BitVec.ofNat 32 (e.val - 1600000) := by
  unfold Cert.KV.rowK
  exact concatenate_pair_apply_right (s₁ := Cert.KernelIdeal.S1600000) (s₂ := Cert.KernelIdeal.S100000)
    (0 : Fin Cert.KernelIdeal.S1700000.rank) _ _ _ (ix1 e) rfl rfl
    (ix1 (⟨e.val - 1600000, by have := e.isLt; omega⟩ : Fin 100000))
    (fun b hb => absurd (Fin.ext (by have hb1 : b.val < 1 := b.isLt; show b.val = 0; omega)) hb)
    (by show e.val - 1600000 + 1600000 = e.val; omega)

/-- Every edge's source, read signed, is a node. -/
theorem rowK_range (h : Cert.KV.RowOk a1) (e : Fin 1700000) :
    0 ≤ (Cert.KV.rowK a1 (ix1 e)).toInt ∧ (Cert.KV.rowK a1 (ix1 e)).toInt < 100000 := by
  by_cases he : e.val < 1600000
  · rw [rowK_input a1 e he]
    exact h ⟨e.val, he⟩
  · have hlt := e.isLt
    rw [rowK_loop a1 e (by omega), StableHlo.Predicate.toInt_ofNat_small _ (by omega)]
    constructor <;> omega

/-! ## A row gather at a wrapped, in-range position reads that row, whatever the table's length -/

/-- The row gather of a table of `N ≥ 100000` rows at an edge whose position column holds a word reading in
    [0, 100000): neither the wrap nor the clamp binds, and the row read is the position's. -/
theorem gather_in_range {α : Type} {N C : Nat} (hN : 100000 ≤ N)
    (dG : GatherDims ⟨2, ![N, C]⟩ ⟨2, ![1700000, 1]⟩ ⟨2, ![1700000, C]⟩)
    (hoff : dG.offsetDims = [1]) (hcoll : dG.collapsedSliceDims = [0]) (hob : dG.operandBatchingDims = [])
    (hsim : dG.startIndexMap = [0]) (hivd : dG.indexVectorDim = 1)
    (hb : (⟨1, ![1700000]⟩ : Shape).BroadcastsInDim ⟨2, ![1700000, 1]⟩ ![0])
    (x : (⟨2, ![N, C]⟩ : Shape).Idx → α) (W v : IVec ⟨1, ![1700000]⟩ 32) (e : Fin 1700000) (f : Fin C)
    (hW : W (ix1 e) = v (ix1 e)) (hv0 : 0 ≤ (v (ix1 e)).toInt) (hv1 : (v (ix1 e)).toInt < 100000) :
    Host.gather dG x (broadcastInDim ⟨2, ![1700000, 1]⟩ ![0] hb W) (ix2 e f)
      = x (ix2 (⟨(v (ix1 e)).toInt.toNat, by omega⟩ : Fin N) f) := by
  refine (gather_rows dG hoff hcoll hob hsim hivd x _ e f (by omega)).trans ?_
  have hi : broadcastInDim ⟨2, ![1700000, 1]⟩ ![0] hb W (ix2 e (0 : Fin 1)) = W (ix1 e) :=
    broadcastInDim_apply _ hb W (ix2 e (0 : Fin 1)) (ix1 e) (fun a => match a with
      | ⟨0, _⟩ => by show e.val = if (1700000 : Nat) = 1 then 0 else e.val; rw [if_neg (by decide)])
  exact congrArg (fun s : Fin N => x (ix2 s f)) (Fin.ext (by
    show min (broadcastInDim ⟨2, ![1700000, 1]⟩ ![0] hb W (ix2 e (0 : Fin 1))).toInt.toNat (N - 1) = (v (ix1 e)).toInt.toNat
    rw [hi, hW]
    omega))

/-! ## The matrix product, row by row, on both sides -/

/-- The padded product at (s, d) is row s of the left operand against column d of the weights. -/
theorem mmOut_read (A : FVec Ideal Cert.KernelIdeal.S100096x128 .f32) (w : FVec Ideal Cert.KernelIdeal.S128x128 .f32)
    (s : Fin 100096) (d : Fin 128) :
    Cert.KV.mmOut A w (ix2 s d) = ∑ k : Fin 128, A (ix2 s k) * w (ix2 k d) := rfl

/-- So is the reference's. -/
theorem dot_read (B : FVec Ideal Cert.ReferenceIdeal.S100000x128 .f32) (w : FVec Ideal Cert.ReferenceIdeal.S128x128 .f32)
    (s : Fin 100000) (d : Fin 128) :
    Cert.ReferenceIdeal.Read.val_main_v33 (F := Ideal) B w (ix2 s d) = ∑ k : Fin 128, B (ix2 s k) * w (ix2 k d) := by
  rw [Cert.ReferenceIdeal.Read.val_main_v33_apply]
  refine Finset.sum_congr rfl fun k _ => ?_
  have el : Cert.ReferenceIdeal.Read.lidx_main_v33 (ix2 s d) k = ix2 s k :=
    funext fun a => match a with | ⟨0, _⟩ => rfl | ⟨1, _⟩ => rfl
  have er : Cert.ReferenceIdeal.Read.ridx_main_v33 (ix2 s d) k = ix2 k d :=
    funext fun a => match a with | ⟨0, _⟩ => rfl | ⟨1, _⟩ => rfl
  rw [el, er]

/-! ## One layer of the reference, over any node array -/

/-- Message passing and bias over the reference's 100000 rows: the projected rows gathered at the sources (wrapped by
    100000), scaled by the normalised weights, added up at the targets into 100000 rows of zeros, plus the bias. The edge
    list, its normalised weights and the wrap are the padded program's own terms (the two programs compute them by the
    same operations). -/
def layerR (B : FVec Ideal Cert.ReferenceIdeal.S100000x128 .f32) (w : FVec Ideal Cert.ReferenceIdeal.S128x128 .f32)
    (b : FVec Ideal Cert.ReferenceIdeal.S128 .f32) : FVec Ideal Cert.ReferenceIdeal.S100000x128 .f32 :=
  addf (Host.scatterAdd Cert.ReferenceIdeal.scatter_S100000x128_S1700000x1_S1700000x128_1_0_0_1
      (broadcastInDim Cert.ReferenceIdeal.S100000x128 ![] Cert.ReferenceIdeal.Gen.bcast_S_S100000x128 (constant (F := Ideal) Cert.ReferenceIdeal.S_ .f32 0x00000000#32))
      (broadcastInDim Cert.ReferenceIdeal.S1700000x1 ![0] Cert.ReferenceIdeal.Gen.bcast_S1700000_S1700000x1_0 (Cert.KV.colK a1))
      (mulf (broadcastInDim Cert.ReferenceIdeal.S1700000x128 ![0, 1] Cert.ReferenceIdeal.Gen.bcast_S1700000x1_S1700000x128_0_1
          (broadcastInDim Cert.ReferenceIdeal.S1700000x1 ![0] Cert.ReferenceIdeal.Gen.bcast_S1700000_S1700000x1_0 (Cert.KV.normK a1 a2)))
        (Host.gather Cert.ReferenceIdeal.gather_S100000x128_S1700000x1_S1700000x128_1_0_n_n_0_1_1128 (Cert.ReferenceIdeal.Read.val_main_v33 (F := Ideal) B w)
          (broadcastInDim Cert.ReferenceIdeal.S1700000x1 ![0] Cert.ReferenceIdeal.Gen.bcast_S1700000_S1700000x1_0 (Cert.KV.wrapK 100000#32 (Cert.KV.rowK a1))))))
    (broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b))

/-- The reference's three layers are that term, at the inputs, at layer 1's result and at layer 2's. -/
theorem v49_eq : Cert.ReferenceIdeal.Read.val_main_v49 (F := Ideal) a0 a1 a2 a4 a5 = layerR a1 a2 a0 a4 a5 := rfl
theorem v78_eq : Cert.ReferenceIdeal.Read.val_main_v78 (F := Ideal) a0 a1 a2 a4 a5 a6 a7
    = layerR a1 a2 (Cert.ReferenceIdeal.Read.val_main_v50 (F := Ideal) a0 a1 a2 a4 a5) a6 a7 := rfl
theorem v107_eq : Cert.ReferenceIdeal.Read.val_main_v107 (F := Ideal) a0 a1 a2 a4 a5 a6 a7 a8 a9
    = layerR a1 a2 (Cert.ReferenceIdeal.Read.val_main_v79 (F := Ideal) a0 a1 a2 a4 a5 a6 a7) a8 a9 := rfl

/-! ## The layer lemma -/

/-- ONE LAYER. Node arrays that agree on the 100000 real rows give layer results that agree there. -/
theorem layer_agree (h : Cert.KV.RowOk a1) (A : FVec Ideal Cert.KernelIdeal.S100096x128 .f32)
    (B : FVec Ideal Cert.ReferenceIdeal.S100000x128 .f32)
    (hAB : ∀ (r : Fin 100000) (d : Fin 128), A (ix2 (⟨r.val, by have := r.isLt; omega⟩ : Fin 100096) d) = B (ix2 r d))
    (w : FVec Ideal Cert.KernelIdeal.S128x128 .f32) (b : FVec Ideal Cert.KernelIdeal.S128 .f32) (r : Fin 100000) (d : Fin 128) :
    Cert.KV.convK (Cert.KV.rowK a1) (Cert.KV.colK a1) (Cert.KV.normK a1 a2) (Cert.KV.mmOut A w) b
        (ix2 (⟨r.val, by have := r.isLt; omega⟩ : Fin 100096) d)
      = layerR a1 a2 B w b (ix2 r d) := by
  unfold Cert.KV.convK layerR
  rw [addf_apply, addf_apply]
  refine congrArg₂ (· + ·) ?_ ?_
  · -- the two scatter-adds: the same zero, the same edges land on the row, the same summands
    rw [scatterAdd_rows Cert.KernelIdeal.scatter_S100096x128_S1700000x1_S1700000x128_1_0_0_1 rfl rfl rfl rfl,
      scatterAdd_rows Cert.ReferenceIdeal.scatter_S100000x128_S1700000x1_S1700000x128_1_0_0_1 rfl rfl rfl rfl]
    refine congrArg₂ (· + ·) rfl (Finset.sum_congr rfl fun e _ => ?_)
    rw [mulf_apply, mulf_apply]
    refine congrArg₂ (· * ·) rfl ?_
    have hr := rowK_range a1 h e
    have hgK := gather_in_range (by omega : 100000 ≤ 100096)
      Cert.KernelIdeal.gather_S100096x128_S1700000x1_S1700000x128_1_0_n_n_0_1_1128 rfl rfl rfl rfl rfl
      Cert.KernelIdeal.Gen.bcast_S1700000_S1700000x1_0 (Cert.KV.mmOut A w) (Cert.KV.wrapK 100096#32 (Cert.KV.rowK a1)) (Cert.KV.rowK a1) e d
      (wrap_of_nonneg _ _ hr.1) hr.1 hr.2
    have hgR := gather_in_range (le_refl 100000)
      Cert.ReferenceIdeal.gather_S100000x128_S1700000x1_S1700000x128_1_0_n_n_0_1_1128 rfl rfl rfl rfl rfl
      Cert.ReferenceIdeal.Gen.bcast_S1700000_S1700000x1_0 (Cert.ReferenceIdeal.Read.val_main_v33 (F := Ideal) B w)
      (Cert.KV.wrapK 100000#32 (Cert.KV.rowK a1)) (Cert.KV.rowK a1) e d
      (wrap_of_nonneg _ _ hr.1) hr.1 hr.2
    refine (hgK.trans ?_).trans hgR.symm
    rw [mmOut_read, dot_read]
    exact Finset.sum_congr rfl fun k _ =>
      congrArg (· * w (ix2 k d)) (hAB ⟨(Cert.KV.rowK a1 (ix1 e)).toInt.toNat, by omega⟩ k)
  · -- the bias: column d of it on both sides
    exact (StableHlo.Predicate.bcast_cols _ _ b _ d).trans (StableHlo.Predicate.bcast_cols _ _ b r d).symm

/-! ## The three layers -/

/-- The padded inputs at a real row are the inputs' row. -/
theorem padX_read (r : Fin 100000) (d : Fin 128) :
    Cert.KV.padX a0 (ix2 (⟨r.val, by have := r.isLt; omega⟩ : Fin 100096) d) = a0 (ix2 r d) := by
  unfold Cert.KV.padX
  exact pad_apply_of_inside ![0, 0] ![96, 0] ![0, 0] a0 _ _ _ (ix2 (⟨r.val, by have := r.isLt; omega⟩ : Fin 100096) d) (ix2 r d)
    (fun a => match a with
      | ⟨0, _⟩ => by show r.val = 0 + r.val * (0 + 1); omega
      | ⟨1, _⟩ => by show d.val = 0 + d.val * (0 + 1); omega)

theorem H1_agree (h : Cert.KV.RowOk a1) (r : Fin 100000) (d : Fin 128) :
    Cert.KV.H1 a0 a1 a2 a4 a5 (ix2 (⟨r.val, by have := r.isLt; omega⟩ : Fin 100096) d) = Cert.ReferenceIdeal.Read.val_main_v50 (F := Ideal) a0 a1 a2 a4 a5 (ix2 r d) := by
  have hl := layer_agree a1 a2 h (Cert.KV.padX a0) a0 (padX_read a0) a4 a5 r d
  unfold Cert.KV.H1 Cert.KV.reluK Cert.ReferenceIdeal.Read.val_main_v50
  rw [maximumf_apply, maximumf_apply, hl, v49_eq]
  rfl

theorem H2_agree (h : Cert.KV.RowOk a1) (r : Fin 100000) (d : Fin 128) :
    Cert.KV.H2 a0 a1 a2 a4 a5 a6 a7 (ix2 (⟨r.val, by have := r.isLt; omega⟩ : Fin 100096) d) = Cert.ReferenceIdeal.Read.val_main_v79 (F := Ideal) a0 a1 a2 a4 a5 a6 a7 (ix2 r d) := by
  have hl := layer_agree a1 a2 h (Cert.KV.H1 a0 a1 a2 a4 a5) (Cert.ReferenceIdeal.Read.val_main_v50 (F := Ideal) a0 a1 a2 a4 a5)
    (H1_agree a0 a1 a2 a4 a5 h) a6 a7 r d
  unfold Cert.KV.H2 Cert.KV.reluK Cert.ReferenceIdeal.Read.val_main_v79
  rw [maximumf_apply, maximumf_apply, hl, v78_eq]
  rfl

theorem H3_agree (h : Cert.KV.RowOk a1) (r : Fin 100000) (d : Fin 128) :
    Cert.KV.H3 a0 a1 a2 a4 a5 a6 a7 a8 a9 (ix2 (⟨r.val, by have := r.isLt; omega⟩ : Fin 100096) d) = Cert.ReferenceIdeal.Read.val_main_v107 (F := Ideal) a0 a1 a2 a4 a5 a6 a7 a8 a9 (ix2 r d) := by
  have hl := layer_agree a1 a2 h (Cert.KV.H2 a0 a1 a2 a4 a5 a6 a7) (Cert.ReferenceIdeal.Read.val_main_v79 (F := Ideal) a0 a1 a2 a4 a5 a6 a7)
    (H2_agree a0 a1 a2 a4 a5 a6 a7 h) a8 a9 r d
  unfold Cert.KV.H3
  rw [hl, v107_eq]

end Cert.Bridge

end
-- ==== Proof.PoolAgree.lean ====
/-
  The one-hot graph sums over the padded node array, the two accumulators added and divided by the clipped graph sizes,
  ARE the reference's scatter of the real nodes' rows by graph id divided by the same sizes, whenever the padded array
  agrees with the reference's on the 100000 real nodes: the (accumulator, row block, row) triples run once over the
  100096 padded nodes; a padding node carries the graph id −1 and belongs to no graph; a real node's one-hot entry is 1
  exactly where the scatter would land its row.
-/
import proofs.«407808_j56547539419677_2_alg».proof.Proof.Spec
import proofs.«407808_j56547539419677_2_alg».proof.Proof.LibScatterGather
import proofs.«407808_j56547539419677_2_alg».proof.Proof.Gen.ReferenceIdeal.Read
import Idealize.ShloMosaic.Lib.IdealHost
import Idealize.ShloMosaic.Lib.KernelVsHost
import Idealize.ShloMosaic.Lib.ValueLayout
import Idealize.ShloMosaic.Lib.StableHlo.Predicate
import Mathlib.Algebra.BigOperators.Fin

noncomputable section

open scoped BigOperators

namespace Cert.Bridge

open Idealize.ShloMosaic Idealize.ShloMosaic.ValueIdx

/-- The divisors are the same array: the clipped graph sizes, as a column, copied along the features. -/
theorem pool_den (a3 : IVec Cert.KernelIdeal.S100000 32) :
    broadcastInDim Cert.KernelIdeal.S128x128 ![0, 1] Cert.KernelIdeal.Gen.bcast_S128x1_S128x128_0_1 (Cert.KV.cntK a3)
      = Cert.ReferenceIdeal.Read.val_main_v60 (F := Ideal) a3 := rfl

open Cert.KernelIdeal Cert.KernelIdeal.Gen in
theorem lift_eq (h : Shape.Reduces S2x128x128 [0] S128x128) (g d : Fin 128) (c : Fin 2) :
    h.lift (ix2 g d) c = ix3 c g d := by
  funext a
  match a with
  | ⟨0, _⟩ => exact Fin.ext rfl
  | ⟨1, _⟩ => exact Fin.ext rfl
  | ⟨2, _⟩ => exact Fin.ext rfl

/-- The (accumulator, row block, row) triples number the 100096 padded nodes once each. -/
def nodeEquiv : Fin 2 × Fin 17 × Fin 2944 ≃ Fin 100096 where
  toFun p := Cert.KV.nodeOf p.1 p.2.1 p.2.2
  invFun n := (⟨n.val / 50048, by have := n.isLt; omega⟩, ⟨n.val / 2944 % 17, by omega⟩, ⟨n.val % 2944, by omega⟩)
  left_inv := by
    rintro ⟨c, t, j⟩
    have hc := c.isLt; have ht := t.isLt; have hj := j.isLt
    refine Prod.ext (Fin.ext ?_) (Prod.ext (Fin.ext ?_) (Fin.ext ?_))
    · show ((c.val * 17 + t.val) * 2944 + j.val) / 50048 = c.val; omega
    · show ((c.val * 17 + t.val) * 2944 + j.val) / 2944 % 17 = t.val; omega
    · show ((c.val * 17 + t.val) * 2944 + j.val) % 2944 = j.val; omega
  right_inv := by
    intro n
    have hn := n.isLt
    refine Fin.ext ?_
    show (n.val / 50048 * 17 + n.val / 2944 % 17) * 2944 + n.val % 2944 = n.val
    omega

theorem sum_nodeOf {M : Type*} [AddCommMonoid M] (f : Fin 100096 → M) :
    ∑ c : Fin 2, ∑ t : Fin 17, ∑ j : Fin 2944, f (Cert.KV.nodeOf c t j) = ∑ n : Fin 100096, f n := by
  rw [← nodeEquiv.sum_comp f, Fintype.sum_prod_type]
  refine Finset.sum_congr rfl fun c _ => ?_
  rw [Fintype.sum_prod_type]
  rfl

open Cert.KernelIdeal Cert.KernelIdeal.Gen in
theorem pool_num_lhs (A : FVec Ideal S100096x128 .f32) (bp : IVec S1x100096 32) (g d : Fin 128) :
    Host.reduceAdd (Cert.KV.poolOut A bp) (constant (F := Ideal) S_ .f32 0x00000000#32) reducesTo_S2x128x128_S128x128_d0 h_S_ (ix2 g d)
      = ∑ n : Fin 100096, Cert.KV.oneHot g.val (bp (ix2 (0 : Fin 1) n)) * A (ix2 n d) := by
  have h : Shape.Reduces S2x128x128 [0] S128x128 := by decide
  rw [hostReduceAdd_apply, Ideal.hostReduceAdd_single _ h]
  rw [show (constant (F := Ideal) S_ .f32 0x00000000#32) (Shape.Idx.first h_S_) = 0 from Ideal.ofBits_zero_f32, zero_add]
  rw [← sum_nodeOf]
  show ∑ c : Fin 2, Cert.KV.poolOut A bp (h.lift (ix2 g d) c) = _
  refine Finset.sum_congr rfl fun c _ => ?_
  rw [lift_eq]
  rfl

open Cert.KernelIdeal Cert.KernelIdeal.Gen in
/-- The padded graph-id row at a real node is the node's graph id. -/
theorem bp_real (a3 : IVec S100000 32) (r : Fin 100000) (hr : r.val < 100096) :
    Cert.KV.bpK a3 (ix2 (0 : Fin 1) (⟨r.val, hr⟩ : Fin 100096)) = a3 (ix1 r) := by
  unfold Cert.KV.bpK
  refine (shapeCast_a_1a_apply _ shapeCasts_S100096_S1x100096 (0 : Fin 1) (⟨r.val, hr⟩ : Fin 100096)).trans ?_
  exact pad_apply_of_inside _ _ _ a3 _ pads_S100000_S100096_0960 h_S_ _ (ix1 r) (by
    intro a
    have ha : a = 0 := Subsingleton.elim _ _
    subst ha
    show r.val = 0 + r.val * (0 + 1); omega)

open Cert.KernelIdeal Cert.KernelIdeal.Gen in
/-- The padded graph-id row at a padding node is the word of −1. -/
theorem bp_pad (a3 : IVec S100000 32) (n : Fin 100096) (hn : 100000 ≤ n.val) :
    Cert.KV.bpK a3 (ix2 (0 : Fin 1) n) = 4294967295#32 := by
  unfold Cert.KV.bpK
  refine (shapeCast_a_1a_apply _ shapeCasts_S100096_S1x100096 (0 : Fin 1) n).trans ?_
  refine (pad_apply_of_not_inside _ _ _ a3 _ pads_S100000_S100096_0960 h_S_ _ (0 : Fin 1) ?_).trans rfl
  intro hin
  have e : (n.val - 0) / (0 + 1) < 100000 := hin.2.2
  omega

/-- The word of −1 is no graph's id. -/
theorem oneHot_pad (g : Fin 128) : Cert.KV.oneHot g.val 4294967295#32 = 0 := by
  unfold Cert.KV.oneHot
  refine if_neg fun h => ?_
  have h2 := congrArg BitVec.toNat h
  rw [BitVec.toNat_ofNat] at h2
  have hg := g.isLt
  change g.val % 4294967296 = 4294967295 at h2
  omega

/-- The one-hot entry against a word read signed. -/
theorem oneHot_toInt (g : Fin 128) (w : BitVec 32) :
    Cert.KV.oneHot g.val w = if w.toInt = (g.val : ℤ) then 1 else 0 := by
  unfold Cert.KV.oneHot
  have hg : (BitVec.ofNat 32 g.val).toInt = (g.val : ℤ) :=
    StableHlo.Predicate.toInt_ofNat_small g.val (by have := g.isLt; omega)
  by_cases h : w.toInt = (g.val : ℤ)
  · rw [if_pos h, if_pos (BitVec.eq_of_toInt_eq (hg.trans h.symm))]
  · rw [if_neg h, if_neg fun e => h (by rw [← e]; exact hg)]

open Cert.ReferenceIdeal Cert.ReferenceIdeal.Gen in
/-- The reference's scatter of the rows of B by graph id, read at (g, d): the sum of column d over the nodes of graph g. -/
theorem pool_num_rhs (B : FVec Ideal S100000x128 .f32) (a3 : IVec S100000 32) (g d : Fin 128) :
    Host.scatterAdd (F := Ideal) scatter_S128x128_S100000x1_S100000x128_1_0_0_1 (broadcastInDim S128x128 ![] bcast_S_S128x128 (constant (F := Ideal) S_ .f32 0x00000000#32)) (broadcastInDim S100000x1 ![0] bcast_S100000_S100000x1_0 a3) B (ix2 g d)
      = ∑ r : Fin 100000, if (a3 (ix1 r)).toInt = (g.val : ℤ) then B (ix2 r d) else 0 := by
  refine (ScatterGather.scatterAdd_rows (N := 128) (C := 128) (n := 100000) scatter_S128x128_S100000x1_S100000x128_1_0_0_1 rfl rfl rfl rfl _ _ B g d).trans ?_
  have h0 : broadcastInDim S128x128 ![] bcast_S_S128x128 (constant (F := Ideal) S_ .f32 0x00000000#32) (ix2 g d) = 0 :=
    (broadcastInDim_scalar_apply bcast_S_S128x128 _ _).trans Ideal.ofBits_zero_f32
  rw [h0, zero_add, Finset.sum_filter]
  refine Finset.sum_congr rfl fun r _ => ?_
  have hidx : broadcastInDim S100000x1 ![0] bcast_S100000_S100000x1_0 a3 (ix2 r 0) = a3 (ix1 r) :=
    broadcastInDim_apply _ bcast_S100000_S100000x1_0 a3 (ix2 r 0) (ix1 r) (fun a => match a with
      | ⟨0, _⟩ => by show r.val = if (100000 : Nat) = 1 then 0 else r.val; rw [if_neg (by decide)])
  rw [hidx]

open Cert.ReferenceIdeal Cert.ReferenceIdeal.Gen in
theorem pool_agree (A : FVec Ideal Cert.KernelIdeal.S100096x128 .f32) (B : FVec Ideal Cert.ReferenceIdeal.S100000x128 .f32) (a3 : IVec Cert.KernelIdeal.S100000 32)
    (hAB : ∀ (r : Fin 100000) (d : Fin 128), A (ix2 (⟨r.val, by have := r.isLt; omega⟩ : Fin 100096) d) = B (ix2 r d)) :
    Cert.KV.poolDivK (Cert.KV.poolOut A (Cert.KV.bpK a3)) (Cert.KV.cntK a3)
      = Host.divf (Host.scatterAdd (F := Ideal) scatter_S128x128_S100000x1_S100000x128_1_0_0_1 (broadcastInDim S128x128 ![] bcast_S_S128x128 (constant (F := Ideal) S_ .f32 0x00000000#32)) (broadcastInDim S100000x1 ![0] bcast_S100000_S100000x1_0 a3) B)
          (Cert.ReferenceIdeal.Read.val_main_v60 (F := Ideal) a3) := by
  have hnum : Host.reduceAdd (Cert.KV.poolOut A (Cert.KV.bpK a3)) (constant (F := Ideal) Cert.KernelIdeal.S_ .f32 0x00000000#32) Cert.KernelIdeal.Gen.reducesTo_S2x128x128_S128x128_d0 Cert.KernelIdeal.Gen.h_S_
      = Host.scatterAdd (F := Ideal) scatter_S128x128_S100000x1_S100000x128_1_0_0_1 (broadcastInDim S128x128 ![] bcast_S_S128x128 (constant (F := Ideal) S_ .f32 0x00000000#32)) (broadcastInDim S100000x1 ![0] bcast_S100000_S100000x1_0 a3) B := by
    funext i
    obtain ⟨g, d, rfl⟩ : ∃ (g d : Fin 128), i = ix2 g d := ⟨i 0, i 1, eq_ix2 i⟩
    rw [pool_num_lhs, pool_num_rhs]
    refine (Fin.sum_univ_add (a := 100000) (b := 96) _).trans ?_
    have hpad : ∑ k : Fin 96, Cert.KV.oneHot g.val (Cert.KV.bpK a3 (ix2 (0 : Fin 1) (Fin.natAdd 100000 k))) * A (ix2 (Fin.natAdd 100000 k) d) = 0 := by
      refine Finset.sum_eq_zero fun k _ => ?_
      rw [bp_pad a3 (Fin.natAdd 100000 k) (Nat.le_add_right _ _), oneHot_pad, zero_mul]
    rw [hpad, add_zero]
    refine Finset.sum_congr rfl fun r _ => ?_
    show Cert.KV.oneHot g.val (Cert.KV.bpK a3 (ix2 (0 : Fin 1) (⟨r.val, by have := r.isLt; omega⟩ : Fin 100096))) * A (ix2 (⟨r.val, by have := r.isLt; omega⟩ : Fin 100096) d) = _
    rw [bp_real, hAB, oneHot_toInt]
    by_cases h : (a3 (ix1 r)).toInt = (g.val : ℤ)
    · rw [if_pos h, if_pos h, one_mul]
    · rw [if_neg h, if_neg h, zero_mul]
  unfold Cert.KV.poolDivK
  rw [hnum, pool_den a3]

end Cert.Bridge

end
-- ==== Proof.ResultsEq.lean ====
/-
  The three results are the reference's: each layer's graph means over the padded node array equal the reference's
  global mean pool of its own node array, because the two node arrays agree on the 100000 real nodes.
-/
import proofs.«407808_j56547539419677_2_alg».proof.Proof.Spec
import proofs.«407808_j56547539419677_2_alg».proof.Proof.NodeAgree
import proofs.«407808_j56547539419677_2_alg».proof.Proof.PoolAgree
import proofs.«407808_j56547539419677_2_alg».proof.Proof.Gen.ReferenceIdeal.Read

noncomputable section

namespace Cert.Bridge

open Idealize.ShloMosaic Idealize.ShloMosaic.ValueIdx

variable (a0 : FVec Ideal Cert.KernelIdeal.S100000x128 .f32) (a1 : IVec Cert.KernelIdeal.S2x1600000 32) (a2 : FVec Ideal Cert.KernelIdeal.S1600000 .f32) (a3 : IVec Cert.KernelIdeal.S100000 32)
  (a4 : FVec Ideal Cert.KernelIdeal.S128x128 .f32) (a5 : FVec Ideal Cert.KernelIdeal.S128 .f32) (a6 : FVec Ideal Cert.KernelIdeal.S128x128 .f32) (a7 : FVec Ideal Cert.KernelIdeal.S128 .f32)
  (a8 : FVec Ideal Cert.KernelIdeal.S128x128 .f32) (a9 : FVec Ideal Cert.KernelIdeal.S128 .f32)

/-- Graph means after layer 1. -/
theorem out1_eq (h : Cert.KV.RowOk a1) :
    Cert.KV.out1 a0 a1 a2 a3 a4 a5 = Cert.ReferenceIdeal.Read.val_main_v61 (F := Ideal) a0 a1 a2 a3 a4 a5 := by
  unfold Cert.KV.out1
  rw [pool_agree (Cert.KV.H1 a0 a1 a2 a4 a5) (Cert.ReferenceIdeal.Read.val_main_v50 (F := Ideal) a0 a1 a2 a4 a5) a3
    (fun r d => H1_agree a0 a1 a2 a4 a5 h r d)]
  rfl

/-- Graph means after layer 2. -/
theorem out2_eq (h : Cert.KV.RowOk a1) :
    Cert.KV.out2 a0 a1 a2 a3 a4 a5 a6 a7 = Cert.ReferenceIdeal.Read.val_main_v90 (F := Ideal) a0 a1 a2 a3 a4 a5 a6 a7 := by
  unfold Cert.KV.out2
  rw [pool_agree (Cert.KV.H2 a0 a1 a2 a4 a5 a6 a7) (Cert.ReferenceIdeal.Read.val_main_v79 (F := Ideal) a0 a1 a2 a4 a5 a6 a7) a3
    (fun r d => H2_agree a0 a1 a2 a4 a5 a6 a7 h r d)]
  rfl

/-- Graph means after layer 3. -/
theorem out3_eq (h : Cert.KV.RowOk a1) :
    Cert.KV.out3 a0 a1 a2 a3 a4 a5 a6 a7 a8 a9 = Cert.ReferenceIdeal.Read.val_main_v118 (F := Ideal) a0 a1 a2 a3 a4 a5 a6 a7 a8 a9 := by
  unfold Cert.KV.out3
  rw [pool_agree (Cert.KV.H3 a0 a1 a2 a4 a5 a6 a7 a8 a9) (Cert.ReferenceIdeal.Read.val_main_v107 (F := Ideal) a0 a1 a2 a4 a5 a6 a7 a8 a9) a3
    (fun r d => H3_agree a0 a1 a2 a4 a5 a6 a7 a8 a9 h r d)]
  rfl

end Cert.Bridge

end
-- ==== Proof.lean ====
/-
  A three-layer graph convolution with a global mean pool after each layer, computed over node arrays PADDED from 100000
  to 100096 rows, against the same network computed over 100000 rows.

  Each layer projects the node features by the layer's weights (a row-block matrix product), gathers the projected row
  at every edge's source, scales it by the edge's symmetric normalisation dinv[source] · weight · dinv[target], adds
  the scaled rows up at the edge's target, adds the bias and (layers one and two) takes the positive part; the graph
  means are the sums of the nodes' rows by graph id divided by the clipped graph sizes.  The padded program differs
  in three places, none of which shows in a result when every edge's source is a node:
  * the projected table has 96 extra rows, so a source outside [0, 100000) would be wrapped and clamped against 100096
    instead of 100000 — sources are nodes (the precondition), so both gathers read the same row;
  * the targets scatter into 100096 rows — a real node's row receives exactly the edges whose target it is, whatever the
    number of rows; the 96 extra rows are never gathered from and are never pooled;
  * the graph sums are a one-hot product over 2 × 17 row blocks of 2944 padded nodes, the padding carrying the graph
    id −1 — the blocks run once over the 100096 rows, the padding matches no graph, and a real node's one-hot entry is 1
    exactly for the graph its row would be scattered to.
  At the exact instance sums regroup freely (the extended reals are a commutative monoid under +, 0 · x = 0 and
  1 · x = x for every x), so no finiteness is used; the idealization rewrote nothing.
-/
import proofs.«407808_j56547539419677_2_alg».proof.Defs
import proofs.«407808_j56547539419677_2_alg».proof.Proof.Gen.Kernel
import proofs.«407808_j56547539419677_2_alg».proof.Proof.Gen.Kernel.Frame
import proofs.«407808_j56547539419677_2_alg».proof.Proof.Gen.KernelIdeal
import proofs.«407808_j56547539419677_2_alg».proof.Proof.Gen.KernelIdeal.Frame
import proofs.«407808_j56547539419677_2_alg».proof.Proof.Gen.ReferenceIdeal
import proofs.«407808_j56547539419677_2_alg».proof.Proof.Gen.ReferenceIdeal.Run
import proofs.«407808_j56547539419677_2_alg».proof.Proof.Gen.ReferenceIdeal.Read
import proofs.«407808_j56547539419677_2_alg».proof.Proof.Gen.Pre_finite_inputs
import proofs.«407808_j56547539419677_2_alg».proof.Proof.Spec
import proofs.«407808_j56547539419677_2_alg».proof.Proof.RunNamed
import proofs.«407808_j56547539419677_2_alg».proof.Proof.KernelValue
import proofs.«407808_j56547539419677_2_alg».proof.Proof.PreDecode
import proofs.«407808_j56547539419677_2_alg».proof.Proof.ResultsEq
import Idealize.ShloMosaic.Adequacy
import Idealize.ShloMosaic.Init

noncomputable section

namespace Cert.Proof

open Idealize.ShloMosaic Idealize.SL.Sem

/-- The word-level program runs and leaves its arguments as launched (the generated frame). -/
theorem frame_k [Cert.Pre_finite_inputs.Facts] : Cert.frame_Kernel (hKernel := Cert.Kernel.Gen.facts) := fun m ρ _ => Cert.Kernel.Gen.frame m ρ

/-- The idealized program runs and leaves its arguments as launched (the generated frame). -/
theorem frame_ki [Cert.Pre_finite_inputs.Facts] : Cert.frame_KernelIdeal (hKernelIdeal := Cert.KernelIdeal.Gen.facts) := fun m ρ _ => Cert.KernelIdeal.Gen.frame m ρ

/-- The reference runs and leaves its arguments as launched: its generated run with the results dropped. -/
theorem frame_ri [Cert.Pre_finite_inputs.Facts] : Cert.frame_ReferenceIdeal (hReferenceIdeal := Cert.ReferenceIdeal.Gen.facts) := fun m ρ _ =>
  (θ_run Cert.ReferenceIdeal.defs _ _).mono (fun _ h c => (h c).2.2.2.2) (Cert.ReferenceIdeal.Value.run (F := Ideal) m ρ)

/-- At the exact instance, from memories that agree on the arguments and whose edge sources are nodes, both programs
    end with the input features and the three layers' graph means: the kernel's run names its results at the last
    segment boundary, where they are the padded computation's graph means; the reference's run names its own; and the
    padded computation's graph means are the reference's. -/
theorem algebraic [hP : Cert.Pre_finite_inputs.Facts] : Cert.algebraic_KernelIdeal_ReferenceIdeal (hKernelIdeal := Cert.KernelIdeal.Gen.facts) (hReferenceIdeal := Cert.ReferenceIdeal.Gen.facts) := by
  intro m ρ m' ρ' hpre hagree
  have hrow : ∀ c : Dev Cert.KernelIdeal.nD, Cert.KV.RowOk (m ((c.tc : Thread Cert.KernelIdeal.nD Cert.KernelIdeal.τ).loc Cert.KernelIdeal.main_arg1)) := fun c =>
    Cert.Bridge.rowOk_of_pre _ _ _ _ _ _ _ _ _ _ (hpre c)
  refine ⟨fun c => (m ((c.tc : Thread Cert.KernelIdeal.nD Cert.KernelIdeal.τ).loc Cert.KernelIdeal.main_arg0)),
    fun c => Cert.KV.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.KV.out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.KV.out3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Named.run_named (F := Ideal) m ρ)
    exact ⟨(h c).2.2.2.1, (h c).1.trans (Cert.KV.W22_out1 m ρ c), (h c).2.1.trans (Cert.KV.W22_out2 m ρ c),
      (h c).2.2.1.trans (Cert.KV.W22_out3 m ρ c), (h c).2.2.2⟩
  · refine (θ_run Cert.ReferenceIdeal.defs _ _).mono (fun r h c => ?_) (Cert.ReferenceIdeal.Value.run (F := Ideal) m' ρ')
    obtain ⟨e0, e1, e2, e3, e4, e5, e6, e7, e8, e9⟩ := hagree c
    refine ⟨(h c).1.trans e0, (h c).2.1.trans ?_, (h c).2.2.1.trans ?_, (h c).2.2.2.1.trans ?_, (h c).2.2.2.2⟩
    · rw [Cert.ReferenceIdeal.Read.val_main_v61_eq, e0, e1, e2, e3, e4, e5]
      exact (Cert.Bridge.out1_eq _ _ _ _ _ _ (hrow c)).symm
    · rw [Cert.ReferenceIdeal.Read.val_main_v90_eq, e0, e1, e2, e3, e4, e5, e6, e7]
      exact (Cert.Bridge.out2_eq _ _ _ _ _ _ _ _ (hrow c)).symm
    · rw [Cert.ReferenceIdeal.Read.val_main_v118_eq, e0, e1, e2, e3, e4, e5, e6, e7, e8, e9]
      exact (Cert.Bridge.out3_eq _ _ _ _ _ _ _ _ _ _ (hrow c)).symm

/-- The certificate: the three frames, the idealization (nothing was rewritten), and the equality of results. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
